-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 32 := constantI S_ 32 10000#32
  let main_v36 : IVec S2x640000 32 := broadcastInDim S2x640000 ![] bcast_S_S2x640000 main_c_13
  let main_v37 : IVec S2x640000 1 := cmpi .slt main_arg1 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  main_v40

def fn_part1 {F : FTy → Type} [FloatOps F] (main_arg1 : IVec S2x640000 32) (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S10240 : Shape := ⟨1, ![10240]⟩
abbrev S640000x1 : Shape := ⟨2, ![640000, 1]⟩
abbrev S10240x1 : Shape := ⟨2, ![10240, 1]⟩
abbrev S104857600 : Shape := ⟨1, ![104857600]⟩
abbrev S10240x10240 : Shape := ⟨2, ![10240, 10240]⟩
abbrev S10240x128 : Shape := ⟨2, ![10240, 128]⟩
abbrev S1x128 : Shape := ⟨2, ![1, 128]⟩
abbrev S512x10240 : Shape := ⟨2, ![512, 10240]⟩
abbrev S512x128 : Shape := ⟨2, ![512, 128]⟩
abbrev S512x1 : Shape := ⟨2, ![512, 1]⟩

abbrev nBuf : Space → Nat
  | .hbm => 60
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S10240, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S_, .f32⟩
  | .hbm, ⟨23, _⟩ => ⟨S640000, .f32⟩
  | .hbm, ⟨24, _⟩ => ⟨S10240, .f32⟩
  | .hbm, ⟨25, _⟩ => ⟨S_, .f32⟩
  | .hbm, ⟨26, _⟩ => ⟨S10240, .f32⟩
  | .hbm, ⟨27, _⟩ => ⟨S10240, .f32⟩
  | .hbm, ⟨28, _⟩ => ⟨S_, .f32⟩
  | .hbm, ⟨29, _⟩ => ⟨S10240, .f32⟩
  | .hbm, ⟨30, _⟩ => ⟨S10240, .f32⟩
  | .hbm, ⟨31, _⟩ => ⟨S10240x1, .f32⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S_, .f32⟩
  | .hbm, ⟨37, _⟩ => ⟨S104857600, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S_, .f32⟩
  | .hbm, ⟨47, _⟩ => ⟨S640000, .f32⟩
  | .hbm, ⟨48, _⟩ => ⟨S104857600, .f32⟩
  | .hbm, ⟨49, _⟩ => ⟨S10240x10240, .f32⟩
  | .hbm, ⟨50, _⟩ => ⟨S10240x10240, .bf16⟩
  | .hbm, ⟨51, _⟩ => ⟨S_, .i32⟩
  | .hbm, ⟨52, _⟩ => ⟨S_, .f32⟩
  | .hbm, ⟨53, _⟩ => ⟨S10240x128, .f32⟩
  | .hbm, ⟨54, _⟩ => ⟨S10240x128, .bf16⟩
  | .hbm, ⟨55, _⟩ => ⟨S1x128, .f32⟩
  | .hbm, ⟨56, _⟩ => ⟨S10240x128, .bf16⟩
  | .hbm, ⟨57, _⟩ => ⟨S1x128, .f32⟩
  | .hbm, ⟨58, _⟩ => ⟨S10240x128, .f32⟩
  | .hbm, ⟨59, _⟩ => ⟨S10000x128, .f32⟩
  | .local _ .vmem, ⟨0, _⟩ => ⟨S512x10240, .bf16⟩
  | .local _ .vmem, ⟨1, _⟩ => ⟨S512x10240, .bf16⟩
  | .local _ .vmem, ⟨2, _⟩ => ⟨S512x128, .bf16⟩
  | .local _ .vmem, ⟨3, _⟩ => ⟨S512x128, .bf16⟩
  | .local _ .vmem, ⟨4, _⟩ => ⟨S10240x128, .bf16⟩
  | .local _ .vmem, ⟨5, _⟩ => ⟨S512x1, .f32⟩
  | .local _ .vmem, ⟨6, _⟩ => ⟨S512x1, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S512x128, .bf16⟩
  | .local _ .vmem, ⟨11, _⟩ => ⟨S512x128, .bf16⟩
  | .local _ .vmem, ⟨12, _⟩ => ⟨S512x10240, .bf16⟩
  | .local _ .vmem, ⟨13, _⟩ => ⟨S512x10240, .bf16⟩
  | .local _ .vmem, ⟨14, _⟩ => ⟨S512x128, .bf16⟩
  | .local _ .vmem, ⟨15, _⟩ => ⟨S512x128, .bf16⟩
  | .local _ .vmem, ⟨16, _⟩ => ⟨S10240x128, .bf16⟩
  | .local _ .vmem, ⟨17, _⟩ => ⟨S512x1, .f32⟩
  | .local _ .vmem, ⟨18, _⟩ => ⟨S512x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S512x128, .f32⟩
  | .local _ .vmem, ⟨23, _⟩ => ⟨S512x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_9 : Ref sig .tc := ⟨.hbm, 51, rfl⟩
abbrev main_call0_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10240x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10240x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10240 : S_.BroadcastsInDim S10240 (![] : Fin 0 → Fin S10240.rank)
  bcast_S_S640000 : S_.BroadcastsInDim S640000 (![] : Fin 0 → Fin S640000.rank)
  bcast_S640000_S640000x1_0 : S640000.BroadcastsInDim S640000x1 (![0] : Fin 1 → Fin S640000x1.rank)
  shapeCasts_S10240_S10240x1 : S10240.ShapeCasts S10240x1
  bcast_S_S104857600 : S_.BroadcastsInDim S104857600 (![] : Fin 0 → Fin S104857600.rank)
  shapeCasts_S104857600_S10240x10240 : S104857600.ShapeCasts S10240x10240
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  packedbf16_S512x128_S512x128_0_0 : (Rect.unit (s := S512x128) ![0, 0] S512x128.size inb_S512x128_S512x128_0_0).PackedRows (EltTy.packing .bf16)
  slices_S10240x128_S10000x128_0_0 : S10240x128.Slices ![0, 0] S10000x128
  scatter_S10240_S640000x1_S640000_n_0_0_1_wf : ScatterDims.WF S10240 S640000x1 S640000 [] [0] [0] 1
  scatter_S104857600_S640000x1_S640000_n_0_0_1_wf : ScatterDims.WF S104857600 S640000x1 S640000 [] [0] [0] 1
  dot_S512x10240_S10240x128_S512x128_1_0_0_1_n_n_wf : DotDims.WF S512x10240 S10240x128 S512x128 [1] [0] [0] [1] [] []
  dot_S512x128_S128x128_S512x128_1_1_0_0_n_n_wf : DotDims.WF S512x128 S128x128 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10240.size a ≤ S10240x10240.size a
  hwx0_0 : ∀ i : grid0.Coords, EltTy.bits .bf16 = 32 ∨ (Rect.block (s := S10240x10240) S512x10240.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S10240x128.size a
  hwx0_1 : ∀ i : grid0.Coords, EltTy.bits .bf16 = 32 ∨ (Rect.block (s := S10240x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10240x128.size a ≤ S10240x128.size a
  hwx0_2 : ∀ i : grid0.Coords, EltTy.bits .bf16 = 32 ∨ (Rect.block (s := S10240x128) S10240x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S10240x1.size a
  hwx0_3 : ∀ i : grid0.Coords, EltTy.bits .f32 = 32 ∨ (Rect.block (s := S10240x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S10240x128.size a
  hwx0_7 : ∀ i : grid0.Coords, EltTy.bits .bf16 = 32 ∨ (Rect.block (s := S10240x128) S512x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S10240x128.size a
  hwx1_1 : ∀ i : grid1.Coords, EltTy.bits .bf16 = 32 ∨ (Rect.block (s := S10240x128) S512x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10240x128.size a ≤ S10240x128.size a
  hwx1_2 : ∀ i : grid1.Coords, EltTy.bits .bf16 = 32 ∨ (Rect.block (s := S10240x128) S10240x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S10240x1.size a
  hwx1_3 : ∀ i : grid1.Coords, EltTy.bits .f32 = 32 ∨ (Rect.block (s := S10240x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S10240x128.size a
  hwx1_7 : ∀ i : grid1.Coords, EltTy.bits .f32 = 32 ∨ (Rect.block (s := S10240x128) S512x128.size (cc1_transform_7 i) (hinb1_7 i)).WholeWords (EltTy.packing .f32)

variable [Facts₀]

def scatter_S10240_S640000x1_S640000_n_0_0_1 : ScatterDims S10240 S640000x1 S640000 where
  updateWindowDims := []
  insertedWindowDims := [0]
  scatterDimsToOperandDims := [0]
  indexVectorDim := 1
  wf := scatter_S10240_S640000x1_S640000_n_0_0_1_wf
def scatter_S104857600_S640000x1_S640000_n_0_0_1 : ScatterDims S104857600 S640000x1 S640000 where
  updateWindowDims := []
  insertedWindowDims := [0]
  scatterDimsToOperandDims := [0]
  indexVectorDim := 1
  wf := scatter_S104857600_S640000x1_S640000_n_0_0_1_wf
def dot_S512x10240_S10240x128_S512x128_1_0_0_1_n_n : DotDims S512x10240 S10240x128 S512x128 where
  lhsContracting := [1]
  rhsContracting := [0]
  lhsNonContracting := [0]
  rhsNonContracting := [1]
  lhsBatch := []
  rhsBatch := []
  wf := dot_S512x10240_S10240x128_S512x128_1_0_0_1_n_n_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf

abbrev win0_0 : Pipeline.Window sig grid0 :=
  Pipeline.Window.ofSpec (Memref.whole main_v31) S512x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10240x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10240x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S10000, .f32⟩
  | .hbm, ⟨29, _⟩ => ⟨S640000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S128x128, .f32⟩
  | .hbm, ⟨38, _⟩ => ⟨S10000x128, .f32⟩
  | .hbm, ⟨39, _⟩ => ⟨S128x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S10000x128, .f32⟩
  | .hbm, ⟨59, _⟩ => ⟨S640000x1, .i32⟩
  | .hbm, ⟨60, _⟩ => ⟨S10000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S10000, .f32⟩
  | .hbm, ⟨65, _⟩ => ⟨S640000x1, .i32⟩
  | .hbm, ⟨66, _⟩ => ⟨S10000, .f32⟩
  | .hbm, ⟨67, _⟩ => ⟨S_, .f32⟩
  | .hbm, ⟨68, _⟩ => ⟨S10000, .f32⟩
  | .hbm, ⟨69, _⟩ => ⟨S10000, .f32⟩
  | .hbm, ⟨70, _⟩ => ⟨S10000x1, .f32⟩
  | .hbm, ⟨71, _⟩ => ⟨S10000x128, .f32⟩
  | .hbm, ⟨72, _⟩ => ⟨S10000x128, .f32⟩
  | .hbm, ⟨73, _⟩ => ⟨S128x128, .f32⟩
  | .hbm, ⟨74, _⟩ => ⟨S10000x128, .f32⟩
  | .hbm, ⟨75, _⟩ => ⟨S128x128, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Shares.lean ====
/-
  How the eight windows of a region hold their arrays: the node-feature table is read through two windows at once
  (a 512-row tile that moves with the grid point, and the whole table), so each of the two holds half of it; every
  other window holds its array alone.
-/
import Idealize.ShloMosaic.Lib.Pipeline.Kit

noncomputable section

namespace Cert.Sage

open Idealize.ShloMosaic Idealize.SL Idealize.SL.RA

/-- Window 1 (the row tile) and window 2 (the whole table) split the table's buffer; the others hold theirs whole. -/
def shares : Fin 8 → PosShare TreeShare := fun w => if w = 1 then fullShare.left else if w = 2 then fullShare.right else fullShare

end Cert.Sage

end
-- ==== Proof.KBody.lean ====
/-
  The two kernel regions of the program, each at the contents its region is entered with: what every window's
  staging buffer holds when the body is called at a grid point (its block of the array), what the body leaves in the
  output buffer (one store of the whole 512 x 128 block: the body's arithmetic of the seven input blocks), and the
  body's triple. Each region walks 20 row tiles; the adjacency tile, the node-feature row tile and the inverse-degree
  tile move with the point, the whole node-feature table, both weight tables and the bias stay.
-/
import proofs.«415242_j61186104099485_2_alg».proof.Proof.Gen.Kernel.Launch
import proofs.«415242_j61186104099485_2_alg».proof.Proof.Gen.Kernel.Skeleton
import proofs.«415242_j61186104099485_2_alg».proof.Proof.Gen.Kernel.Points
import proofs.«415242_j61186104099485_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Sage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer rectangles the body loads and stores through -/

abbrev r_S512x10240 : Rect S512x10240 := Rect.unit (s := S512x10240) ![0, 0] S512x10240.size inb_S512x10240_S512x10240_0_0
abbrev r_S10240x128 : Rect S10240x128 := Rect.unit (s := S10240x128) ![0, 0] S10240x128.size inb_S10240x128_S10240x128_0_0
abbrev r_S512x1 : Rect S512x1 := Rect.unit (s := S512x1) ![0, 0] S512x1.size inb_S512x1_S512x1_0_0
abbrev r_S512x128 : Rect S512x128 := Rect.unit (s := S512x128) ![0, 0] S512x128.size inb_S512x128_S512x128_0_0
abbrev r_S128x128 : Rect S128x128 := Rect.unit (s := S128x128) ![0, 0] S128x128.size inb_S128x128_S128x128_0_0
abbrev r_S1x128 : Rect S1x128 := Rect.unit (s := S1x128) ![0, 0] S1x128.size inb_S1x128_S1x128_0_0

/-! # Region 0: the kernel of pallas_call 0, at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output block after the body, from the input blocks: one store of the whole block, whose value is the body's arithmetic. -/
def out0_7 (x0 : Vec F S512x10240 .bf16) (x1 : Vec F S512x128 .bf16) (x2 : Vec F S10240x128 .bf16) (x3 : Vec F S512x1 .f32) (x4 : Vec F S128x128 .f32) (x5 : Vec F S128x128 .f32) (x6 : Vec F S1x128 .f32) : Vec F S512x128 .bf16 :=
  View.canon [⟨r_S512x128, k0_pay1 (View.ld x0 r_S512x10240) (View.ld x2 r_S10240x128) (View.ld x3 r_S512x1) (View.ld x1 r_S512x128) (View.ld x4 r_S128x128) (View.ld x5 r_S128x128) (View.ld x6 r_S1x128)⟩]

/-- The one store covers the block. -/
theorem cover0_7 (p0 : Vec F S512x128 .bf16) (y : S512x128.Idx) :
    ∃ pc ∈ ([⟨r_S512x128, p0⟩] : List (View.Piece (Elt F) S512x128 .bf16)), y ∈ pc.1.set :=
  View.cover_of_tiled [⟨r_S512x128, p0⟩] S512x128.size (by rfl) y

set_option maxHeartbeats 4000000 in
/-- The body on whole staging buffers: the inputs at `xW` stay, the output ends at `out0_7` of them. -/
theorem sound_kernel0 (c : Dev nD) (E : Set ℕ) (i : grid0.Coords)
    (arg1 : Memref sig .tc .vmem S512x10240 .bf16) (harg1 : arg1.IsWhole) (arg2 : Memref sig .tc .vmem S512x128 .bf16) (harg2 : arg2.IsWhole)
    (arg3 : Memref sig .tc .vmem S10240x128 .bf16) (harg3 : arg3.IsWhole) (arg4 : Memref sig .tc .vmem S512x1 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S512x128 .bf16) (harg8 : arg8.IsWhole)
    (x0 : Vec F S512x10240 .bf16) (x1 : Vec F S512x128 .bf16) (x2 : Vec F S10240x128 .bf16) (x3 : Vec F S512x1 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of pipeline 0 on core `c`: the arrays as the region finds them; after the body at point `t` each
    input's buffer at its block and the output's at `out0_7` of the input blocks; nothing owed. The table of node
    features is read through two windows (a row tile and the whole table): each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := shares
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = shares w := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the kernel of pallas_call 1, at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The output block after the body, from the input blocks: one store of the whole block, whose value is the body's arithmetic. -/
def out1_7 (x0 : Vec F S512x10240 .bf16) (x1 : Vec F S512x128 .bf16) (x2 : Vec F S10240x128 .bf16) (x3 : Vec F S512x1 .f32) (x4 : Vec F S128x128 .f32) (x5 : Vec F S128x128 .f32) (x6 : Vec F S1x128 .f32) : Vec F S512x128 .f32 :=
  View.canon [⟨r_S512x128, k1_pay1 (View.ld x0 r_S512x10240) (View.ld x2 r_S10240x128) (View.ld x3 r_S512x1) (View.ld x1 r_S512x128) (View.ld x4 r_S128x128) (View.ld x5 r_S128x128) (View.ld x6 r_S1x128)⟩]

/-- The one store covers the block. -/
theorem cover1_7 (p0 : Vec F S512x128 .f32) (y : S512x128.Idx) :
    ∃ pc ∈ ([⟨r_S512x128, p0⟩] : List (View.Piece (Elt F) S512x128 .f32)), y ∈ pc.1.set :=
  View.cover_of_tiled [⟨r_S512x128, p0⟩] S512x128.size (by rfl) y

set_option maxHeartbeats 4000000 in
/-- The body on whole staging buffers: the inputs at `xW` stay, the output ends at `out1_7` of them. -/
theorem sound_kernel1 (c : Dev nD) (E : Set ℕ) (i : grid1.Coords)
    (arg1 : Memref sig .tc .vmem S512x10240 .bf16) (harg1 : arg1.IsWhole) (arg2 : Memref sig .tc .vmem S512x128 .bf16) (harg2 : arg2.IsWhole)
    (arg3 : Memref sig .tc .vmem S10240x128 .bf16) (harg3 : arg3.IsWhole) (arg4 : Memref sig .tc .vmem S512x1 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S512x128 .f32) (harg8 : arg8.IsWhole)
    (x0 : Vec F S512x10240 .bf16) (x1 : Vec F S512x128 .bf16) (x2 : Vec F S10240x128 .bf16) (x3 : Vec F S512x1 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of pipeline 1 on core `c`: the arrays as the region finds them; after the body at point `t` each
    input's buffer at its block and the output's at `out1_7` of the input blocks; nothing owed. The table of node
    features is read through two windows (a row tile and the whole table): each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := shares
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = shares w := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KShareSplit.lean ====
/-
  A region's arrays and the core's unscoped buffers, when two windows read one array.

  In each of the two pipelines, windows 1 and 2 read the same buffer: one holds its left half share, the other its
  right half share, and every other window holds its buffer at the full share. The two halves of a share, held at the
  same contents, are the whole; so the eight windows' holdings are exactly the seven distinct buffers behind them,
  each whole at the full share. With that, the core's unscoped buffers split into a pipeline's arrays and the rest at a
  region's entry, and are put back together, at a valuation updated at the arrays, at its exit.
-/
import proofs.«415242_j61186104099485_2_alg».proof.Proof.Gen.Kernel.Launch
import proofs.«415242_j61186104099485_2_alg».proof.Proof.Shares
import Idealize.ShloMosaic.Lib.Pipeline.Kit
import Idealize.ShloMosaic.Lib.Pipeline.Regions

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen Cert.Sage

variable {F : FTy → Type} [FloatOps F]

local notation "𝕄" => MT nD τ sig Unit (Elt F) ℕ (UR sig nD τ) ℕ

/-- A buffer whole at the full share is its left half and its right half, both at the same contents. -/
theorem pointsTo_halves {ℓ : Loc nD τ sig} (f : Buf (Elt F) ℓ) :
    (ℓ ↦{fullShare} f : sProp 𝕄) = iprop((ℓ ↦{fullShare.left} f) ∗ ℓ ↦{fullShare.right} f) := by
  have h : (ℓ ↦{fullShare} f : sProp 𝕄) ⊣⊢ iprop((ℓ ↦{fullShare.left} f) ∗ ℓ ↦{fullShare.right} f) :=
    pointsTo_share (PosShare.mem_left_op_right fullShare)
  exact BI.equiv_iff.mp ⟨h.1, h.2⟩

/-- Separating conjunction reassociated, as an equation. -/
theorem sep_assoc_eq (P Q R : sProp 𝕄) : iprop((P ∗ Q) ∗ R) = iprop(P ∗ Q ∗ R) := by
  have h : iprop((P ∗ Q) ∗ R) ⊣⊢ iprop(P ∗ Q ∗ R) := Laws.sep_assoc
  exact BI.equiv_iff.mp ⟨h.1, h.2⟩

/-! ## Pipeline 0 -/

/-- The buffers behind pipeline 0's eight windows, listed once each. -/
theorem arrRefs0 : Finset.univ.image (Pipeline.arrRef spec0) = [main_v31, main_v33, main_v17, main_arg2, main_arg3, main_v34, main_v35].toFinset := by decide

/-- Every window of pipeline 0 holds its array at the share the assignment gives it: an input at its own, and the
    output, window 7, at the full share, which is also what the assignment gives window 7. -/
theorem share_eq0 (c : Dev nD) (dat : Dat τ (Elt F) Unit ℕ (UR sig nD τ) ℕ cfg0 c) (hq : ∀ w, dat.q w = shares w) (w : Fin cfg0.W) :
    dat.share w = shares w := by
  unfold Dat.share; rw [hq]
  match w with
  | 0 => rfl | 1 => rfl | 2 => rfl | 3 => rfl | 4 => rfl | 5 => rfl | 6 => rfl | 7 => rfl

/-- Pipeline 0's arrays, at contents read off a valuation `V` of the core's buffers, are the distinct buffers behind
    them, each whole at the full share at `V`: windows 1 and 2 hold the two halves of one buffer at the same contents,
    which together are that buffer at the full share; every other window holds its buffer alone. -/
theorem arrays_eq_arrBufs0 (c : Dev nD) (dat : Dat τ (Elt F) Unit ℕ (UR sig nD τ) ℕ cfg0 c) (hq : ∀ w, dat.q w = shares w)
    (V : (b : Ref sig .tc) → Buf (Elt F) ((c : Thread nD τ).loc b))
    (Fn : (w : Fin cfg0.W) → Buf (Elt F) ((cfg0.win w).arr.view.loc (c : Thread nD τ)))
    (hF : ∀ w, Fn w = V (Pipeline.arrRef spec0 w)) :
    (dat.arrays Fn : sProp 𝕄) = Pipeline.arrBufs spec0 c V := by
  have e : (dat.arrays Fn : sProp 𝕄) = bigSep Finset.univ fun w : Fin 8 =>
      (((c : Thread nD τ).loc (Pipeline.arrRef spec0 w)) ↦{shares w} V (Pipeline.arrRef spec0 w) : sProp 𝕄) := by
    unfold Dat.arrays
    exact bigSep_congr fun w _ => by rw [(arr_whole0 w).set_eq_univ, share_eq0 c dat hq w, hF w]
  rw [e]
  unfold Pipeline.arrBufs
  rw [bigSep_W0, bigSep_eq_bigSepL_of_eq _ arrRefs0 (by decide)]
  simp only [bigSepL_cons_cons, bigSepL_singleton]
  rw [pointsTo_halves (V main_v33)]
  refine Eq.trans ?_ (congrArg (BI.sep _) (sep_assoc_eq _ _ _).symm)
  rfl

/-- The core's unscoped buffers are the buffers behind pipeline 0's arrays and the rest. -/
theorem unscopedBufs_eq0 (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs (0 : Fin 2) winFacts₀0.arr_unscoped c V

/-- ENTRY: a core's unscoped buffers at contents `V` are pipeline 0's arrays, each window at its share, at the
    contents `V` has at them, and the unscoped rest. -/
theorem arrays_of_unscopedBufs0 (c : Dev nD) (dat : Dat τ (Elt F) Unit ℕ (UR sig nD τ) ℕ cfg0 c) (hq : ∀ w, dat.q w = shares w)
    (V : (b : Ref sig .tc) → Buf (Elt F) ((c : Thread nD τ).loc b))
    (Fn : (w : Fin cfg0.W) → Buf (Elt F) ((cfg0.win w).arr.view.loc (c : Thread nD τ)))
    (hF : ∀ w, Fn w = V (Pipeline.arrRef spec0 w)) :
    (unscopedBufs c V : sProp 𝕄) ⊢ iprop(dat.arrays Fn ∗ Pipeline.unscopedRest spec0 c V) := by
  rw [unscopedBufs_eq0 c V, arrays_eq_arrBufs0 c dat hq V Fn hF]

/-- EXIT: pipeline 0's arrays at contents `Fn`, each window at its share, and the unscoped rest at `V` are the
    core's unscoped buffers at any valuation `V'` that has the arrays at `Fn` and agrees with `V` off them. -/
theorem unscopedBufs_of_arrays0 (c : Dev nD) (dat : Dat τ (Elt F) Unit ℕ (UR sig nD τ) ℕ cfg0 c) (hq : ∀ w, dat.q w = shares w)
    (V V' : (b : Ref sig .tc) → Buf (Elt F) ((c : Thread nD τ).loc b))
    (Fn : (w : Fin cfg0.W) → Buf (Elt F) ((cfg0.win w).arr.view.loc (c : Thread nD τ)))
    (hF : ∀ w, Fn w = V' (Pipeline.arrRef spec0 w))
    (hrest : ∀ b, b ∉ Finset.univ.image (Pipeline.arrRef spec0) → V' b = V b) :
    iprop(dat.arrays Fn ∗ Pipeline.unscopedRest spec0 c V) ⊢ (unscopedBufs c V' : sProp 𝕄) := by
  rw [unscopedBufs_eq0 c V', arrays_eq_arrBufs0 c dat hq V' Fn hF]
  refine sep_mono .rfl (Entails.of_eq ?_)
  unfold Pipeline.unscopedRest
  exact bigSep_congr fun b hb => by rw [hrest b (Finset.mem_sdiff.mp hb).2]

/-! ## Pipeline 1 -/

/-- The buffers behind pipeline 1's eight windows, listed once each. -/
theorem arrRefs1 : Finset.univ.image (Pipeline.arrRef spec1) = [main_v31, main_v35, main_v17, main_arg5, main_arg6, main_v36, main_v37].toFinset := by decide

/-- Every window of pipeline 1 holds its array at the share the assignment gives it: an input at its own, and the
    output, window 7, at the full share, which is also what the assignment gives window 7. -/
theorem share_eq1 (c : Dev nD) (dat : Dat τ (Elt F) Unit ℕ (UR sig nD τ) ℕ cfg1 c) (hq : ∀ w, dat.q w = shares w) (w : Fin cfg1.W) :
    dat.share w = shares w := by
  unfold Dat.share; rw [hq]
  match w with
  | 0 => rfl | 1 => rfl | 2 => rfl | 3 => rfl | 4 => rfl | 5 => rfl | 6 => rfl | 7 => rfl

/-- Pipeline 1's arrays, at contents read off a valuation `V` of the core's buffers, are the distinct buffers behind
    them, each whole at the full share at `V`: windows 1 and 2 hold the two halves of one buffer at the same contents,
    which together are that buffer at the full share; every other window holds its buffer alone. -/
theorem arrays_eq_arrBufs1 (c : Dev nD) (dat : Dat τ (Elt F) Unit ℕ (UR sig nD τ) ℕ cfg1 c) (hq : ∀ w, dat.q w = shares w)
    (V : (b : Ref sig .tc) → Buf (Elt F) ((c : Thread nD τ).loc b))
    (Fn : (w : Fin cfg1.W) → Buf (Elt F) ((cfg1.win w).arr.view.loc (c : Thread nD τ)))
    (hF : ∀ w, Fn w = V (Pipeline.arrRef spec1 w)) :
    (dat.arrays Fn : sProp 𝕄) = Pipeline.arrBufs spec1 c V := by
  have e : (dat.arrays Fn : sProp 𝕄) = bigSep Finset.univ fun w : Fin 8 =>
      (((c : Thread nD τ).loc (Pipeline.arrRef spec1 w)) ↦{shares w} V (Pipeline.arrRef spec1 w) : sProp 𝕄) := by
    unfold Dat.arrays
    exact bigSep_congr fun w _ => by rw [(arr_whole1 w).set_eq_univ, share_eq1 c dat hq w, hF w]
  rw [e]
  unfold Pipeline.arrBufs
  rw [bigSep_W1, bigSep_eq_bigSepL_of_eq _ arrRefs1 (by decide)]
  simp only [bigSepL_cons_cons, bigSepL_singleton]
  rw [pointsTo_halves (V main_v35)]
  refine Eq.trans ?_ (congrArg (BI.sep _) (sep_assoc_eq _ _ _).symm)
  rfl

/-- The core's unscoped buffers are the buffers behind pipeline 1's arrays and the rest. -/
theorem unscopedBufs_eq1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs (1 : Fin 2) winFacts₀1.arr_unscoped c V

/-- ENTRY: a core's unscoped buffers at contents `V` are pipeline 1's arrays, each window at its share, at the
    contents `V` has at them, and the unscoped rest. -/
theorem arrays_of_unscopedBufs1 (c : Dev nD) (dat : Dat τ (Elt F) Unit ℕ (UR sig nD τ) ℕ cfg1 c) (hq : ∀ w, dat.q w = shares w)
    (V : (b : Ref sig .tc) → Buf (Elt F) ((c : Thread nD τ).loc b))
    (Fn : (w : Fin cfg1.W) → Buf (Elt F) ((cfg1.win w).arr.view.loc (c : Thread nD τ)))
    (hF : ∀ w, Fn w = V (Pipeline.arrRef spec1 w)) :
    (unscopedBufs c V : sProp 𝕄) ⊢ iprop(dat.arrays Fn ∗ Pipeline.unscopedRest spec1 c V) := by
  rw [unscopedBufs_eq1 c V, arrays_eq_arrBufs1 c dat hq V Fn hF]

/-- EXIT: pipeline 1's arrays at contents `Fn`, each window at its share, and the unscoped rest at `V` are the
    core's unscoped buffers at any valuation `V'` that has the arrays at `Fn` and agrees with `V` off them. -/
theorem unscopedBufs_of_arrays1 (c : Dev nD) (dat : Dat τ (Elt F) Unit ℕ (UR sig nD τ) ℕ cfg1 c) (hq : ∀ w, dat.q w = shares w)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  rw [unscopedBufs_eq1 c V', arrays_eq_arrBufs1 c dat hq V' Fn hF]
  refine sep_mono .rfl (Entails.of_eq ?_)
  unfold Pipeline.unscopedRest
  exact bigSep_congr fun b hb => by rw [hrest b (Finset.mem_sdiff.mp hb).2]

end Cert.Kernel.Fr

end
-- ==== Proof.KRun.lean ====
/-
  The whole run of the program: the buffer contents between its seven items (three stretches of host operations, the
  first kernel region, one host operation, the second kernel region, the final slice), each region as a segment over
  "every unscoped buffer at the boundary's contents", and the run itself: every weakly fair execution terminates and
  the final memory holds every unscoped buffer at the last boundary's contents.
-/
import proofs.«415242_j61186104099485_2_alg».proof.Proof.KBody
import proofs.«415242_j61186104099485_2_alg».proof.Proof.KShareSplit
import proofs.«415242_j61186104099485_2_alg».proof.Proof.Gen.Kernel.Regions

set_option maxRecDepth 16384

noncomputable section

namespace Cert.Kernel.Fr

open Cert.Kernel Cert.Kernel.Gen Cert.Sage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- What the first region is entered with, read at the TensorCore's references. -/
abbrev E0 : (c : Dev nD) → (b : Ref sig .tc) → Buf (Elt F) ((c : Thread nD τ).loc b) := fun c b => V3 m c b
/-- After the first region: its output array at what the write-backs leave, every other buffer as entered. -/
def W4 (c : Dev nD) : Valuation τ sig (Elt F) :=
  Function.update (V3 m c) (Proc.devRef .tc main_v35) ((dat0 (E0 m) c).arrAt 7 cfg0.N)
/-- After the bias row of the second layer is laid out. -/
abbrev W5 (c : Dev nD) : Valuation τ sig (Elt F) := StableHlo.after hostOps1 (W4 m c)
/-- What the second region is entered with. -/
abbrev E1 : (c : Dev nD) → (b : Ref sig .tc) → Buf (Elt F) ((c : Thread nD τ).loc b) := fun c b => W5 m c b
/-- After the second region. -/
def W6 (c : Dev nD) : Valuation τ sig (Elt F) :=
  Function.update (W5 m c) (Proc.devRef .tc main_v37) ((dat1 (E1 m) c).arrAt 7 cfg1.N)
/-- After the final slice. -/
abbrev W7 (c : Dev nD) : Valuation τ sig (Elt F) := StableHlo.after hostOps2 (W6 m c)

theorem W4_out (c : Dev nD) : W4 m c (Proc.devRef .tc main_v35) = (dat0 (E0 m) c).arrAt 7 cfg0.N := by
  unfold W4; exact Function.update_self ..
theorem W4_of (c : Dev nD) (r : Ref sig .tc) (h : r ∉ ([main_v35] : List (Ref sig .tc))) : W4 m c r = V3 m c r := by
  unfold W4; exact Function.update_of_ne (StableHlo.devRef_ne_of_ne (List.ne_of_not_mem_cons h) : (Proc.devRef .tc r : DevRef τ sig) ≠ Proc.devRef .tc main_v35) ..
theorem W5_of (c : Dev nD) (r : Ref sig .tc) (h : r ∉ hostOps1_W) : W5 m c r = W4 m c r :=
  StableHlo.after_of_writes_sub hostOps1 _ hostOps1_writes h
theorem W6_out (c : Dev nD) : W6 m c (Proc.devRef .tc main_v37) = (dat1 (E1 m) c).arrAt 7 cfg1.N := by
  unfold W6; exact Function.update_self ..
theorem W6_of (c : Dev nD) (r : Ref sig .tc) (h : r ∉ ([main_v37] : List (Ref sig .tc))) : W6 m c r = W5 m c r := by
  unfold W6; exact Function.update_of_ne (StableHlo.devRef_ne_of_ne (List.ne_of_not_mem_cons h) : (Proc.devRef .tc r : DevRef τ sig) ≠ Proc.devRef .tc main_v37) ..
theorem W7_of (c : Dev nD) (r : Ref sig .tc) (h : r ∉ hostOps2_W) : W7 m c r = W6 m c r :=
  StableHlo.after_of_writes_sub hostOps2 _ hostOps2_writes h

/-! ## No item writes an argument -/

theorem W7_main_arg0 (c : Dev nD) : W7 m c (Proc.devRef .tc main_arg0) = m ((c : Thread nD τ).loc main_arg0) :=
  (W7_of m c main_arg0 (by decide)).trans <| (W6_of m c main_arg0 (by decide)).trans <| (W5_of m c main_arg0 (by decide)).trans <| (W4_of m c main_arg0 (by decide)).trans <| (V3_of m c main_arg0 (by decide)).trans <| (V2_of m c main_arg0 (by decide)).trans <| (V1_of m c main_arg0 (by decide)).trans rfl
theorem W7_main_arg1 (c : Dev nD) : W7 m c (Proc.devRef .tc main_arg1) = m ((c : Thread nD τ).loc main_arg1) :=
  (W7_of m c main_arg1 (by decide)).trans <| (W6_of m c main_arg1 (by decide)).trans <| (W5_of m c main_arg1 (by decide)).trans <| (W4_of m c main_arg1 (by decide)).trans <| (V3_of m c main_arg1 (by decide)).trans <| (V2_of m c main_arg1 (by decide)).trans <| (V1_of m c main_arg1 (by decide)).trans rfl
theorem W7_main_arg2 (c : Dev nD) : W7 m c (Proc.devRef .tc main_arg2) = m ((c : Thread nD τ).loc main_arg2) :=
  (W7_of m c main_arg2 (by decide)).trans <| (W6_of m c main_arg2 (by decide)).trans <| (W5_of m c main_arg2 (by decide)).trans <| (W4_of m c main_arg2 (by decide)).trans <| (V3_of m c main_arg2 (by decide)).trans <| (V2_of m c main_arg2 (by decide)).trans <| (V1_of m c main_arg2 (by decide)).trans rfl
theorem W7_main_arg3 (c : Dev nD) : W7 m c (Proc.devRef .tc main_arg3) = m ((c : Thread nD τ).loc main_arg3) :=
  (W7_of m c main_arg3 (by decide)).trans <| (W6_of m c main_arg3 (by decide)).trans <| (W5_of m c main_arg3 (by decide)).trans <| (W4_of m c main_arg3 (by decide)).trans <| (V3_of m c main_arg3 (by decide)).trans <| (V2_of m c main_arg3 (by decide)).trans <| (V1_of m c main_arg3 (by decide)).trans rfl
theorem W7_main_arg4 (c : Dev nD) : W7 m c (Proc.devRef .tc main_arg4) = m ((c : Thread nD τ).loc main_arg4) :=
  (W7_of m c main_arg4 (by decide)).trans <| (W6_of m c main_arg4 (by decide)).trans <| (W5_of m c main_arg4 (by decide)).trans <| (W4_of m c main_arg4 (by decide)).trans <| (V3_of m c main_arg4 (by decide)).trans <| (V2_of m c main_arg4 (by decide)).trans <| (V1_of m c main_arg4 (by decide)).trans rfl
theorem W7_main_arg5 (c : Dev nD) : W7 m c (Proc.devRef .tc main_arg5) = m ((c : Thread nD τ).loc main_arg5) :=
  (W7_of m c main_arg5 (by decide)).trans <| (W6_of m c main_arg5 (by decide)).trans <| (W5_of m c main_arg5 (by decide)).trans <| (W4_of m c main_arg5 (by decide)).trans <| (V3_of m c main_arg5 (by decide)).trans <| (V2_of m c main_arg5 (by decide)).trans <| (V1_of m c main_arg5 (by decide)).trans rfl
theorem W7_main_arg6 (c : Dev nD) : W7 m c (Proc.devRef .tc main_arg6) = m ((c : Thread nD τ).loc main_arg6) :=
  (W7_of m c main_arg6 (by decide)).trans <| (W6_of m c main_arg6 (by decide)).trans <| (W5_of m c main_arg6 (by decide)).trans <| (W4_of m c main_arg6 (by decide)).trans <| (V3_of m c main_arg6 (by decide)).trans <| (V2_of m c main_arg6 (by decide)).trans <| (V1_of m c main_arg6 (by decide)).trans rfl
theorem W7_main_arg7 (c : Dev nD) : W7 m c (Proc.devRef .tc main_arg7) = m ((c : Thread nD τ).loc main_arg7) :=
  (W7_of m c main_arg7 (by decide)).trans <| (W6_of m c main_arg7 (by decide)).trans <| (W5_of m c main_arg7 (by decide)).trans <| (W4_of m c main_arg7 (by decide)).trans <| (V3_of m c main_arg7 (by decide)).trans <| (V2_of m c main_arg7 (by decide)).trans <| (V1_of m c main_arg7 (by decide)).trans rfl

/-! ## The proof data family -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)

set_option maxHeartbeats 2000000 in
theorem hF0 (c : Dev nD) (w : Fin cfg0.W) : (pdats m 0 c).arrAt w cfg0.N = (fun b => W4 m c b) (Pipeline.arrRef spec0 w) := by
  match w with
  | ⟨0, _⟩ => exact (((pdats m 0 c).arrAt_in 0 rfl _).trans (A_eq0 (E0 m) c 0)).trans (W4_of m c main_v31 (by decide)).symm
  | ⟨1, _⟩ => exact (((pdats m 0 c).arrAt_in 1 rfl _).trans (A_eq0 (E0 m) c 1)).trans (W4_of m c main_v33 (by decide)).symm
  | ⟨2, _⟩ => exact (((pdats m 0 c).arrAt_in 2 rfl _).trans (A_eq0 (E0 m) c 2)).trans (W4_of m c main_v33 (by decide)).symm
  | ⟨3, _⟩ => exact (((pdats m 0 c).arrAt_in 3 rfl _).trans (A_eq0 (E0 m) c 3)).trans (W4_of m c main_v17 (by decide)).symm
  | ⟨4, _⟩ => exact (((pdats m 0 c).arrAt_in 4 rfl _).trans (A_eq0 (E0 m) c 4)).trans (W4_of m c main_arg2 (by decide)).symm
  | ⟨5, _⟩ => exact (((pdats m 0 c).arrAt_in 5 rfl _).trans (A_eq0 (E0 m) c 5)).trans (W4_of m c main_arg3 (by decide)).symm
  | ⟨6, _⟩ => exact (((pdats m 0 c).arrAt_in 6 rfl _).trans (A_eq0 (E0 m) c 6)).trans (W4_of m c main_v34 (by decide)).symm
  | ⟨7, _⟩ => exact (W4_out m c).symm
theorem hrest0 (c : Dev nD) : ∀ b, b ∉ Finset.univ.image (Pipeline.arrRef spec0) → (fun b => W4 m c b) b = E0 m c b :=
  fun b hb => W4_of m c b (fun h => hb (by rw [List.mem_singleton.mp h]; exact Finset.mem_image.mpr ⟨7, Finset.mem_univ _, rfl⟩))
set_option maxHeartbeats 2000000 in
theorem hF1 (c : Dev nD) (w : Fin cfg1.W) : (pdats m 1 c).arrAt w cfg1.N = (fun b => W6 m c b) (Pipeline.arrRef spec1 w) := by
  match w with
  | ⟨0, _⟩ => exact (((pdats m 1 c).arrAt_in 0 rfl _).trans (A_eq1 (E1 m) c 0)).trans (W6_of m c main_v31 (by decide)).symm
  | ⟨1, _⟩ => exact (((pdats m 1 c).arrAt_in 1 rfl _).trans (A_eq1 (E1 m) c 1)).trans (W6_of m c main_v35 (by decide)).symm
  | ⟨2, _⟩ => exact (((pdats m 1 c).arrAt_in 2 rfl _).trans (A_eq1 (E1 m) c 2)).trans (W6_of m c main_v35 (by decide)).symm
  | ⟨3, _⟩ => exact (((pdats m 1 c).arrAt_in 3 rfl _).trans (A_eq1 (E1 m) c 3)).trans (W6_of m c main_v17 (by decide)).symm
  | ⟨4, _⟩ => exact (((pdats m 1 c).arrAt_in 4 rfl _).trans (A_eq1 (E1 m) c 4)).trans (W6_of m c main_arg5 (by decide)).symm
  | ⟨5, _⟩ => exact (((pdats m 1 c).arrAt_in 5 rfl _).trans (A_eq1 (E1 m) c 5)).trans (W6_of m c main_arg6 (by decide)).symm
  | ⟨6, _⟩ => exact (((pdats m 1 c).arrAt_in 6 rfl _).trans (A_eq1 (E1 m) c 6)).trans (W6_of m c main_v36 (by decide)).symm
  | ⟨7, _⟩ => exact (W6_out m c).symm
theorem hrest1 (c : Dev nD) : ∀ b, b ∉ Finset.univ.image (Pipeline.arrRef spec1) → (fun b => W6 m c b) b = E1 m c b :=
  fun b hb => W6_of m c b (fun h => hb (by rw [List.mem_singleton.mp h]; exact Finset.mem_image.mpr ⟨7, Finset.mem_univ _, rfl⟩))

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered with every unscoped buffer at its entry contents, left with the output
    array at what the write-backs leave and every other buffer as entered. The arrays are split out of the unscoped
    buffers (the shared table into its two halves) and put back at the exit; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := arrays_of_unscopedBufs0 (F := F) c (pdats m 0 c) (fun w => q_eq0 (E0 m) c w) (E0 m c)
      ((pdats m 0 c).arrAt · 0) (fun w => A_eq0 (E0 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (F := F) c (pdats m 0 c) (fun w => q_eq0 (E0 m) c w)
      (E0 m c) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the output
    array at what the write-backs leave and every other buffer as entered. The arrays are split out of the unscoped
    buffers (the shared table into its two halves) and put back at the exit; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays_of_unscopedBufs1 (F := F) c (pdats m 1 c) (fun w => q_eq1 (E1 m) c w) (E1 m c)
      ((pdats m 1 c).arrAt · 0) (fun w => A_eq1 (E1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) c (pdats m 1 c) (fun w => q_eq1 (E1 m) c w)
      (E1 m c) (fun b => W6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's seven items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .region (reg1 m),
    .host (hseg hostOps2 hostOps2_sub hostOps2_fresh (W6 m)) ]

set_option backward.isDefEq.respectTransparency.types false in
/-- THE RUN: from any memory with zero counters every weakly fair execution terminates, nothing faulting, and the final
    memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W7_main_arg0 m c), (h c _ (mem_uc main_arg1 (by decide))).trans (W7_main_arg1 m c),
     (h c _ (mem_uc main_arg2 (by decide))).trans (W7_main_arg2 m c), (h c _ (mem_uc main_arg3 (by decide))).trans (W7_main_arg3 m c),
     (h c _ (mem_uc main_arg4 (by decide))).trans (W7_main_arg4 m c), (h c _ (mem_uc main_arg5 (by decide))).trans (W7_main_arg5 m c),
     (h c _ (mem_uc main_arg6 (by decide))).trans (W7_main_arg6 m c), (h c _ (mem_uc main_arg7 (by decide))).trans (W7_main_arg7 m c)⟩)
    (run_all m ρ)

end Cert.Kernel.Fr

end
-- ==== Proof.KIBody.lean ====
/-
  The two kernel regions of the program, each at the contents its region is entered with: what every window's
  staging buffer holds when the body is called at a grid point (its block of the array), what the body leaves in the
  output buffer (one store of the whole 512 x 128 block: the body's arithmetic of the seven input blocks), and the
  body's triple. Each region walks 20 row tiles; the adjacency tile, the node-feature row tile and the inverse-degree
  tile move with the point, the whole node-feature table, both weight tables and the bias stay.
-/
import proofs.«415242_j61186104099485_2_alg».proof.Proof.Gen.KernelIdeal.Launch
import proofs.«415242_j61186104099485_2_alg».proof.Proof.Gen.KernelIdeal.Skeleton
import proofs.«415242_j61186104099485_2_alg».proof.Proof.Gen.KernelIdeal.Points
import proofs.«415242_j61186104099485_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.Sage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer rectangles the body loads and stores through -/

abbrev r_S512x10240 : Rect S512x10240 := Rect.unit (s := S512x10240) ![0, 0] S512x10240.size inb_S512x10240_S512x10240_0_0
abbrev r_S10240x128 : Rect S10240x128 := Rect.unit (s := S10240x128) ![0, 0] S10240x128.size inb_S10240x128_S10240x128_0_0
abbrev r_S512x1 : Rect S512x1 := Rect.unit (s := S512x1) ![0, 0] S512x1.size inb_S512x1_S512x1_0_0
abbrev r_S512x128 : Rect S512x128 := Rect.unit (s := S512x128) ![0, 0] S512x128.size inb_S512x128_S512x128_0_0
abbrev r_S128x128 : Rect S128x128 := Rect.unit (s := S128x128) ![0, 0] S128x128.size inb_S128x128_S128x128_0_0
abbrev r_S1x128 : Rect S1x128 := Rect.unit (s := S1x128) ![0, 0] S1x128.size inb_S1x128_S1x128_0_0

/-! # Region 0: the kernel of pallas_call 0, at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output block after the body, from the input blocks: one store of the whole block, whose value is the body's arithmetic. -/
def out0_7 (x0 : Vec F S512x10240 .bf16) (x1 : Vec F S512x128 .bf16) (x2 : Vec F S10240x128 .bf16) (x3 : Vec F S512x1 .f32) (x4 : Vec F S128x128 .f32) (x5 : Vec F S128x128 .f32) (x6 : Vec F S1x128 .f32) : Vec F S512x128 .bf16 :=
  View.canon [⟨r_S512x128, k0_pay1 (View.ld x0 r_S512x10240) (View.ld x2 r_S10240x128) (View.ld x3 r_S512x1) (View.ld x1 r_S512x128) (View.ld x4 r_S128x128) (View.ld x5 r_S128x128) (View.ld x6 r_S1x128)⟩]

/-- The one store covers the block. -/
theorem cover0_7 (p0 : Vec F S512x128 .bf16) (y : S512x128.Idx) :
    ∃ pc ∈ ([⟨r_S512x128, p0⟩] : List (View.Piece (Elt F) S512x128 .bf16)), y ∈ pc.1.set :=
  View.cover_of_tiled [⟨r_S512x128, p0⟩] S512x128.size (by rfl) y

set_option maxHeartbeats 4000000 in
/-- The body on whole staging buffers: the inputs at `xW` stay, the output ends at `out0_7` of them. -/
theorem sound_kernel0 (c : Dev nD) (E : Set ℕ) (i : grid0.Coords)
    (arg1 : Memref sig .tc .vmem S512x10240 .bf16) (harg1 : arg1.IsWhole) (arg2 : Memref sig .tc .vmem S512x128 .bf16) (harg2 : arg2.IsWhole)
    (arg3 : Memref sig .tc .vmem S10240x128 .bf16) (harg3 : arg3.IsWhole) (arg4 : Memref sig .tc .vmem S512x1 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S512x128 .bf16) (harg8 : arg8.IsWhole)
    (x0 : Vec F S512x10240 .bf16) (x1 : Vec F S512x128 .bf16) (x2 : Vec F S10240x128 .bf16) (x3 : Vec F S512x1 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of pipeline 0 on core `c`: the arrays as the region finds them; after the body at point `t` each
    input's buffer at its block and the output's at `out0_7` of the input blocks; nothing owed. The table of node
    features is read through two windows (a row tile and the whole table): each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := shares
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = shares w := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the kernel of pallas_call 1, at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The output block after the body, from the input blocks: one store of the whole block, whose value is the body's arithmetic. -/
def out1_7 (x0 : Vec F S512x10240 .bf16) (x1 : Vec F S512x128 .bf16) (x2 : Vec F S10240x128 .bf16) (x3 : Vec F S512x1 .f32) (x4 : Vec F S128x128 .f32) (x5 : Vec F S128x128 .f32) (x6 : Vec F S1x128 .f32) : Vec F S512x128 .f32 :=
  View.canon [⟨r_S512x128, k1_pay1 (View.ld x0 r_S512x10240) (View.ld x2 r_S10240x128) (View.ld x3 r_S512x1) (View.ld x1 r_S512x128) (View.ld x4 r_S128x128) (View.ld x5 r_S128x128) (View.ld x6 r_S1x128)⟩]

/-- The one store covers the block. -/
theorem cover1_7 (p0 : Vec F S512x128 .f32) (y : S512x128.Idx) :
    ∃ pc ∈ ([⟨r_S512x128, p0⟩] : List (View.Piece (Elt F) S512x128 .f32)), y ∈ pc.1.set :=
  View.cover_of_tiled [⟨r_S512x128, p0⟩] S512x128.size (by rfl) y

set_option maxHeartbeats 4000000 in
/-- The body on whole staging buffers: the inputs at `xW` stay, the output ends at `out1_7` of them. -/
theorem sound_kernel1 (c : Dev nD) (E : Set ℕ) (i : grid1.Coords)
    (arg1 : Memref sig .tc .vmem S512x10240 .bf16) (harg1 : arg1.IsWhole) (arg2 : Memref sig .tc .vmem S512x128 .bf16) (harg2 : arg2.IsWhole)
    (arg3 : Memref sig .tc .vmem S10240x128 .bf16) (harg3 : arg3.IsWhole) (arg4 : Memref sig .tc .vmem S512x1 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S512x128 .f32) (harg8 : arg8.IsWhole)
    (x0 : Vec F S512x10240 .bf16) (x1 : Vec F S512x128 .bf16) (x2 : Vec F S10240x128 .bf16) (x3 : Vec F S512x1 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of pipeline 1 on core `c`: the arrays as the region finds them; after the body at point `t` each
    input's buffer at its block and the output's at `out1_7` of the input blocks; nothing owed. The table of node
    features is read through two windows (a row tile and the whole table): each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := shares
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = shares w := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIShareSplit.lean ====
/-
  A region's arrays and the core's unscoped buffers, when two windows read one array.

  In each of the two pipelines, windows 1 and 2 read the same buffer: one holds its left half share, the other its
  right half share, and every other window holds its buffer at the full share. The two halves of a share, held at the
  same contents, are the whole; so the eight windows' holdings are exactly the seven distinct buffers behind them,
  each whole at the full share. With that, the core's unscoped buffers split into a pipeline's arrays and the rest at a
  region's entry, and are put back together, at a valuation updated at the arrays, at its exit.
-/
import proofs.«415242_j61186104099485_2_alg».proof.Proof.Gen.KernelIdeal.Launch
import proofs.«415242_j61186104099485_2_alg».proof.Proof.Shares
import Idealize.ShloMosaic.Lib.Pipeline.Kit
import Idealize.ShloMosaic.Lib.Pipeline.Regions

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen Cert.Sage

variable {F : FTy → Type} [FloatOps F]

local notation "𝕄" => MT nD τ sig Unit (Elt F) ℕ (UR sig nD τ) ℕ

/-- A buffer whole at the full share is its left half and its right half, both at the same contents. -/
theorem pointsTo_halves {ℓ : Loc nD τ sig} (f : Buf (Elt F) ℓ) :
    (ℓ ↦{fullShare} f : sProp 𝕄) = iprop((ℓ ↦{fullShare.left} f) ∗ ℓ ↦{fullShare.right} f) := by
  have h : (ℓ ↦{fullShare} f : sProp 𝕄) ⊣⊢ iprop((ℓ ↦{fullShare.left} f) ∗ ℓ ↦{fullShare.right} f) :=
    pointsTo_share (PosShare.mem_left_op_right fullShare)
  exact BI.equiv_iff.mp ⟨h.1, h.2⟩

/-- Separating conjunction reassociated, as an equation. -/
theorem sep_assoc_eq (P Q R : sProp 𝕄) : iprop((P ∗ Q) ∗ R) = iprop(P ∗ Q ∗ R) := by
  have h : iprop((P ∗ Q) ∗ R) ⊣⊢ iprop(P ∗ Q ∗ R) := Laws.sep_assoc
  exact BI.equiv_iff.mp ⟨h.1, h.2⟩

/-! ## Pipeline 0 -/

/-- The buffers behind pipeline 0's eight windows, listed once each. -/
theorem arrRefs0 : Finset.univ.image (Pipeline.arrRef spec0) = [main_v31, main_v33, main_v17, main_arg2, main_arg3, main_v34, main_v35].toFinset := by decide

/-- Every window of pipeline 0 holds its array at the share the assignment gives it: an input at its own, and the
    output, window 7, at the full share, which is also what the assignment gives window 7. -/
theorem share_eq0 (c : Dev nD) (dat : Dat τ (Elt F) Unit ℕ (UR sig nD τ) ℕ cfg0 c) (hq : ∀ w, dat.q w = shares w) (w : Fin cfg0.W) :
    dat.share w = shares w := by
  unfold Dat.share; rw [hq]
  match w with
  | 0 => rfl | 1 => rfl | 2 => rfl | 3 => rfl | 4 => rfl | 5 => rfl | 6 => rfl | 7 => rfl

/-- Pipeline 0's arrays, at contents read off a valuation `V` of the core's buffers, are the distinct buffers behind
    them, each whole at the full share at `V`: windows 1 and 2 hold the two halves of one buffer at the same contents,
    which together are that buffer at the full share; every other window holds its buffer alone. -/
theorem arrays_eq_arrBufs0 (c : Dev nD) (dat : Dat τ (Elt F) Unit ℕ (UR sig nD τ) ℕ cfg0 c) (hq : ∀ w, dat.q w = shares w)
    (V : (b : Ref sig .tc) → Buf (Elt F) ((c : Thread nD τ).loc b))
    (Fn : (w : Fin cfg0.W) → Buf (Elt F) ((cfg0.win w).arr.view.loc (c : Thread nD τ)))
    (hF : ∀ w, Fn w = V (Pipeline.arrRef spec0 w)) :
    (dat.arrays Fn : sProp 𝕄) = Pipeline.arrBufs spec0 c V := by
  have e : (dat.arrays Fn : sProp 𝕄) = bigSep Finset.univ fun w : Fin 8 =>
      (((c : Thread nD τ).loc (Pipeline.arrRef spec0 w)) ↦{shares w} V (Pipeline.arrRef spec0 w) : sProp 𝕄) := by
    unfold Dat.arrays
    exact bigSep_congr fun w _ => by rw [(arr_whole0 w).set_eq_univ, share_eq0 c dat hq w, hF w]
  rw [e]
  unfold Pipeline.arrBufs
  rw [bigSep_W0, bigSep_eq_bigSepL_of_eq _ arrRefs0 (by decide)]
  simp only [bigSepL_cons_cons, bigSepL_singleton]
  rw [pointsTo_halves (V main_v33)]
  refine Eq.trans ?_ (congrArg (BI.sep _) (sep_assoc_eq _ _ _).symm)
  rfl

/-- The core's unscoped buffers are the buffers behind pipeline 0's arrays and the rest. -/
theorem unscopedBufs_eq0 (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs (0 : Fin 2) winFacts₀0.arr_unscoped c V

/-- ENTRY: a core's unscoped buffers at contents `V` are pipeline 0's arrays, each window at its share, at the
    contents `V` has at them, and the unscoped rest. -/
theorem arrays_of_unscopedBufs0 (c : Dev nD) (dat : Dat τ (Elt F) Unit ℕ (UR sig nD τ) ℕ cfg0 c) (hq : ∀ w, dat.q w = shares w)
    (V : (b : Ref sig .tc) → Buf (Elt F) ((c : Thread nD τ).loc b))
    (Fn : (w : Fin cfg0.W) → Buf (Elt F) ((cfg0.win w).arr.view.loc (c : Thread nD τ)))
    (hF : ∀ w, Fn w = V (Pipeline.arrRef spec0 w)) :
    (unscopedBufs c V : sProp 𝕄) ⊢ iprop(dat.arrays Fn ∗ Pipeline.unscopedRest spec0 c V) := by
  rw [unscopedBufs_eq0 c V, arrays_eq_arrBufs0 c dat hq V Fn hF]

/-- EXIT: pipeline 0's arrays at contents `Fn`, each window at its share, and the unscoped rest at `V` are the
    core's unscoped buffers at any valuation `V'` that has the arrays at `Fn` and agrees with `V` off them. -/
theorem unscopedBufs_of_arrays0 (c : Dev nD) (dat : Dat τ (Elt F) Unit ℕ (UR sig nD τ) ℕ cfg0 c) (hq : ∀ w, dat.q w = shares w)
    (V V' : (b : Ref sig .tc) → Buf (Elt F) ((c : Thread nD τ).loc b))
    (Fn : (w : Fin cfg0.W) → Buf (Elt F) ((cfg0.win w).arr.view.loc (c : Thread nD τ)))
    (hF : ∀ w, Fn w = V' (Pipeline.arrRef spec0 w))
    (hrest : ∀ b, b ∉ Finset.univ.image (Pipeline.arrRef spec0) → V' b = V b) :
    iprop(dat.arrays Fn ∗ Pipeline.unscopedRest spec0 c V) ⊢ (unscopedBufs c V' : sProp 𝕄) := by
  rw [unscopedBufs_eq0 c V', arrays_eq_arrBufs0 c dat hq V' Fn hF]
  refine sep_mono .rfl (Entails.of_eq ?_)
  unfold Pipeline.unscopedRest
  exact bigSep_congr fun b hb => by rw [hrest b (Finset.mem_sdiff.mp hb).2]

/-! ## Pipeline 1 -/

/-- The buffers behind pipeline 1's eight windows, listed once each. -/
theorem arrRefs1 : Finset.univ.image (Pipeline.arrRef spec1) = [main_v31, main_v35, main_v17, main_arg5, main_arg6, main_v36, main_v37].toFinset := by decide

/-- Every window of pipeline 1 holds its array at the share the assignment gives it: an input at its own, and the
    output, window 7, at the full share, which is also what the assignment gives window 7. -/
theorem share_eq1 (c : Dev nD) (dat : Dat τ (Elt F) Unit ℕ (UR sig nD τ) ℕ cfg1 c) (hq : ∀ w, dat.q w = shares w) (w : Fin cfg1.W) :
    dat.share w = shares w := by
  unfold Dat.share; rw [hq]
  match w with
  | 0 => rfl | 1 => rfl | 2 => rfl | 3 => rfl | 4 => rfl | 5 => rfl | 6 => rfl | 7 => rfl

/-- Pipeline 1's arrays, at contents read off a valuation `V` of the core's buffers, are the distinct buffers behind
    them, each whole at the full share at `V`: windows 1 and 2 hold the two halves of one buffer at the same contents,
    which together are that buffer at the full share; every other window holds its buffer alone. -/
theorem arrays_eq_arrBufs1 (c : Dev nD) (dat : Dat τ (Elt F) Unit ℕ (UR sig nD τ) ℕ cfg1 c) (hq : ∀ w, dat.q w = shares w)
    (V : (b : Ref sig .tc) → Buf (Elt F) ((c : Thread nD τ).loc b))
    (Fn : (w : Fin cfg1.W) → Buf (Elt F) ((cfg1.win w).arr.view.loc (c : Thread nD τ)))
    (hF : ∀ w, Fn w = V (Pipeline.arrRef spec1 w)) :
    (dat.arrays Fn : sProp 𝕄) = Pipeline.arrBufs spec1 c V := by
  have e : (dat.arrays Fn : sProp 𝕄) = bigSep Finset.univ fun w : Fin 8 =>
      (((c : Thread nD τ).loc (Pipeline.arrRef spec1 w)) ↦{shares w} V (Pipeline.arrRef spec1 w) : sProp 𝕄) := by
    unfold Dat.arrays
    exact bigSep_congr fun w _ => by rw [(arr_whole1 w).set_eq_univ, share_eq1 c dat hq w, hF w]
  rw [e]
  unfold Pipeline.arrBufs
  rw [bigSep_W1, bigSep_eq_bigSepL_of_eq _ arrRefs1 (by decide)]
  simp only [bigSepL_cons_cons, bigSepL_singleton]
  rw [pointsTo_halves (V main_v35)]
  refine Eq.trans ?_ (congrArg (BI.sep _) (sep_assoc_eq _ _ _).symm)
  rfl

/-- The core's unscoped buffers are the buffers behind pipeline 1's arrays and the rest. -/
theorem unscopedBufs_eq1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs (1 : Fin 2) winFacts₀1.arr_unscoped c V

/-- ENTRY: a core's unscoped buffers at contents `V` are pipeline 1's arrays, each window at its share, at the
    contents `V` has at them, and the unscoped rest. -/
theorem arrays_of_unscopedBufs1 (c : Dev nD) (dat : Dat τ (Elt F) Unit ℕ (UR sig nD τ) ℕ cfg1 c) (hq : ∀ w, dat.q w = shares w)
    (V : (b : Ref sig .tc) → Buf (Elt F) ((c : Thread nD τ).loc b))
    (Fn : (w : Fin cfg1.W) → Buf (Elt F) ((cfg1.win w).arr.view.loc (c : Thread nD τ)))
    (hF : ∀ w, Fn w = V (Pipeline.arrRef spec1 w)) :
    (unscopedBufs c V : sProp 𝕄) ⊢ iprop(dat.arrays Fn ∗ Pipeline.unscopedRest spec1 c V) := by
  rw [unscopedBufs_eq1 c V, arrays_eq_arrBufs1 c dat hq V Fn hF]

/-- EXIT: pipeline 1's arrays at contents `Fn`, each window at its share, and the unscoped rest at `V` are the
    core's unscoped buffers at any valuation `V'` that has the arrays at `Fn` and agrees with `V` off them. -/
theorem unscopedBufs_of_arrays1 (c : Dev nD) (dat : Dat τ (Elt F) Unit ℕ (UR sig nD τ) ℕ cfg1 c) (hq : ∀ w, dat.q w = shares w)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  rw [unscopedBufs_eq1 c V', arrays_eq_arrBufs1 c dat hq V' Fn hF]
  refine sep_mono .rfl (Entails.of_eq ?_)
  unfold Pipeline.unscopedRest
  exact bigSep_congr fun b hb => by rw [hrest b (Finset.mem_sdiff.mp hb).2]

end Cert.KernelIdeal.Fr

end
-- ==== Proof.KIRun.lean ====
/-
  The whole run of the program: the buffer contents between its seven items (three stretches of host operations, the
  first kernel region, one host operation, the second kernel region, the final slice), each region as a segment over
  "every unscoped buffer at the boundary's contents", and the run itself: every weakly fair execution terminates and
  the final memory holds every unscoped buffer at the last boundary's contents.
-/
import proofs.«415242_j61186104099485_2_alg».proof.Proof.KIBody
import proofs.«415242_j61186104099485_2_alg».proof.Proof.KIShareSplit
import proofs.«415242_j61186104099485_2_alg».proof.Proof.Gen.KernelIdeal.Regions

set_option maxRecDepth 16384

noncomputable section

namespace Cert.KernelIdeal.Fr

open Cert.KernelIdeal Cert.KernelIdeal.Gen Cert.Sage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- What the first region is entered with, read at the TensorCore's references. -/
abbrev E0 : (c : Dev nD) → (b : Ref sig .tc) → Buf (Elt F) ((c : Thread nD τ).loc b) := fun c b => V3 m c b
/-- After the first region: its output array at what the write-backs leave, every other buffer as entered. -/
def W4 (c : Dev nD) : Valuation τ sig (Elt F) :=
  Function.update (V3 m c) (Proc.devRef .tc main_v35) ((dat0 (E0 m) c).arrAt 7 cfg0.N)
/-- After the bias row of the second layer is laid out. -/
abbrev W5 (c : Dev nD) : Valuation τ sig (Elt F) := StableHlo.after hostOps1 (W4 m c)
/-- What the second region is entered with. -/
abbrev E1 : (c : Dev nD) → (b : Ref sig .tc) → Buf (Elt F) ((c : Thread nD τ).loc b) := fun c b => W5 m c b
/-- After the second region. -/
def W6 (c : Dev nD) : Valuation τ sig (Elt F) :=
  Function.update (W5 m c) (Proc.devRef .tc main_v37) ((dat1 (E1 m) c).arrAt 7 cfg1.N)
/-- After the final slice. -/
abbrev W7 (c : Dev nD) : Valuation τ sig (Elt F) := StableHlo.after hostOps2 (W6 m c)

theorem W4_out (c : Dev nD) : W4 m c (Proc.devRef .tc main_v35) = (dat0 (E0 m) c).arrAt 7 cfg0.N := by
  unfold W4; exact Function.update_self ..
theorem W4_of (c : Dev nD) (r : Ref sig .tc) (h : r ∉ ([main_v35] : List (Ref sig .tc))) : W4 m c r = V3 m c r := by
  unfold W4; exact Function.update_of_ne (StableHlo.devRef_ne_of_ne (List.ne_of_not_mem_cons h) : (Proc.devRef .tc r : DevRef τ sig) ≠ Proc.devRef .tc main_v35) ..
theorem W5_of (c : Dev nD) (r : Ref sig .tc) (h : r ∉ hostOps1_W) : W5 m c r = W4 m c r :=
  StableHlo.after_of_writes_sub hostOps1 _ hostOps1_writes h
theorem W6_out (c : Dev nD) : W6 m c (Proc.devRef .tc main_v37) = (dat1 (E1 m) c).arrAt 7 cfg1.N := by
  unfold W6; exact Function.update_self ..
theorem W6_of (c : Dev nD) (r : Ref sig .tc) (h : r ∉ ([main_v37] : List (Ref sig .tc))) : W6 m c r = W5 m c r := by
  unfold W6; exact Function.update_of_ne (StableHlo.devRef_ne_of_ne (List.ne_of_not_mem_cons h) : (Proc.devRef .tc r : DevRef τ sig) ≠ Proc.devRef .tc main_v37) ..
theorem W7_of (c : Dev nD) (r : Ref sig .tc) (h : r ∉ hostOps2_W) : W7 m c r = W6 m c r :=
  StableHlo.after_of_writes_sub hostOps2 _ hostOps2_writes h

/-! ## No item writes an argument -/

theorem W7_main_arg0 (c : Dev nD) : W7 m c (Proc.devRef .tc main_arg0) = m ((c : Thread nD τ).loc main_arg0) :=
  (W7_of m c main_arg0 (by decide)).trans <| (W6_of m c main_arg0 (by decide)).trans <| (W5_of m c main_arg0 (by decide)).trans <| (W4_of m c main_arg0 (by decide)).trans <| (V3_of m c main_arg0 (by decide)).trans <| (V2_of m c main_arg0 (by decide)).trans <| (V1_of m c main_arg0 (by decide)).trans rfl
theorem W7_main_arg1 (c : Dev nD) : W7 m c (Proc.devRef .tc main_arg1) = m ((c : Thread nD τ).loc main_arg1) :=
  (W7_of m c main_arg1 (by decide)).trans <| (W6_of m c main_arg1 (by decide)).trans <| (W5_of m c main_arg1 (by decide)).trans <| (W4_of m c main_arg1 (by decide)).trans <| (V3_of m c main_arg1 (by decide)).trans <| (V2_of m c main_arg1 (by decide)).trans <| (V1_of m c main_arg1 (by decide)).trans rfl
theorem W7_main_arg2 (c : Dev nD) : W7 m c (Proc.devRef .tc main_arg2) = m ((c : Thread nD τ).loc main_arg2) :=
  (W7_of m c main_arg2 (by decide)).trans <| (W6_of m c main_arg2 (by decide)).trans <| (W5_of m c main_arg2 (by decide)).trans <| (W4_of m c main_arg2 (by decide)).trans <| (V3_of m c main_arg2 (by decide)).trans <| (V2_of m c main_arg2 (by decide)).trans <| (V1_of m c main_arg2 (by decide)).trans rfl
theorem W7_main_arg3 (c : Dev nD) : W7 m c (Proc.devRef .tc main_arg3) = m ((c : Thread nD τ).loc main_arg3) :=
  (W7_of m c main_arg3 (by decide)).trans <| (W6_of m c main_arg3 (by decide)).trans <| (W5_of m c main_arg3 (by decide)).trans <| (W4_of m c main_arg3 (by decide)).trans <| (V3_of m c main_arg3 (by decide)).trans <| (V2_of m c main_arg3 (by decide)).trans <| (V1_of m c main_arg3 (by decide)).trans rfl
theorem W7_main_arg4 (c : Dev nD) : W7 m c (Proc.devRef .tc main_arg4) = m ((c : Thread nD τ).loc main_arg4) :=
  (W7_of m c main_arg4 (by decide)).trans <| (W6_of m c main_arg4 (by decide)).trans <| (W5_of m c main_arg4 (by decide)).trans <| (W4_of m c main_arg4 (by decide)).trans <| (V3_of m c main_arg4 (by decide)).trans <| (V2_of m c main_arg4 (by decide)).trans <| (V1_of m c main_arg4 (by decide)).trans rfl
theorem W7_main_arg5 (c : Dev nD) : W7 m c (Proc.devRef .tc main_arg5) = m ((c : Thread nD τ).loc main_arg5) :=
  (W7_of m c main_arg5 (by decide)).trans <| (W6_of m c main_arg5 (by decide)).trans <| (W5_of m c main_arg5 (by decide)).trans <| (W4_of m c main_arg5 (by decide)).trans <| (V3_of m c main_arg5 (by decide)).trans <| (V2_of m c main_arg5 (by decide)).trans <| (V1_of m c main_arg5 (by decide)).trans rfl
theorem W7_main_arg6 (c : Dev nD) : W7 m c (Proc.devRef .tc main_arg6) = m ((c : Thread nD τ).loc main_arg6) :=
  (W7_of m c main_arg6 (by decide)).trans <| (W6_of m c main_arg6 (by decide)).trans <| (W5_of m c main_arg6 (by decide)).trans <| (W4_of m c main_arg6 (by decide)).trans <| (V3_of m c main_arg6 (by decide)).trans <| (V2_of m c main_arg6 (by decide)).trans <| (V1_of m c main_arg6 (by decide)).trans rfl
theorem W7_main_arg7 (c : Dev nD) : W7 m c (Proc.devRef .tc main_arg7) = m ((c : Thread nD τ).loc main_arg7) :=
  (W7_of m c main_arg7 (by decide)).trans <| (W6_of m c main_arg7 (by decide)).trans <| (W5_of m c main_arg7 (by decide)).trans <| (W4_of m c main_arg7 (by decide)).trans <| (V3_of m c main_arg7 (by decide)).trans <| (V2_of m c main_arg7 (by decide)).trans <| (V1_of m c main_arg7 (by decide)).trans rfl

/-! ## The proof data family -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)

set_option maxHeartbeats 2000000 in
theorem hF0 (c : Dev nD) (w : Fin cfg0.W) : (pdats m 0 c).arrAt w cfg0.N = (fun b => W4 m c b) (Pipeline.arrRef spec0 w) := by
  match w with
  | ⟨0, _⟩ => exact (((pdats m 0 c).arrAt_in 0 rfl _).trans (A_eq0 (E0 m) c 0)).trans (W4_of m c main_v31 (by decide)).symm
  | ⟨1, _⟩ => exact (((pdats m 0 c).arrAt_in 1 rfl _).trans (A_eq0 (E0 m) c 1)).trans (W4_of m c main_v33 (by decide)).symm
  | ⟨2, _⟩ => exact (((pdats m 0 c).arrAt_in 2 rfl _).trans (A_eq0 (E0 m) c 2)).trans (W4_of m c main_v33 (by decide)).symm
  | ⟨3, _⟩ => exact (((pdats m 0 c).arrAt_in 3 rfl _).trans (A_eq0 (E0 m) c 3)).trans (W4_of m c main_v17 (by decide)).symm
  | ⟨4, _⟩ => exact (((pdats m 0 c).arrAt_in 4 rfl _).trans (A_eq0 (E0 m) c 4)).trans (W4_of m c main_arg2 (by decide)).symm
  | ⟨5, _⟩ => exact (((pdats m 0 c).arrAt_in 5 rfl _).trans (A_eq0 (E0 m) c 5)).trans (W4_of m c main_arg3 (by decide)).symm
  | ⟨6, _⟩ => exact (((pdats m 0 c).arrAt_in 6 rfl _).trans (A_eq0 (E0 m) c 6)).trans (W4_of m c main_v34 (by decide)).symm
  | ⟨7, _⟩ => exact (W4_out m c).symm
theorem hrest0 (c : Dev nD) : ∀ b, b ∉ Finset.univ.image (Pipeline.arrRef spec0) → (fun b => W4 m c b) b = E0 m c b :=
  fun b hb => W4_of m c b (fun h => hb (by rw [List.mem_singleton.mp h]; exact Finset.mem_image.mpr ⟨7, Finset.mem_univ _, rfl⟩))
set_option maxHeartbeats 2000000 in
theorem hF1 (c : Dev nD) (w : Fin cfg1.W) : (pdats m 1 c).arrAt w cfg1.N = (fun b => W6 m c b) (Pipeline.arrRef spec1 w) := by
  match w with
  | ⟨0, _⟩ => exact (((pdats m 1 c).arrAt_in 0 rfl _).trans (A_eq1 (E1 m) c 0)).trans (W6_of m c main_v31 (by decide)).symm
  | ⟨1, _⟩ => exact (((pdats m 1 c).arrAt_in 1 rfl _).trans (A_eq1 (E1 m) c 1)).trans (W6_of m c main_v35 (by decide)).symm
  | ⟨2, _⟩ => exact (((pdats m 1 c).arrAt_in 2 rfl _).trans (A_eq1 (E1 m) c 2)).trans (W6_of m c main_v35 (by decide)).symm
  | ⟨3, _⟩ => exact (((pdats m 1 c).arrAt_in 3 rfl _).trans (A_eq1 (E1 m) c 3)).trans (W6_of m c main_v17 (by decide)).symm
  | ⟨4, _⟩ => exact (((pdats m 1 c).arrAt_in 4 rfl _).trans (A_eq1 (E1 m) c 4)).trans (W6_of m c main_arg5 (by decide)).symm
  | ⟨5, _⟩ => exact (((pdats m 1 c).arrAt_in 5 rfl _).trans (A_eq1 (E1 m) c 5)).trans (W6_of m c main_arg6 (by decide)).symm
  | ⟨6, _⟩ => exact (((pdats m 1 c).arrAt_in 6 rfl _).trans (A_eq1 (E1 m) c 6)).trans (W6_of m c main_v36 (by decide)).symm
  | ⟨7, _⟩ => exact (W6_out m c).symm
theorem hrest1 (c : Dev nD) : ∀ b, b ∉ Finset.univ.image (Pipeline.arrRef spec1) → (fun b => W6 m c b) b = E1 m c b :=
  fun b hb => W6_of m c b (fun h => hb (by rw [List.mem_singleton.mp h]; exact Finset.mem_image.mpr ⟨7, Finset.mem_univ _, rfl⟩))

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered with every unscoped buffer at its entry contents, left with the output
    array at what the write-backs leave and every other buffer as entered. The arrays are split out of the unscoped
    buffers (the shared table into its two halves) and put back at the exit; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := arrays_of_unscopedBufs0 (F := F) c (pdats m 0 c) (fun w => q_eq0 (E0 m) c w) (E0 m c)
      ((pdats m 0 c).arrAt · 0) (fun w => A_eq0 (E0 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (F := F) c (pdats m 0 c) (fun w => q_eq0 (E0 m) c w)
      (E0 m c) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the output
    array at what the write-backs leave and every other buffer as entered. The arrays are split out of the unscoped
    buffers (the shared table into its two halves) and put back at the exit; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays_of_unscopedBufs1 (F := F) c (pdats m 1 c) (fun w => q_eq1 (E1 m) c w) (E1 m c)
      ((pdats m 1 c).arrAt · 0) (fun w => A_eq1 (E1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) c (pdats m 1 c) (fun w => q_eq1 (E1 m) c w)
      (E1 m c) (fun b => W6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's seven items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .region (reg1 m),
    .host (hseg hostOps2 hostOps2_sub hostOps2_fresh (W6 m)) ]

set_option backward.isDefEq.respectTransparency.types false in
/-- THE RUN: from any memory with zero counters every weakly fair execution terminates, nothing faulting, and the final
    memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W7_main_arg0 m c), (h c _ (mem_uc main_arg1 (by decide))).trans (W7_main_arg1 m c),
     (h c _ (mem_uc main_arg2 (by decide))).trans (W7_main_arg2 m c), (h c _ (mem_uc main_arg3 (by decide))).trans (W7_main_arg3 m c),
     (h c _ (mem_uc main_arg4 (by decide))).trans (W7_main_arg4 m c), (h c _ (mem_uc main_arg5 (by decide))).trans (W7_main_arg5 m c),
     (h c _ (mem_uc main_arg6 (by decide))).trans (W7_main_arg6 m c), (h c _ (mem_uc main_arg7 (by decide))).trans (W7_main_arg7 m c)⟩)
    (run_all m ρ)

end Cert.KernelIdeal.Fr

end
-- ==== Proof.KISpec.lean ====
/-
  One layer as the kernel computes it, on whole padded arrays of 10240 rows: with `A` the 10240 x 10240 table of
  edge counts (`A r i` = the number of edges from node `i` into node `r`), `X` the padded feature table, `invd` the
  column of reciprocals 1 / max(in-degree, 1): row `r` of `X` times the transposed self weight, plus (row `r` of
  `A` times `X`, scaled by `invd r`) times the transposed neighbour weight, plus the bias row.
-/
import Idealize.ShloMosaic.PureOps.Ideal
import Idealize.ShloMosaic.Lib.ValueIdx

noncomputable section

namespace Cert.Sage

open Idealize.ShloMosaic Idealize.ShloMosaic.ValueIdx

/-- The layer at row `r`, column `k`, before any clamp at zero. -/
def lay (A : (⟨2, ![10240, 10240]⟩ : Shape).Idx → EReal) (X : (⟨2, ![10240, 128]⟩ : Shape).Idx → EReal)
    (invd : (⟨2, ![10240, 1]⟩ : Shape).Idx → EReal) (Ws Wn : (⟨2, ![128, 128]⟩ : Shape).Idx → EReal)
    (b : (⟨2, ![1, 128]⟩ : Shape).Idx → EReal) (r : Fin 10240) (k : Fin 128) : EReal :=
  (∑ j : Fin 128, X (ix2 r j) * Ws (ix2 k j))
    + (∑ j : Fin 128, ((∑ i : Fin 10240, A (ix2 r i) * X (ix2 i j)) * invd (ix2 r (0 : Fin 1))) * Wn (ix2 k j))
    + b (ix2 (0 : Fin 1) k)

/-- The first layer's result array: the layer clamped at zero from below. -/
def G0 (A : (⟨2, ![10240, 10240]⟩ : Shape).Idx → EReal) (X : (⟨2, ![10240, 128]⟩ : Shape).Idx → EReal)
    (invd : (⟨2, ![10240, 1]⟩ : Shape).Idx → EReal) (Ws Wn : (⟨2, ![128, 128]⟩ : Shape).Idx → EReal)
    (b : (⟨2, ![1, 128]⟩ : Shape).Idx → EReal) : (⟨2, ![10240, 128]⟩ : Shape).Idx → EReal :=
  fun i => max (lay A X invd Ws Wn b (i 0) (i 1)) 0

/-- The second layer's result array: the layer as it is. -/
def G1 (A : (⟨2, ![10240, 10240]⟩ : Shape).Idx → EReal) (X : (⟨2, ![10240, 128]⟩ : Shape).Idx → EReal)
    (invd : (⟨2, ![10240, 1]⟩ : Shape).Idx → EReal) (Ws Wn : (⟨2, ![128, 128]⟩ : Shape).Idx → EReal)
    (b : (⟨2, ![1, 128]⟩ : Shape).Idx → EReal) : (⟨2, ![10240, 128]⟩ : Shape).Idx → EReal :=
  fun i => lay A X invd Ws Wn b (i 0) (i 1)

end Cert.Sage

end
-- ==== Proof.KIPayload.lean ====
/-
  The arithmetic of the two kernel bodies at an index. Row p, column k of the block a body stores is: the sum over j
  of the row tile at (p, j) times the self weight at (k, j), plus the sum over j of (the adjacency tile's row p times
  the feature table's column j, scaled by the column entry at p) times the neighbour weight at (k, j), plus the bias
  at k; the first body clamps this at zero from below.
-/
import proofs.«415242_j61186104099485_2_alg».proof.Proof.Gen.KernelIdeal.Skeleton
import proofs.«415242_j61186104099485_2_alg».proof.Proof.KISpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Fr

open Cert.KernelIdeal Cert.KernelIdeal.Gen Cert.Sage Idealize.ShloMosaic Idealize.ShloMosaic.ValueIdx

/-! ## The adjacency product: 512 x 10240 times 10240 x 128, contracting axis 1 of the left with axis 0 of the right -/

private theorem lhsA_0 (i : S512x128.Idx) (q : dot_S512x10240_S10240x128_S512x128_1_0_0_1_n_n.contr.Idx) :
    (dot_S512x10240_S10240x128_S512x128_1_0_0_1_n_n.lhsIdx i q 0).val = (i 0).val := by
  unfold DotDims.lhsIdx
  rw [dif_neg (show ¬(0 : Fin S512x10240.rank) ∈ dot_S512x10240_S10240x128_S512x128_1_0_0_1_n_n.lhsBatch by decide), dif_pos (show (0 : Fin S512x10240.rank) ∈ dot_S512x10240_S10240x128_S512x128_1_0_0_1_n_n.lhsNonContracting by decide)]
  rfl
private theorem lhsA_1 (i : S512x128.Idx) (q : dot_S512x10240_S10240x128_S512x128_1_0_0_1_n_n.contr.Idx) :
    (dot_S512x10240_S10240x128_S512x128_1_0_0_1_n_n.lhsIdx i q 1).val = (q ⟨0, by decide⟩).val :=
  dot_S512x10240_S10240x128_S512x128_1_0_0_1_n_n.lhsIdx_val_of_single rfl i q
private theorem rhsA_0 (i : S512x128.Idx) (q : dot_S512x10240_S10240x128_S512x128_1_0_0_1_n_n.contr.Idx) :
    (dot_S512x10240_S10240x128_S512x128_1_0_0_1_n_n.rhsIdx i q 0).val = (q ⟨0, by decide⟩).val :=
  dot_S512x10240_S10240x128_S512x128_1_0_0_1_n_n.rhsIdx_val_of_single rfl i q
private theorem rhsA_1 (i : S512x128.Idx) (q : dot_S512x10240_S10240x128_S512x128_1_0_0_1_n_n.contr.Idx) :
    (dot_S512x10240_S10240x128_S512x128_1_0_0_1_n_n.rhsIdx i q 1).val = (i 1).val := by
  unfold DotDims.rhsIdx
  rw [dif_neg (show ¬(1 : Fin S10240x128.rank) ∈ dot_S512x10240_S10240x128_S512x128_1_0_0_1_n_n.rhsBatch by decide), dif_pos (show (1 : Fin S10240x128.rank) ∈ dot_S512x10240_S10240x128_S512x128_1_0_0_1_n_n.rhsNonContracting by decide)]
  rfl

/-- The adjacency product into a zero accumulator, at (p, k): the sum over the 10240 columns. -/
private theorem matmulA_apply {φ₁ φ₂ : FTy} (x : FVec Ideal S512x10240 φ₁) (y : FVec Ideal S10240x128 φ₂) (p : Fin 512) (k : Fin 128) :
    matmul dot_S512x10240_S10240x128_S512x128_1_0_0_1_n_n none x y (constant (F := Ideal) S512x128 .f32 0x00000000#32) (ix2 p k)
      = ∑ i : Fin 10240, x (ix2 p i) * y (ix2 i k) := by
  refine (Ideal.matmul_constant_zero_apply dot_S512x10240_S10240x128_S512x128_1_0_0_1_n_n none x y (ix2 p k)).trans ?_
  rw [← Equiv.sum_comp (ValueIdx.contrEquiv1 dot_S512x10240_S10240x128_S512x128_1_0_0_1_n_n 10240 rfl rfl).symm]
  refine Finset.sum_congr rfl fun c _ => ?_
  have hc := ValueIdx.contrEquiv1_symm_val dot_S512x10240_S10240x128_S512x128_1_0_0_1_n_n 10240 rfl rfl c
  have el : dot_S512x10240_S10240x128_S512x128_1_0_0_1_n_n.lhsIdx (ix2 p k) ((ValueIdx.contrEquiv1 dot_S512x10240_S10240x128_S512x128_1_0_0_1_n_n 10240 rfl rfl).symm c) = ix2 p c := funext fun a => Fin.ext (by
    match a with
    | ⟨0, _⟩ => exact lhsA_0 _ _
    | ⟨1, _⟩ => exact (lhsA_1 _ _).trans hc)
  have er : dot_S512x10240_S10240x128_S512x128_1_0_0_1_n_n.rhsIdx (ix2 p k) ((ValueIdx.contrEquiv1 dot_S512x10240_S10240x128_S512x128_1_0_0_1_n_n 10240 rfl rfl).symm c) = ix2 c k := funext fun a => Fin.ext (by
    match a with
    | ⟨0, _⟩ => exact (rhsA_0 _ _).trans hc
    | ⟨1, _⟩ => exact rhsA_1 _ _)
  rw [el, er]

/-! ## The weight products: 512 x 128 times the transpose of 128 x 128, contracting axis 1 of both -/

private theorem lhsB_0 (i : S512x128.Idx) (q : dot_S512x128_S128x128_S512x128_1_1_0_0_n_n.contr.Idx) :
    (dot_S512x128_S128x128_S512x128_1_1_0_0_n_n.lhsIdx i q 0).val = (i 0).val := by
  unfold DotDims.lhsIdx
  rw [dif_neg (show ¬(0 : Fin S512x128.rank) ∈ dot_S512x128_S128x128_S512x128_1_1_0_0_n_n.lhsBatch by decide), dif_pos (show (0 : Fin S512x128.rank) ∈ dot_S512x128_S128x128_S512x128_1_1_0_0_n_n.lhsNonContracting by decide)]
  rfl
private theorem lhsB_1 (i : S512x128.Idx) (q : dot_S512x128_S128x128_S512x128_1_1_0_0_n_n.contr.Idx) :
    (dot_S512x128_S128x128_S512x128_1_1_0_0_n_n.lhsIdx i q 1).val = (q ⟨0, by decide⟩).val :=
  dot_S512x128_S128x128_S512x128_1_1_0_0_n_n.lhsIdx_val_of_single rfl i q
private theorem rhsB_0 (i : S512x128.Idx) (q : dot_S512x128_S128x128_S512x128_1_1_0_0_n_n.contr.Idx) :
    (dot_S512x128_S128x128_S512x128_1_1_0_0_n_n.rhsIdx i q 0).val = (i 1).val := by
  unfold DotDims.rhsIdx
  rw [dif_neg (show ¬(0 : Fin S128x128.rank) ∈ dot_S512x128_S128x128_S512x128_1_1_0_0_n_n.rhsBatch by decide), dif_pos (show (0 : Fin S128x128.rank) ∈ dot_S512x128_S128x128_S512x128_1_1_0_0_n_n.rhsNonContracting by decide)]
  rfl
private theorem rhsB_1 (i : S512x128.Idx) (q : dot_S512x128_S128x128_S512x128_1_1_0_0_n_n.contr.Idx) :
    (dot_S512x128_S128x128_S512x128_1_1_0_0_n_n.rhsIdx i q 1).val = (q ⟨0, by decide⟩).val :=
  dot_S512x128_S128x128_S512x128_1_1_0_0_n_n.rhsIdx_val_of_single rfl i q

/-- A weight product into a zero accumulator, at (p, k): the sum over the 128 columns of both operands. -/
private theorem matmulB_apply {φ₁ φ₂ : FTy} (x : FVec Ideal S512x128 φ₁) (w : FVec Ideal S128x128 φ₂) (p : Fin 512) (k : Fin 128) :
    matmul dot_S512x128_S128x128_S512x128_1_1_0_0_n_n none x w (constant (F := Ideal) S512x128 .f32 0x00000000#32) (ix2 p k)
      = ∑ j : Fin 128, x (ix2 p j) * w (ix2 k j) := by
  refine (Ideal.matmul_constant_zero_apply dot_S512x128_S128x128_S512x128_1_1_0_0_n_n none x w (ix2 p k)).trans ?_
  rw [← Equiv.sum_comp (ValueIdx.contrEquiv1 dot_S512x128_S128x128_S512x128_1_1_0_0_n_n 128 rfl rfl).symm]
  refine Finset.sum_congr rfl fun c _ => ?_
  have hc := ValueIdx.contrEquiv1_symm_val dot_S512x128_S128x128_S512x128_1_1_0_0_n_n 128 rfl rfl c
  have el : dot_S512x128_S128x128_S512x128_1_1_0_0_n_n.lhsIdx (ix2 p k) ((ValueIdx.contrEquiv1 dot_S512x128_S128x128_S512x128_1_1_0_0_n_n 128 rfl rfl).symm c) = ix2 p c := funext fun a => Fin.ext (by
    match a with
    | ⟨0, _⟩ => exact lhsB_0 _ _
    | ⟨1, _⟩ => exact (lhsB_1 _ _).trans hc)
  have er : dot_S512x128_S128x128_S512x128_1_1_0_0_n_n.rhsIdx (ix2 p k) ((ValueIdx.contrEquiv1 dot_S512x128_S128x128_S512x128_1_1_0_0_n_n 128 rfl rfl).symm c) = ix2 k c := funext fun a => Fin.ext (by
    match a with
    | ⟨0, _⟩ => exact rhsB_0 _ _
    | ⟨1, _⟩ => exact (rhsB_1 _ _).trans hc)
  rw [el, er]

/-! ## One column broadcast over many -/

/-- An [a, 1] array broadcast to [a, b] reads, at (p, c), the operand's one column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two bodies -/

/-- The second body's block at (p, k): the layer's three terms. -/
theorem k1_pay1_apply (v0 : Vec Ideal S512x10240 .bf16) (v2 : Vec Ideal S10240x128 .bf16) (v5 : Vec Ideal S512x1 .f32)
    (v10 : Vec Ideal S512x128 .bf16) (v12 v14 : Vec Ideal S128x128 .f32) (v19 : Vec Ideal S1x128 .f32)
    (p : Fin 512) (k : Fin 128) :
    k1_pay1 (F := Ideal) v0 v2 v5 v10 v12 v14 v19 (ix2 p k)
      = (∑ j : Fin 128, v10 (ix2 p j) * v12 (ix2 k j))
          + (∑ j : Fin 128, ((∑ i : Fin 10240, v0 (ix2 p i) * v2 (ix2 i j)) * v5 (ix2 p (0 : Fin 1))) * v14 (ix2 k j))
          + v19 (ix2 (0 : Fin 1) k) := by
  unfold k1_pay1
  simp only [shapeCast_self]
  rw [addf_apply, addf_apply, broadcastTo_1b_ab_apply, matmulB_apply, matmulB_apply]
  simp only [truncf_apply, mulf_apply, matmulA_apply, broadcastTo_a1_ab_apply]

/-- The first body's block at (p, k): the same three terms, clamped at zero from below (its zero is the zero word's
    value; the closing format change is the identity on extended reals). -/
theorem k0_pay1_apply (v0 : Vec Ideal S512x10240 .bf16) (v2 : Vec Ideal S10240x128 .bf16) (v5 : Vec Ideal S512x1 .f32)
    (v10 : Vec Ideal S512x128 .bf16) (v12 v14 : Vec Ideal S128x128 .f32) (v19 : Vec Ideal S1x128 .f32)
    (p : Fin 512) (k : Fin 128) :
    k0_pay1 (F := Ideal) v0 v2 v5 v10 v12 v14 v19 (ix2 p k)
      = max ((∑ j : Fin 128, v10 (ix2 p j) * v12 (ix2 k j))
          + (∑ j : Fin 128, ((∑ i : Fin 10240, v0 (ix2 p i) * v2 (ix2 i j)) * v5 (ix2 p (0 : Fin 1))) * v14 (ix2 k j))
          + v19 (ix2 (0 : Fin 1) k)) 0 := by
  have h : k0_pay1 (F := Ideal) v0 v2 v5 v10 v12 v14 v19 (ix2 p k)
      = max (k1_pay1 (F := Ideal) v0 v2 v5 v10 v12 v14 v19 (ix2 p k)) (Ideal.ofBits .f32 0x00000000#32) := rfl
  rw [h, k1_pay1_apply, Ideal.ofBits_zero_f32]

end Cert.KernelIdeal.Fr

end
-- ==== Proof.KIBlocks.lean ====
/-
  From blocks to arrays, for the two kernel regions at the ideal instance. Each region walks 20 row tiles of 512 rows.
  At tile `t` the body reads rows `512 t … 512 t + 511` of the adjacency table, of the node-feature table and of the
  inverse-degree column, and the whole node-feature table, both weight tables and the bias row; it stores the 512 x 128
  block whose entry `(p, k)` is the layer at row `512 t + p`, column `k` (clamped at zero from below in the first
  region). Every entry the layer reads at that row is an entry of one of those blocks, so the stored block is block `t`
  of the layer's whole result array; the 20 blocks tile the 10240 rows (row `r` lies in tile `r / 512`), so after the
  last point the result array is the layer of the arrays the region was entered with.
-/
import proofs.«415242_j61186104099485_2_alg».proof.Proof.KIBody
import proofs.«415242_j61186104099485_2_alg».proof.Proof.KISpec
import proofs.«415242_j61186104099485_2_alg».proof.Proof.KIPayload
import Idealize.ShloMosaic.Lib.Pipeline.Value
import Idealize.ShloMosaic.Lib.ValueIdx

set_option maxRecDepth 16384

noncomputable section

namespace Cert.KernelIdeal.Fr

open Cert.KernelIdeal Cert.KernelIdeal.Gen Cert.Sage
open Idealize.ShloMosaic Idealize.ShloMosaic.TcCoe Idealize.ShloMosaic.ValueIdx
open Idealize.SL.Sem
open Idealize.ShloMosaic.Pipeline (Dat)

variable (E : (c : Dev nD) → (b : Ref sig .tc) → Buf (Elt Ideal) ((c : Thread nD τ).loc b))

/-- The origin of a rank-2 rectangle, as the constant function. -/
theorem origin_zero : (![0, 0] : Fin 2 → Nat) = fun _ => 0 := funext fun a => by fin_cases a <;> rfl

/-! ## The layer from blocks that agree with the whole arrays -/

/-- The layer at row `r`, column `k`, from seven blocks that agree with the whole arrays on the entries the layer reads:
    the row-`p` entries of the moving tiles are the row-`r` entries of their tables. -/
theorem lay_of_tiles (A : S10240x10240.Idx → EReal) (X : S10240x128.Idx → EReal) (invd : S10240x1.Idx → EReal)
    (Ws Wn : S128x128.Idx → EReal) (b : S1x128.Idx → EReal)
    (x0 : Vec Ideal S512x10240 .bf16) (x1 : Vec Ideal S512x128 .bf16) (x2 : Vec Ideal S10240x128 .bf16)
    (x3 : Vec Ideal S512x1 .f32) (x4 x5 : Vec Ideal S128x128 .f32) (x6 : Vec Ideal S1x128 .f32)
    (p : Fin 512) (k : Fin 128) (r : Fin 10240)
    (h0 : ∀ i : Fin 10240, x0 (ix2 p i) = A (ix2 r i))
    (h1 : ∀ j : Fin 128, x1 (ix2 p j) = X (ix2 r j))
    (h2 : ∀ (i : Fin 10240) (j : Fin 128), x2 (ix2 i j) = X (ix2 i j))
    (h3 : x3 (ix2 p (0 : Fin 1)) = invd (ix2 r (0 : Fin 1)))
    (h4 : ∀ j : Fin 128, x4 (ix2 k j) = Ws (ix2 k j))
    (h5 : ∀ j : Fin 128, x5 (ix2 k j) = Wn (ix2 k j))
    (h6 : x6 (ix2 (0 : Fin 1) k) = b (ix2 (0 : Fin 1) k)) :
    (∑ j : Fin 128, x1 (ix2 p j) * x4 (ix2 k j))
      + (∑ j : Fin 128, ((∑ i : Fin 10240, x0 (ix2 p i) * x2 (ix2 i j)) * x3 (ix2 p (0 : Fin 1))) * x5 (ix2 k j))
      + x6 (ix2 (0 : Fin 1) k) = lay A X invd Ws Wn b r k := by
  unfold lay
  simp only [h0, h1, h2, h3, h4, h5, h6]

/-! # Region 0: the first layer, clamped at zero -/

/-- The index maps over the 20 row tiles: the adjacency tile, the node-feature row tile, the inverse-degree tile and
    the output tile sit at block row `t`; the whole node-feature table, both weight tables and the bias at block 0. -/
theorem tile_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ t.val < 20 :=
  (by decide +kernel : ∀ t : Fin grid0.N, _)

/-- Every row tile is some point's: tile `q` is point `q`'s. -/
theorem tile_onto0 : ∀ q : Fin 20, ∃ t : Fin cfg0.N, t.val = q.val :=
  (by decide +kernel : ∀ q : Fin 20, ∃ t : Fin grid0.N, t.val = q.val)

/-- The adjacency tile at point `t` is rows `512 t … 512 t + 511` of the adjacency table. -/
theorem adj_tile0 (c : Dev nD) (t : Fin cfg0.N) (y : S512x10240.Idx) (k : S10240x10240.Idx)
    (hk0 : (k 0).val = 512 * t.val + (y 0).val) (hk1 : (k 1).val = (y 1).val) :
    (iblk0 E c 0 t : Vec Ideal S512x10240 .bf16) y = (E c main_v31 : S10240x10240.Idx → EReal) k := by
  obtain ⟨e0, e1, -⟩ := tile_index0 t
  unfold iblk0
  rw [View.read_apply]
  show E c main_v31 _ = E c main_v31 _
  congr 1
  funext a
  apply Fin.ext
  match a with
  | ⟨0, _⟩ => show win0_0.index t (0 : Fin 2) * 512 + 1 * (y 0).val = (k 0).val; rw [e0, hk0]; omega
  | ⟨1, _⟩ => show win0_0.index t (1 : Fin 2) * 10240 + 1 * (y 1).val = (k 1).val; rw [e1, hk1]; omega

/-- The node-feature row tile at point `t` is the same rows of the node-feature table. -/
theorem row_tile0 (c : Dev nD) (t : Fin cfg0.N) (y : S512x128.Idx) (k : S10240x128.Idx)
    (hk0 : (k 0).val = 512 * t.val + (y 0).val) (hk1 : (k 1).val = (y 1).val) :
    (iblk0 E c 1 t : Vec Ideal S512x128 .bf16) y = (E c main_v33 : S10240x128.Idx → EReal) k := by
  obtain ⟨-, -, e0, e1, -⟩ := tile_index0 t
  unfold iblk0
  rw [View.read_apply]
  show E c main_v33 _ = E c main_v33 _
  congr 1
  funext a
  apply Fin.ext
  match a with
  | ⟨0, _⟩ => show win0_1.index t (0 : Fin 2) * 512 + 1 * (y 0).val = (k 0).val; rw [e0, hk0]; omega
  | ⟨1, _⟩ => show win0_1.index t (1 : Fin 2) * 128 + 1 * (y 1).val = (k 1).val; rw [e1, hk1]; omega

/-- The whole node-feature table, as window 2 holds it at every point. -/
theorem table_whole0 (c : Dev nD) (t : Fin cfg0.N) (y : S10240x128.Idx) :
    (iblk0 E c 2 t : Vec Ideal S10240x128 .bf16) y = (E c main_v33 : S10240x128.Idx → EReal) y := by
  obtain ⟨-, -, -, -, e0, e1, -⟩ := tile_index0 t
  unfold iblk0
  rw [View.read_apply]
  show E c main_v33 _ = E c main_v33 _
  congr 1
  funext a
  apply Fin.ext
  match a with
  | ⟨0, _⟩ => show win0_2.index t (0 : Fin 2) * 10240 + 1 * (y 0).val = (y 0).val; rw [e0]; omega
  | ⟨1, _⟩ => show win0_2.index t (1 : Fin 2) * 128 + 1 * (y 1).val = (y 1).val; rw [e1]; omega

/-- The inverse-degree tile at point `t` is the same rows of the inverse-degree column. -/
theorem invdeg_tile0 (c : Dev nD) (t : Fin cfg0.N) (y : S512x1.Idx) (k : S10240x1.Idx)
    (hk0 : (k 0).val = 512 * t.val + (y 0).val) (hk1 : (k 1).val = (y 1).val) :
    (iblk0 E c 3 t : Vec Ideal S512x1 .f32) y = (E c main_v17 : S10240x1.Idx → EReal) k := by
  obtain ⟨-, -, -, -, -, -, e0, e1, -⟩ := tile_index0 t
  unfold iblk0
  rw [View.read_apply]
  show E c main_v17 _ = E c main_v17 _
  congr 1
  funext a
  apply Fin.ext
  match a with
  | ⟨0, _⟩ => show win0_3.index t (0 : Fin 2) * 512 + 1 * (y 0).val = (k 0).val; rw [e0, hk0]; omega
  | ⟨1, _⟩ => show win0_3.index t (1 : Fin 2) * 1 + 1 * (y 1).val = (k 1).val; rw [e1, hk1]; omega

/-- The self weight table, whole at every point. -/
theorem self_weight0 (c : Dev nD) (t : Fin cfg0.N) (y : S128x128.Idx) :
    (iblk0 E c 4 t : Vec Ideal S128x128 .f32) y = (E c main_arg2 : S128x128.Idx → EReal) y := by
  obtain ⟨-, -, -, -, -, -, -, -, e0, e1, -⟩ := tile_index0 t
  unfold iblk0
  rw [View.read_apply]
  show E c main_arg2 _ = E c main_arg2 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The neighbour weight table, whole at every point. -/
theorem nbr_weight0 (c : Dev nD) (t : Fin cfg0.N) (y : S128x128.Idx) :
    (iblk0 E c 5 t : Vec Ideal S128x128 .f32) y = (E c main_arg3 : S128x128.Idx → EReal) y := by
  obtain ⟨-, -, -, -, -, -, -, -, -, -, e0, e1, -⟩ := tile_index0 t
  unfold iblk0
  rw [View.read_apply]
  show E c main_arg3 _ = E c main_arg3 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The bias row, whole at every point. -/
theorem bias_row0 (c : Dev nD) (t : Fin cfg0.N) (y : S1x128.Idx) :
    (iblk0 E c 6 t : Vec Ideal S1x128 .f32) y = (E c main_v34 : S1x128.Idx → EReal) y := by
  obtain ⟨-, -, -, -, -, -, -, -, -, -, -, -, e0, e1, -⟩ := tile_index0 t
  unfold iblk0
  rw [View.read_apply]
  show E c main_v34 _ = E c main_v34 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- What point `t` writes back is block `t` of the first layer's result array. -/
theorem flushed0_eq (c : Dev nD) (t : Fin cfg0.N) :
    (dat0 (F := Ideal) E c).flushed 7 t = ((cfg0.win 7).blk t).view.read (Elt Ideal)
      (G0 (E c main_v31) (E c main_v33) (E c main_v17) (E c main_arg2) (E c main_arg3) (E c main_v34)) := by
  show (cfg0.win 7).cut (grid0.coords t) ((dat0 (F := Ideal) E c).after 7 t) = _
  rw [after0_7]
  unfold out0_7
  rw [View.canon_unit_zero origin_zero]
  simp only [View.ld_unit_zero (S := S512x10240) origin_zero, View.ld_unit_zero (S := S10240x128) origin_zero,
    View.ld_unit_zero (S := S512x1) origin_zero, View.ld_unit_zero (S := S512x128) origin_zero,
    View.ld_unit_zero (S := S128x128) origin_zero, View.ld_unit_zero (S := S1x128) origin_zero]
  funext y
  obtain ⟨p, k, rfl⟩ : ∃ (p : Fin 512) (k : Fin 128), y = ix2 p k := ⟨y 0, y 1, eq_ix2 y⟩
  obtain ⟨-, -, -, -, -, -, -, -, -, -, -, -, -, -, e0, e1, ht⟩ := tile_index0 t
  have hr : 512 * t.val + p.val < 10240 := by have := p.isLt; omega
  have hemb : (((cfg0.win 7).blk t).view.emb (ix2 p k) : S10240x128.Idx) = ix2 (⟨512 * t.val + p.val, hr⟩ : Fin 10240) k := by
    funext a; apply Fin.ext
    match a with
    | ⟨0, _⟩ => show win0_7.index t (0 : Fin 2) * 512 + 1 * p.val = 512 * t.val + p.val; rw [e0]; omega
    | ⟨1, _⟩ => show win0_7.index t (1 : Fin 2) * 128 + 1 * k.val = k.val; rw [e1]; omega
  show k0_pay1 (F := Ideal) (iblk0 E c 0 t) (iblk0 E c 2 t) (iblk0 E c 3 t) (iblk0 E c 1 t) (iblk0 E c 4 t) (iblk0 E c 5 t) (iblk0 E c 6 t) (ix2 p k)
    = G0 (E c main_v31) (E c main_v33) (E c main_v17) (E c main_arg2) (E c main_arg3) (E c main_v34) (((cfg0.win 7).blk t).view.emb (ix2 p k))
  rw [hemb]
  refine (k0_pay1_apply _ _ _ _ _ _ _ p k).trans ?_
  show max _ 0 = max (lay _ _ _ _ _ _ (⟨512 * t.val + p.val, hr⟩ : Fin 10240) k) 0
  refine congrArg (fun z => max z 0) (lay_of_tiles _ _ _ _ _ _ _ _ _ _ _ _ _ p k ⟨512 * t.val + p.val, hr⟩ ?_ ?_ ?_ ?_ ?_ ?_ ?_)
  · intro i; exact adj_tile0 E c t (ix2 p i) (ix2 (⟨512 * t.val + p.val, hr⟩ : Fin 10240) i) rfl rfl
  · intro j; exact row_tile0 E c t (ix2 p j) (ix2 (⟨512 * t.val + p.val, hr⟩ : Fin 10240) j) rfl rfl
  · intro i j; exact table_whole0 E c t (ix2 i j)
  · exact invdeg_tile0 E c t (ix2 p (0 : Fin 1)) (ix2 (⟨512 * t.val + p.val, hr⟩ : Fin 10240) (0 : Fin 1)) rfl rfl
  · intro j; exact self_weight0 E c t (ix2 k j)
  · intro j; exact nbr_weight0 E c t (ix2 k j)
  · exact bias_row0 E c t (ix2 (0 : Fin 1) k)

/-- An index of the result array is in point `t`'s block iff each coordinate is in the block's range on its axis. -/
theorem mem_tile0 (t : Fin cfg0.N) (i : S10240x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v35).slice (win0_7.rect t)).set ↔ _
  rw [View.set_slice_whole, Rect.mem_set_unit]
  exact Iff.rfl

/-- The 20 row tiles cover the result array: row `r` is in tile `r / 512`. -/
theorem tiles_cover0 (i : S10240x128.Idx) :
    ∃ t : Fin cfg0.N, (cfg0.win 7).flush t = true ∧ i ∈ ((cfg0.win 7).blk t).view.set := by
  have hi0 : (i 0).val < 10240 := (i 0).isLt
  have hi1 : (i 1).val < 128 := (i 1).isLt
  obtain ⟨t, ht⟩ := tile_onto0 ⟨(i 0).val / 512, by omega⟩
  have ht' : t.val = (i 0).val / 512 := ht
  obtain ⟨-, -, -, -, -, -, -, -, -, -, -, -, -, -, e0, e1, -⟩ := tile_index0 t
  refine ⟨t, flush0_7 t, ?_⟩
  rw [mem_tile0]
  intro a
  match a with
  | ⟨0, _⟩ => show win0_7.index t (0 : Fin 2) * 512 ≤ (i 0).val ∧ (i 0).val < win0_7.index t (0 : Fin 2) * 512 + 512; rw [e0, ht']; omega
  | ⟨1, _⟩ => show win0_7.index t (1 : Fin 2) * 128 ≤ (i 1).val ∧ (i 1).val < win0_7.index t (1 : Fin 2) * 128 + 128; rw [e1]; omega

/-- The first region's result array after its 20 points: the first layer, clamped at zero, of the arrays the region is entered with. -/
theorem arr0_final (c : Dev nD) : (dat0 (F := Ideal) E c).arrAt 7 cfg0.N
    = G0 (E c main_v31) (E c main_v33) (E c main_v17) (E c main_arg2) (E c main_arg3) (E c main_v34) :=
  (dat0 (F := Ideal) E c).arrAt_eq_of_cover 7 (G0 (E c main_v31) (E c main_v33) (E c main_v17) (E c main_arg2) (E c main_arg3) (E c main_v34))
    (fun t _ => flushed0_eq E c t) tiles_cover0

/-! # Region 1: the second layer -/

/-- The index maps over the 20 row tiles: the adjacency tile, the node-feature row tile, the inverse-degree tile and
    the output tile sit at block row `t`; the whole node-feature table, both weight tables and the bias at block 0. -/
theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ t.val < 20 :=
  (by decide +kernel : ∀ t : Fin grid1.N, _)

/-- Every row tile is some point's: tile `q` is point `q`'s. -/
theorem tile_onto1 : ∀ q : Fin 20, ∃ t : Fin cfg1.N, t.val = q.val :=
  (by decide +kernel : ∀ q : Fin 20, ∃ t : Fin grid1.N, t.val = q.val)

/-- The adjacency tile at point `t` is rows `512 t … 512 t + 511` of the adjacency table. -/
theorem adj_tile1 (c : Dev nD) (t : Fin cfg1.N) (y : S512x10240.Idx) (k : S10240x10240.Idx)
    (hk0 : (k 0).val = 512 * t.val + (y 0).val) (hk1 : (k 1).val = (y 1).val) :
    (iblk1 E c 0 t : Vec Ideal S512x10240 .bf16) y = (E c main_v31 : S10240x10240.Idx → EReal) k := by
  obtain ⟨e0, e1, -⟩ := tile_index1 t
  unfold iblk1
  rw [View.read_apply]
  show E c main_v31 _ = E c main_v31 _
  congr 1
  funext a
  apply Fin.ext
  match a with
  | ⟨0, _⟩ => show win1_0.index t (0 : Fin 2) * 512 + 1 * (y 0).val = (k 0).val; rw [e0, hk0]; omega
  | ⟨1, _⟩ => show win1_0.index t (1 : Fin 2) * 10240 + 1 * (y 1).val = (k 1).val; rw [e1, hk1]; omega

/-- The node-feature row tile at point `t` is the same rows of the node-feature table. -/
theorem row_tile1 (c : Dev nD) (t : Fin cfg1.N) (y : S512x128.Idx) (k : S10240x128.Idx)
    (hk0 : (k 0).val = 512 * t.val + (y 0).val) (hk1 : (k 1).val = (y 1).val) :
    (iblk1 E c 1 t : Vec Ideal S512x128 .bf16) y = (E c main_v35 : S10240x128.Idx → EReal) k := by
  obtain ⟨-, -, e0, e1, -⟩ := tile_index1 t
  unfold iblk1
  rw [View.read_apply]
  show E c main_v35 _ = E c main_v35 _
  congr 1
  funext a
  apply Fin.ext
  match a with
  | ⟨0, _⟩ => show win1_1.index t (0 : Fin 2) * 512 + 1 * (y 0).val = (k 0).val; rw [e0, hk0]; omega
  | ⟨1, _⟩ => show win1_1.index t (1 : Fin 2) * 128 + 1 * (y 1).val = (k 1).val; rw [e1, hk1]; omega

/-- The whole node-feature table, as window 2 holds it at every point. -/
theorem table_whole1 (c : Dev nD) (t : Fin cfg1.N) (y : S10240x128.Idx) :
    (iblk1 E c 2 t : Vec Ideal S10240x128 .bf16) y = (E c main_v35 : S10240x128.Idx → EReal) y := by
  obtain ⟨-, -, -, -, e0, e1, -⟩ := tile_index1 t
  unfold iblk1
  rw [View.read_apply]
  show E c main_v35 _ = E c main_v35 _
  congr 1
  funext a
  apply Fin.ext
  match a with
  | ⟨0, _⟩ => show win1_2.index t (0 : Fin 2) * 10240 + 1 * (y 0).val = (y 0).val; rw [e0]; omega
  | ⟨1, _⟩ => show win1_2.index t (1 : Fin 2) * 128 + 1 * (y 1).val = (y 1).val; rw [e1]; omega

/-- The inverse-degree tile at point `t` is the same rows of the inverse-degree column. -/
theorem invdeg_tile1 (c : Dev nD) (t : Fin cfg1.N) (y : S512x1.Idx) (k : S10240x1.Idx)
    (hk0 : (k 0).val = 512 * t.val + (y 0).val) (hk1 : (k 1).val = (y 1).val) :
    (iblk1 E c 3 t : Vec Ideal S512x1 .f32) y = (E c main_v17 : S10240x1.Idx → EReal) k := by
  obtain ⟨-, -, -, -, -, -, e0, e1, -⟩ := tile_index1 t
  unfold iblk1
  rw [View.read_apply]
  show E c main_v17 _ = E c main_v17 _
  congr 1
  funext a
  apply Fin.ext
  match a with
  | ⟨0, _⟩ => show win1_3.index t (0 : Fin 2) * 512 + 1 * (y 0).val = (k 0).val; rw [e0, hk0]; omega
  | ⟨1, _⟩ => show win1_3.index t (1 : Fin 2) * 1 + 1 * (y 1).val = (k 1).val; rw [e1, hk1]; omega

/-- The self weight table, whole at every point. -/
theorem self_weight1 (c : Dev nD) (t : Fin cfg1.N) (y : S128x128.Idx) :
    (iblk1 E c 4 t : Vec Ideal S128x128 .f32) y = (E c main_arg5 : S128x128.Idx → EReal) y := by
  obtain ⟨-, -, -, -, -, -, -, -, e0, e1, -⟩ := tile_index1 t
  unfold iblk1
  rw [View.read_apply]
  show E c main_arg5 _ = E c main_arg5 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The neighbour weight table, whole at every point. -/
theorem nbr_weight1 (c : Dev nD) (t : Fin cfg1.N) (y : S128x128.Idx) :
    (iblk1 E c 5 t : Vec Ideal S128x128 .f32) y = (E c main_arg6 : S128x128.Idx → EReal) y := by
  obtain ⟨-, -, -, -, -, -, -, -, -, -, e0, e1, -⟩ := tile_index1 t
  unfold iblk1
  rw [View.read_apply]
  show E c main_arg6 _ = E c main_arg6 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The bias row, whole at every point. -/
theorem bias_row1 (c : Dev nD) (t : Fin cfg1.N) (y : S1x128.Idx) :
    (iblk1 E c 6 t : Vec Ideal S1x128 .f32) y = (E c main_v36 : S1x128.Idx → EReal) y := by
  obtain ⟨-, -, -, -, -, -, -, -, -, -, -, -, e0, e1, -⟩ := tile_index1 t
  unfold iblk1
  rw [View.read_apply]
  show E c main_v36 _ = E c main_v36 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- What point `t` writes back is block `t` of the second layer's result array. -/
theorem flushed1_eq (c : Dev nD) (t : Fin cfg1.N) :
    (dat1 (F := Ideal) E c).flushed 7 t = ((cfg1.win 7).blk t).view.read (Elt Ideal)
      (G1 (E c main_v31) (E c main_v35) (E c main_v17) (E c main_arg5) (E c main_arg6) (E c main_v36)) := by
  show (cfg1.win 7).cut (grid1.coords t) ((dat1 (F := Ideal) E c).after 7 t) = _
  rw [after1_7]
  unfold out1_7
  rw [View.canon_unit_zero origin_zero]
  simp only [View.ld_unit_zero (S := S512x10240) origin_zero, View.ld_unit_zero (S := S10240x128) origin_zero,
    View.ld_unit_zero (S := S512x1) origin_zero, View.ld_unit_zero (S := S512x128) origin_zero,
    View.ld_unit_zero (S := S128x128) origin_zero, View.ld_unit_zero (S := S1x128) origin_zero]
  funext y
  obtain ⟨p, k, rfl⟩ : ∃ (p : Fin 512) (k : Fin 128), y = ix2 p k := ⟨y 0, y 1, eq_ix2 y⟩
  obtain ⟨-, -, -, -, -, -, -, -, -, -, -, -, -, -, e0, e1, ht⟩ := tile_index1 t
  have hr : 512 * t.val + p.val < 10240 := by have := p.isLt; omega
  have hemb : (((cfg1.win 7).blk t).view.emb (ix2 p k) : S10240x128.Idx) = ix2 (⟨512 * t.val + p.val, hr⟩ : Fin 10240) k := by
    funext a; apply Fin.ext
    match a with
    | ⟨0, _⟩ => show win1_7.index t (0 : Fin 2) * 512 + 1 * p.val = 512 * t.val + p.val; rw [e0]; omega
    | ⟨1, _⟩ => show win1_7.index t (1 : Fin 2) * 128 + 1 * k.val = k.val; rw [e1]; omega
  show k1_pay1 (F := Ideal) (iblk1 E c 0 t) (iblk1 E c 2 t) (iblk1 E c 3 t) (iblk1 E c 1 t) (iblk1 E c 4 t) (iblk1 E c 5 t) (iblk1 E c 6 t) (ix2 p k)
    = G1 (E c main_v31) (E c main_v35) (E c main_v17) (E c main_arg5) (E c main_arg6) (E c main_v36) (((cfg1.win 7).blk t).view.emb (ix2 p k))
  rw [hemb]
  refine (k1_pay1_apply _ _ _ _ _ _ _ p k).trans ?_
  show _ = lay _ _ _ _ _ _ (⟨512 * t.val + p.val, hr⟩ : Fin 10240) k
  refine lay_of_tiles _ _ _ _ _ _ _ _ _ _ _ _ _ p k ⟨512 * t.val + p.val, hr⟩ ?_ ?_ ?_ ?_ ?_ ?_ ?_
  · intro i; exact adj_tile1 E c t (ix2 p i) (ix2 (⟨512 * t.val + p.val, hr⟩ : Fin 10240) i) rfl rfl
  · intro j; exact row_tile1 E c t (ix2 p j) (ix2 (⟨512 * t.val + p.val, hr⟩ : Fin 10240) j) rfl rfl
  · intro i j; exact table_whole1 E c t (ix2 i j)
  · exact invdeg_tile1 E c t (ix2 p (0 : Fin 1)) (ix2 (⟨512 * t.val + p.val, hr⟩ : Fin 10240) (0 : Fin 1)) rfl rfl
  · intro j; exact self_weight1 E c t (ix2 k j)
  · intro j; exact nbr_weight1 E c t (ix2 k j)
  · exact bias_row1 E c t (ix2 (0 : Fin 1) k)

/-- An index of the result array is in point `t`'s block iff each coordinate is in the block's range on its axis. -/
theorem mem_tile1 (t : Fin cfg1.N) (i : S10240x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v37).slice (win1_7.rect t)).set ↔ _
  rw [View.set_slice_whole, Rect.mem_set_unit]
  exact Iff.rfl

/-- The 20 row tiles cover the result array: row `r` is in tile `r / 512`. -/
theorem tiles_cover1 (i : S10240x128.Idx) :
    ∃ t : Fin cfg1.N, (cfg1.win 7).flush t = true ∧ i ∈ ((cfg1.win 7).blk t).view.set := by
  have hi0 : (i 0).val < 10240 := (i 0).isLt
  have hi1 : (i 1).val < 128 := (i 1).isLt
  obtain ⟨t, ht⟩ := tile_onto1 ⟨(i 0).val / 512, by omega⟩
  have ht' : t.val = (i 0).val / 512 := ht
  obtain ⟨-, -, -, -, -, -, -, -, -, -, -, -, -, -, e0, e1, -⟩ := tile_index1 t
  refine ⟨t, flush1_7 t, ?_⟩
  rw [mem_tile1]
  intro a
  match a with
  | ⟨0, _⟩ => show win1_7.index t (0 : Fin 2) * 512 ≤ (i 0).val ∧ (i 0).val < win1_7.index t (0 : Fin 2) * 512 + 512; rw [e0, ht']; omega
  | ⟨1, _⟩ => show win1_7.index t (1 : Fin 2) * 128 ≤ (i 1).val ∧ (i 1).val < win1_7.index t (1 : Fin 2) * 128 + 128; rw [e1]; omega

/-- The second region's result array after its 20 points: the second layer of the arrays the region is entered with. -/
theorem arr1_final (c : Dev nD) : (dat1 (F := Ideal) E c).arrAt 7 cfg1.N
    = G1 (E c main_v31) (E c main_v35) (E c main_v17) (E c main_arg5) (E c main_arg6) (E c main_v36) :=
  (dat1 (F := Ideal) E c).arrAt_eq_of_cover 7 (G1 (E c main_v31) (E c main_v35) (E c main_v17) (E c main_arg5) (E c main_arg6) (E c main_v36))
    (fun t _ => flushed1_eq E c t) tiles_cover1

end Cert.KernelIdeal.Fr

end
-- ==== Proof.Spec.lean ====
/-
  The mathematics both programs compute, stated once over the extended reals.

  A graph has 640000 directed edges; edge `e` goes from node `src e` to node `dst e`, both read as natural
  numbers off the two rows of the 2 x 640000 integer array. One layer maps a feature table `Y` (rows indexed by
  node) to: row `r` times the transposed self weight, plus the mean over the edges INTO `r` of the source rows
  (the sum over those edges divided by max(in-degree, 1)) times the transposed neighbour weight, plus the bias.
  The network is two layers with max(., 0) between them.
-/
import Idealize.ShloMosaic.PureOps.Ideal
import Idealize.ShloMosaic.Lib.ValueIdx

noncomputable section

namespace Cert.Sage

open Idealize.ShloMosaic Idealize.ShloMosaic.ValueIdx

/-- The 2 x 640000 table of edge endpoints. -/
abbrev Edges := (⟨2, ![2, 640000]⟩ : Shape).Idx → BitVec 32
/-- A 128 x 128 weight table and a 128-long bias. -/
abbrev Wt := (⟨2, ![128, 128]⟩ : Shape).Idx → EReal
abbrev Bias := (⟨1, ![128]⟩ : Shape).Idx → EReal
/-- A feature table: a row of 128 extended reals per node number. -/
abbrev Feat := ℕ → Fin 128 → EReal

/-- The source node of edge `e` (row 0 of the table), as a natural number. -/
def src (ei : Edges) (e : Fin 640000) : ℕ := (ei (ix2 (0 : Fin 2) e)).toNat
/-- The destination node of edge `e` (row 1 of the table). -/
def dst (ei : Edges) (e : Fin 640000) : ℕ := (ei (ix2 (1 : Fin 2) e)).toNat

/-- Every endpoint is a node number: as a signed word it lies in [0, 10000). -/
def InRange (ei : Edges) : Prop := ∀ (a : Fin 2) (e : Fin 640000), (ei (ix2 a e)).toNat < 10000

/-- The sum, over the edges into node `r`, of column `j` of the source node's row. -/
def agg (ei : Edges) (Y : Feat) (r : ℕ) (j : Fin 128) : EReal :=
  ∑ e : Fin 640000, if dst ei e = r then Y (src ei e) j else 0
/-- The in-degree of node `r`, as a sum of ones. -/
def deg (ei : Edges) (r : ℕ) : EReal := ∑ e : Fin 640000, if dst ei e = r then (1 : EReal) else 0

/-- One layer at row `r`, column `k`. -/
def layer (ei : Edges) (Ws Wn : Wt) (b : Bias) (Y : Feat) (r : ℕ) (k : Fin 128) : EReal :=
  (∑ j : Fin 128, Y r j * Ws (ix2 k j))
    + (∑ j : Fin 128, Ideal.div (agg ei Y r j) (max (deg ei r) 1) * Wn (ix2 k j))
    + b (ix1 k)

/-- The input table as a feature table: row `r` of `x` for a node number, zero beyond the 10000 nodes. -/
def feat (x : (⟨2, ![10000, 128]⟩ : Shape).Idx → EReal) : Feat :=
  fun r j => if h : r < 10000 then x (ix2 (⟨r, h⟩ : Fin 10000) j) else 0

/-- The two-layer network at row `r`, column `k`. -/
def net (ei : Edges) (x : (⟨2, ![10000, 128]⟩ : Shape).Idx → EReal) (W1s W1n : Wt) (b1 : Bias) (W2s W2n : Wt) (b2 : Bias)
    (r : ℕ) (k : Fin 128) : EReal :=
  layer ei W2s W2n b2 (fun r' j => max (layer ei W1s W1n b1 (feat x) r' j) 0) r k

/-- The result array: the network at the 10000 node rows. -/
def out (ei : Edges) (x : (⟨2, ![10000, 128]⟩ : Shape).Idx → EReal) (W1s W1n : Wt) (b1 : Bias) (W2s W2n : Wt) (b2 : Bias) :
    (⟨2, ![10000, 128]⟩ : Shape).Idx → EReal :=
  fun i => net ei x W1s W1n b1 W2s W2n b2 (i 0).val (i 1)

end Cert.Sage

end
-- ==== Proof.KIHostCount.lean ====
/-
  The count matrix the program builds on the host before its kernels run, read at an entry.

  The program takes the two rows of the 2 x 640000 edge table as vectors of 32-bit words (sources, destinations),
  forms for every edge the word destination * 10240 + source, adds a one at that position of a zero vector of
  10240 * 10240 entries (positions outside the vector are dropped; the position is read as a signed word), and cuts
  the vector into 10240 rows of 10240. When every endpoint is a node number below 10000 the product and the sum do
  not wrap (at most 9999 * 10240 + 9999, below 2^31), the word is not negative, so the comparison against zero that
  would move it up by 10240 * 10240 leaves it alone, and position r * 10240 + i with r, i < 10240 is hit exactly by
  the edges with destination r and source i. Over the extended reals the rounding of the result to the narrower
  float format is the identity, so entry (r, i) is the number of edges from i into r, as a sum of ones.
-/
import proofs.«415242_j61186104099485_2_alg».proof.Proof.Gen.KernelIdeal.Regions
import proofs.«415242_j61186104099485_2_alg».proof.Proof.Spec
import Idealize.ShloMosaic.PureOps.Ideal
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.Lib.StableHlo.Predicate
import Idealize.ShloMosaic.Lib.StableHlo.Run
import Mathlib.Algebra.BigOperators.Group.Finset.Defs
import Mathlib.Algebra.BigOperators.Group.Finset.Basic

set_option maxRecDepth 16384

noncomputable section

namespace Cert.KernelIdeal.Fr

open Cert.KernelIdeal Cert.KernelIdeal.Gen Cert.Sage
open Idealize.ShloMosaic Idealize.ShloMosaic.TcCoe Idealize.ShloMosaic.ValueIdx
open Idealize.SL.Sem

/-! ## Reading the accumulating scatter of one word per update into a vector -/

/-- The dimension numbers of a scatter of `M` scalar updates into a length-`N` vector, one start word per update. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ := ⟨[], [0], [0], 1, wf⟩

theorem vecScatter_start {N M : Nat} (wf : ScatterDims.WF ⟨1, ![N]⟩ ⟨2, ![M, 1]⟩ ⟨1, ![M]⟩ [] [0] [0] 1)
    (idx : (⟨2, ![M, 1]⟩ : Shape).Idx → BitVec 32) (j : (⟨1, ![M]⟩ : Shape).Idx) (a : Fin 1) :
    (vecScatter N M wf).start j idx a = (idx (ix2 (j 0) (0 : Fin 1))).toInt := by
  obtain rfl : a = 0 := Subsingleton.elim _ _
  unfold ScatterDims.start
  rw [dif_pos (List.mem_singleton.2 rfl)]
  refine congrArg (fun k => (idx k).toInt) (funext fun b => ?_)
  match b with
  | ⟨0, _⟩ => rfl
  | ⟨1, _⟩ => rfl

theorem vecScatter_window {N M : Nat} (wf : ScatterDims.WF ⟨1, ![N]⟩ ⟨2, ![M, 1]⟩ ⟨1, ![M]⟩ [] [0] [0] 1)
    (j : (⟨1, ![M]⟩ : Shape).Idx) (a : Fin 1) : (vecScatter N M wf).window j a = 0 := by
  obtain rfl : a = 0 := Subsingleton.elim _ _
  unfold ScatterDims.window
  rw [dif_neg (by simp [ScatterDims.sKept, Shape.kept])]

theorem vecScatter_resultIdx_iff {N M : Nat} (wf : ScatterDims.WF ⟨1, ![N]⟩ ⟨2, ![M, 1]⟩ ⟨1, ![M]⟩ [] [0] [0] 1)
    (idx : (⟨2, ![M, 1]⟩ : Shape).Idx → BitVec 32) (j : (⟨1, ![M]⟩ : Shape).Idx) (i : Fin N) :
    (vecScatter N M wf).resultIdx? j idx = some (ix1 i) ↔ (idx (ix2 (j 0) (0 : Fin 1))).toInt = (i.val : Int) := by
  unfold ScatterDims.resultIdx?
  simp only [vecScatter_start, vecScatter_window, Nat.cast_zero, add_zero]
  split
  · rename_i h
    have h0 : 0 ≤ (idx (ix2 (j 0) (0 : Fin 1))).toInt ∧ (idx (ix2 (j 0) (0 : Fin 1))).toInt < (N : Int) := h 0
    constructor
    · intro he
      have h1 : (idx (ix2 (j 0) (0 : Fin 1))).toInt.toNat = i.val := congrArg Fin.val (congrFun (Option.some.inj he) 0)
      omega
    · intro he
      refine congrArg some (funext fun a => ?_)
      obtain rfl : a = 0 := Subsingleton.elim _ _
      refine Fin.ext ?_
      show (idx (ix2 (j 0) (0 : Fin 1))).toInt.toNat = i.val
      omega
  · rename_i h
    constructor
    · intro he; exact absurd he (by simp)
    · intro he
      refine absurd (fun a => ?_) h
      obtain rfl : a = 0 := Subsingleton.elim _ _
      have := i.isLt
      rw [he]
      show (0 : Int) ≤ (i.val : Int) ∧ (i.val : Int) < (N : Int)
      omega

/-- The accumulating scatter into a vector, read at `i`: the operand there plus the updates whose start word is `i`. -/
theorem hostScatterAdd_vec_apply {N M : Nat} (wf : ScatterDims.WF ⟨1, ![N]⟩ ⟨2, ![M, 1]⟩ ⟨1, ![M]⟩ [] [0] [0] 1)
    (x : (⟨1, ![N]⟩ : Shape).Idx → EReal) (idx : (⟨2, ![M, 1]⟩ : Shape).Idx → BitVec 32)
    (upd : (⟨1, ![M]⟩ : Shape).Idx → EReal) (i : Fin N) :
    Ideal.hostScatterAdd (vecScatter N M wf) x idx upd (ix1 i)
      = x (ix1 i) + ∑ e : Fin M, if (idx (ix2 e (0 : Fin 1))).toInt = (i.val : Int) then upd (ix1 e) else 0 := by
  unfold Ideal.hostScatterAdd
  refine congrArg (x (ix1 i) + ·) ?_
  rw [Finset.sum_filter, ← Equiv.sum_comp idxEquiv1.symm]
  refine Finset.sum_congr rfl fun e _ => ?_
  simp only [vecScatter_resultIdx_iff]
  rfl

/-! ## The words the program scatters at -/

/-- Row 0 of the edge table as a vector of words: the sources. -/
def srcW (ei : Edges) : IVec S640000 32 :=
  shapeCast S640000 (extractStridedSlice S1x640000 ![0, 0] ei slices_S2x640000_S1x640000_0_0) shapeCasts_S1x640000_S640000

/-- Row 1 of the edge table as a vector of words: the destinations. -/
def dstW (ei : Edges) : IVec S640000 32 :=
  shapeCast S640000 (extractStridedSlice S1x640000 ![1, 0] ei slices_S2x640000_S1x640000_1_0) shapeCasts_S1x640000_S640000

theorem srcW_apply (ei : Edges) (e : Fin 640000) : srcW ei (ix1 e) = ei (ix2 (0 : Fin 2) e) := by
  unfold srcW
  rw [shapeCast_1a_a_apply]
  exact slice2_axis0_apply 0 ei _ (0 : Fin 1) e (0 : Fin 2) rfl

theorem dstW_apply (ei : Edges) (e : Fin 640000) : dstW ei (ix1 e) = ei (ix2 (1 : Fin 2) e) := by
  unfold dstW
  rw [shapeCast_1a_a_apply]
  exact slice2_axis0_apply 1 ei _ (0 : Fin 1) e (1 : Fin 2) rfl

/-- A scalar broadcast to any shape reads the scalar everywhere. -/
theorem bcastS_apply {t : Shape} {α : Type} (h : S_.BroadcastsInDim t (![] : Fin 0 → Fin t.rank)) (x : S_.Idx → α) (i : t.Idx) :
    broadcastInDim t ![] h x i = x ix0 :=
  broadcastInDim_apply _ _ _ _ ix0 (fun a => a.elim0)

/-- The flat position word of an edge: destination times 10240 plus source, in 32-bit arithmetic. -/
def flatW (ei : Edges) : IVec S640000 32 :=
  addi (muli (dstW ei) (broadcastInDim S640000 ![] bcast_S_S640000 (constantI S_ 32 10240#32))) (srcW ei)

theorem flatW_apply (ei : Edges) (e : Fin 640000) :
    flatW ei (ix1 e) = ei (ix2 (1 : Fin 2) e) * 10240#32 + ei (ix2 (0 : Fin 2) e) := by
  unfold flatW
  show IntOp.addi (IntOp.muli (dstW ei (ix1 e)) (broadcastInDim S640000 ![] bcast_S_S640000 (constantI S_ 32 10240#32) (ix1 e)))
      (srcW ei (ix1 e)) = _
  rw [bcastS_apply, constantI_apply, dstW_apply, srcW_apply]
  rfl

/-- With both endpoints node numbers the flat position does not overflow. -/
theorem flatW_toNat (ei : Edges) (hR : InRange ei) (e : Fin 640000) :
    (flatW ei (ix1 e)).toNat = dst ei e * 10240 + src ei e := by
  have h0 : (ei (ix2 (0 : Fin 2) e)).toNat < 10000 := hR 0 e
  have h1 : (ei (ix2 (1 : Fin 2) e)).toNat < 10000 := hR 1 e
  rw [flatW_apply, BitVec.toNat_add, BitVec.toNat_mul]
  show ((ei (ix2 (1 : Fin 2) e)).toNat * 10240 % 2 ^ 32 + (ei (ix2 (0 : Fin 2) e)).toNat) % 2 ^ 32
    = (ei (ix2 (1 : Fin 2) e)).toNat * 10240 + (ei (ix2 (0 : Fin 2) e)).toNat
  omega

/-- A vector of words with the negative ones moved up by `n`, as a column of start words. -/
def wrapW (n : BitVec 32) (x : IVec S640000 32) : IVec S640000x1 32 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 n))) x)

/-- A word that is not negative is left where it is. -/
theorem wrapW_apply (n : BitVec 32) (x : IVec S640000 32) (e : Fin 640000) (hx : (x (ix1 e)).toNat < 2 ^ 31) :
    wrapW n x (ix2 e (0 : Fin 1)) = x (ix1 e) := by
  unfold wrapW
  rw [broadcastInDim_apply ![0] bcast_S640000_S640000x1_0 _ (ix2 e (0 : Fin 1)) (ix1 e) (fun a => by
    obtain rfl : a = 0 := Subsingleton.elim _ _
    exact (if_neg (by decide)).symm)]
  rw [select_apply]
  have hc : cmpi .slt x (broadcastInDim S640000 ![] bcast_S_S640000 (constantI S_ 32 0#32)) (ix1 e) = 0#1 := by
    show IntOp.cmpi .slt (x (ix1 e)) (broadcastInDim S640000 ![] bcast_S_S640000 (constantI S_ 32 0#32) (ix1 e)) = 0#1
    rw [bcastS_apply, constantI_apply]
    refine eq_zero_of_ne_one fun h => ?_
    have h2 := (StableHlo.Predicate.slt_iff_toNat hx (by decide)).1 h
    exact absurd h2 (Nat.not_lt_zero _)
  rw [hc, select_zero]

/-! ## The count matrix -/

/-- The flat vector cut into 10240 rows, read at `(r, i)`: position `r * 10240 + i`. -/
theorem reshape_flat_apply {α : Type} (x : S104857600.Idx → α) (r i : Fin 10240) (k : Fin 104857600)
    (hk : k.val = r.val * 10240 + i.val) :
    shapeCast S10240x10240 x shapeCasts_S104857600_S10240x10240 (ix2 r i) = x (ix1 k) :=
  shapeCast_apply x shapeCasts_S104857600_S10240x10240 (ix2 r i) (ix1 k) (by
    rw [Shape.rowMajor_val_one, Shape.rowMajor_val_two]; exact hk)

/-- The program's scatter into the flat vector, read at position `k`. -/
theorem flatScatter_apply (x : FVec Ideal S104857600 .f32) (idx : IVec S640000x1 32) (upd : FVec Ideal S640000 .f32)
    (k : Fin 104857600) :
    Host.scatterAdd (F := Ideal) scatter_S104857600_S640000x1_S640000_n_0_0_1 x idx upd (ix1 k)
      = x (ix1 k) + ∑ e : Fin 640000, if (idx (ix2 e (0 : Fin 1))).toInt = (k.val : Int) then upd (ix1 e) else 0 :=
  hostScatterAdd_vec_apply Gen.scatter_S104857600_S640000x1_S640000_n_0_0_1_wf x idx upd k

/-- The count matrix as the program builds it: ones added at the flat positions, cut into rows. -/
def countV (ei : Edges) : FVec Ideal S10240x10240 .bf16 :=
  truncf (F := Ideal) .bf16
    (shapeCast S10240x10240
      (Host.scatterAdd (F := Ideal) scatter_S104857600_S640000x1_S640000_n_0_0_1
        (broadcastInDim S104857600 ![] bcast_S_S104857600 (constant (F := Ideal) S_ .f32 0#32))
        (wrapW 104857600#32 (flatW ei))
        (broadcastInDim S640000 ![] bcast_S_S640000 (constant (F := Ideal) S_ .f32 1065353216#32)))
      shapeCasts_S104857600_S10240x10240) bitsLt_bf16_f32

/-- Entry `(r, i)` of the count matrix is the number of edges from `i` into `r`. -/
theorem countV_apply (ei : Edges) (hR : InRange ei) (r i : Fin 10240) :
    countV ei (ix2 r i) = ∑ e : Fin 640000, if dst ei e = r.val ∧ src ei e = i.val then (1 : EReal) else 0 := by
  have hr := r.isLt
  have hi := i.isLt
  unfold countV
  rw [truncf_apply, reshape_flat_apply _ r i (⟨r.val * 10240 + i.val, by omega⟩ : Fin 104857600) rfl,
    flatScatter_apply, bcastS_apply, constant_apply, Ideal.ofBits_zero_f32, zero_add]
  refine Finset.sum_congr rfl fun e _ => ?_
  have hs : src ei e < 10000 := hR 0 e
  have hd : dst ei e < 10000 := hR 1 e
  have hf := flatW_toNat ei hR e
  have hlt : (flatW ei (ix1 e)).toNat < 2 ^ 31 := by rw [hf]; omega
  rw [wrapW_apply _ _ e hlt, StableHlo.Predicate.toInt_eq_toNat_of_lt hlt, hf, bcastS_apply, constant_apply,
    Ideal.ofBits_one_f32]
  refine if_congr ?_ rfl rfl
  show ((dst ei e * 10240 + src ei e : ℕ) : Int) = ((r.val * 10240 + i.val : ℕ) : Int) ↔ _
  constructor
  · intro h; omega
  · intro h; omega

/-! ## The program's count matrix -/

/-- After the host operations the count-matrix buffer holds the count matrix of the launch's edge table. -/
theorem V3_main_v31_eq (m : (ℓ : Loc nD τ sig) → Buf (Elt Ideal) ℓ) (c : Dev nD) :
    (Gen.V3 (F := Ideal) m c main_v31 : S10240x10240.Idx → EReal) = countV (m ((c.tc : Thread nD τ).loc main_arg1)) := by
  rw [Gen.V3_of m c main_v31 (by decide), Gen.V2_of m c main_v31 (by decide)]
  dsimp only [Gen.V1, Gen.hostOps0]
  after_results_simp
  unfold countV wrapW flatW srcW dstW
  rfl

/-- Entry `(r, i)` of the count-matrix buffer is the number of edges from `i` into `r`. -/
theorem V3_count (m : (ℓ : Loc nD τ sig) → Buf (Elt Ideal) ℓ) (c : Dev nD)
    (hR : InRange (m ((c.tc : Thread nD τ).loc main_arg1))) (r i : Fin 10240) :
    (Gen.V3 (F := Ideal) m c main_v31 : S10240x10240.Idx → EReal) (ix2 r i)
      = ∑ e : Fin 640000,
          if dst (m ((c.tc : Thread nD τ).loc main_arg1)) e = r.val ∧ src (m ((c.tc : Thread nD τ).loc main_arg1)) e = i.val
          then (1 : EReal) else 0 := by
  rw [V3_main_v31_eq]
  exact countV_apply _ hR r i

end Cert.KernelIdeal.Fr

end
-- ==== Proof.EdgeAlgebra.lean ====
/-
  Edge algebra over the extended reals: a count matrix times a table is a sum over edges, the in-degree is a
  natural number, and multiplying by the reciprocal of max(degree, 1) is dividing by it.
-/
import proofs.«415242_j61186104099485_2_alg».proof.Proof.Spec
import Mathlib.Data.EReal.Basic
import Mathlib.Data.EReal.Operations
import Mathlib.Algebra.BigOperators.Group.Finset.Basic
import Mathlib.Algebra.BigOperators.Group.Finset.Sigma
import Mathlib.Algebra.Order.BigOperators.Group.Finset

noncomputable section

namespace Cert.Sage

open Idealize.ShloMosaic Idealize.ShloMosaic.ValueIdx

/-- Under the range hypothesis every source endpoint is a node number. -/
theorem src_lt {ei : Edges} (hR : InRange ei) (e : Fin 640000) : src ei e < 10000 := hR 0 e

/-- Under the range hypothesis every destination endpoint is a node number. -/
theorem dst_lt {ei : Edges} (hR : InRange ei) (e : Fin 640000) : dst ei e < 10000 := hR 1 e

/-- Multiplication distributes over a finite sum of non-negative coefficients (no finiteness needed on the factor). -/
private theorem sum_mul_of_nonneg {ι : Type*} [DecidableEq ι] (s : Finset ι) (c : ι → EReal) (hc : ∀ e, 0 ≤ c e)
    (y : EReal) : (∑ e ∈ s, c e) * y = ∑ e ∈ s, c e * y := by
  induction s using Finset.induction_on with
  | empty => simp
  | insert a s ha ih =>
    rw [Finset.sum_insert ha, Finset.sum_insert ha,
      EReal.right_distrib_of_nonneg (hc a) (Finset.sum_nonneg fun e _ => hc e), ih]

/-- The count matrix times a table is the sum over edges: with C r i the number of edges from i into r (a sum of
    ones), the sum over all 10240 columns i of C r i * Y i is the sum over the edges into r of Y at the edge's
    source. -/
theorem count_matmul (ei : Edges) (hR : InRange ei) (Y : Fin 10240 → EReal) (r : ℕ) :
    ∑ i : Fin 10240, (∑ e : Fin 640000, if dst ei e = r ∧ src ei e = i.val then (1 : EReal) else 0) * Y i
      = ∑ e : Fin 640000, if dst ei e = r then Y ⟨src ei e, (src_lt hR e).trans (by norm_num)⟩ else 0 := by
  have h1 : ∀ i : Fin 10240,
      (∑ e : Fin 640000, if dst ei e = r ∧ src ei e = i.val then (1 : EReal) else 0) * Y i
        = ∑ e : Fin 640000, if dst ei e = r ∧ src ei e = i.val then Y i else 0 := by
    intro i
    rw [sum_mul_of_nonneg Finset.univ _ (fun e => by split_ifs <;> simp) (Y i)]
    refine Finset.sum_congr rfl (fun e _ => ?_)
    split_ifs <;> simp
  rw [Finset.sum_congr rfl (fun i _ => h1 i), Finset.sum_comm]
  refine Finset.sum_congr rfl (fun e _ => ?_)
  by_cases hd : dst ei e = r
  · simp only [hd, true_and, if_true]
    rw [Finset.sum_eq_single (⟨src ei e, (src_lt hR e).trans (by norm_num)⟩ : Fin 10240)]
    · simp
    · intro b _ hb
      rw [if_neg]
      intro h
      exact hb (Fin.ext h.symm)
    · intro h
      exact absurd (Finset.mem_univ _) h
  · simp [hd]

/-- A finite sum of zeros and ones is a natural number. -/
private theorem sum_ite_one_eq_natCast {ι : Type*} [DecidableEq ι] (s : Finset ι) (p : ι → Prop) [DecidablePred p] :
    ∃ k : ℕ, (∑ e ∈ s, if p e then (1 : EReal) else 0) = ((k : ℝ) : EReal) := by
  induction s using Finset.induction_on with
  | empty => exact ⟨0, by simp⟩
  | insert a s ha ih =>
    obtain ⟨k, hk⟩ := ih
    rw [Finset.sum_insert ha, hk]
    by_cases h : p a
    · refine ⟨k + 1, ?_⟩
      rw [if_pos h, ← EReal.coe_one, ← EReal.coe_add]
      congr 1
      push_cast
      ring
    · exact ⟨k, by rw [if_neg h, zero_add]⟩

/-- The in-degree is a natural number. -/
theorem deg_eq_natCast (ei : Edges) (r : ℕ) : ∃ k : ℕ, deg ei r = ((k : ℝ) : EReal) :=
  sum_ite_one_eq_natCast Finset.univ (fun e => dst ei e = r)

/-- Multiplying by the reciprocal of max(deg, 1) is dividing by it: max(deg, 1) is a real number at least 1, so
    dividing by it is multiplying by its real inverse. -/
theorem mul_inv_deg (ei : Edges) (r : ℕ) (a : EReal) :
    a * Ideal.div 1 (max (deg ei r) 1) = Ideal.div a (max (deg ei r) 1) := by
  obtain ⟨k, hk⟩ := deg_eq_natCast ei r
  have hm : max (deg ei r) 1 = ((max (k : ℝ) 1 : ℝ) : EReal) := by
    rw [hk, ← EReal.coe_one]
    exact (EReal.coe_strictMono.monotone.map_max).symm
  have hne : (max (k : ℝ) 1) ≠ 0 := by
    have : (1 : ℝ) ≤ max (k : ℝ) 1 := le_max_right _ _
    linarith
  rw [hm, Ideal.div_coe hne, Ideal.div_coe hne, one_mul]

end Cert.Sage

end
-- ==== Proof.KIHostDeg.lean ====
/-
  The kernel program's inverse in-degree column. Its host operations before the first kernel region take row 1 of the
  edge table (the destination words), leave it unchanged by the "add the padded row count if negative" step when every
  endpoint is a node number, scatter ones over the 10240 padded rows, take the maximum with one, divide one by it and
  reshape to a column. Read at a padded row r the result is one over the maximum of the in-degree of r and one.
-/
import proofs.«415242_j61186104099485_2_alg».proof.Proof.Gen.KernelIdeal.Regions
import proofs.«415242_j61186104099485_2_alg».proof.Proof.Spec
import proofs.«415242_j61186104099485_2_alg».proof.Proof.EdgeAlgebra
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws
import Mathlib.Algebra.BigOperators.Group.Finset.Basic
import Mathlib.Algebra.BigOperators.Group.Finset.Piecewise

noncomputable section

namespace Cert.KernelIdeal.Fr

open Cert.KernelIdeal Cert.KernelIdeal.Gen Idealize.ShloMosaic Idealize.ShloMosaic.TcCoe Idealize.SL.Sem Idealize.ShloMosaic.StableHlo Idealize.ShloMosaic.ValueIdx
open scoped BigOperators

namespace HostDeg

/-- The edge table at its literal array type. -/
abbrev EI := IVec S2x640000 32

/-- Row 1 of the edge table, flattened: the destination words. -/
def dstw (ei : EI) : IVec S640000 32 :=
  shapeCast _ (extractStridedSlice S1x640000 ![1, 0] ei slices_S2x640000_S1x640000_1_0) shapeCasts_S1x640000_S640000

/-- The destination words after "add the padded row count if negative". -/
def dstn (ei : EI) : IVec S640000 32 :=
  select (cmpi .slt (dstw ei) (broadcastInDim S640000 ![] bcast_S_S640000 (constantI S_ 32 0#32)))
    (addi (dstw ei) (broadcastInDim S640000 ![] bcast_S_S640000 (constantI S_ 32 10240#32))) (dstw ei)

/-- The same words as a one-column index array. -/
def dcol (ei : EI) : IVec S640000x1 32 := broadcastInDim S640000x1 ![0] bcast_S640000_S640000x1_0 (dstn ei)

/-- The scatter of ones over the 10240 padded rows. -/
def degv (ei : EI) : FVec Ideal S10240 .f32 :=
  Host.scatterAdd (F := Ideal) (φ := .f32) scatter_S10240_S640000x1_S640000_n_0_0_1
    (broadcastInDim S10240 ![] bcast_S_S10240 (constant (F := Ideal) S_ .f32 0x00000000#32)) (dcol ei)
    (broadcastInDim S640000 ![] bcast_S_S640000 (constant (F := Ideal) S_ .f32 0x3F800000#32))

/-- One over the maximum of that and one. -/
def invv (ei : EI) : FVec Ideal S10240 .f32 :=
  Host.divf (F := Ideal) (broadcastInDim S10240 ![] bcast_S_S10240 (constant (F := Ideal) S_ .f32 0x3F800000#32))
    (maximumf (degv ei) (broadcastInDim S10240 ![] bcast_S_S10240 (constant (F := Ideal) S_ .f32 0x3F800000#32)))

/-- The same as a one-column table. -/
def invcol (ei : EI) : FVec Ideal S10240x1 .f32 := shapeCast _ (invv ei) shapeCasts_S10240_S10240x1

set_option maxRecDepth 8192 in
set_option maxHeartbeats 4000000 in
theorem V3_term (m : (ℓ : Loc nD τ sig) → Buf (Elt Ideal) ℓ) (c : Dev nD) :
    (Gen.V3 (F := Ideal) m c main_v17 : S10240x1.Idx → EReal) = invcol (m ((c.tc : Thread nD τ).loc main_arg1)) := by
  rw [Gen.V3_of m c main_v17 (by decide), Gen.V2_of m c main_v17 (by decide)]
  show StableHlo.after Gen.hostOps0 (Gen.V0 m c) (Proc.devRef .tc main_v17) = _
  after_results_simp
  rfl

/-- A word below 10000 read signed is its unsigned value. -/
theorem toInt_of_lt (w : BitVec 32) (h : w.toNat < 10000) : w.toInt = (w.toNat : Int) := by
  rw [BitVec.toInt_eq_toNat_of_lt (by omega)]

/-- Such a word is not below zero as a signed number. -/
theorem slt_zero_of_lt (w : BitVec 32) (h : w.toNat < 10000) : IntOp.cmpi .slt w 0#32 = 0#1 := by
  have h0 : w.slt 0#32 = false := by
    rw [BitVec.slt, toInt_of_lt w h]
    simp
  simp only [IntOp.cmpi, h0]
  rfl

theorem dstw_apply (ei : EI) (e : Fin 640000) : dstw ei (ix1 e) = ei (ix2 (1 : Fin 2) e) := by
  unfold dstw
  refine (shapeCast_apply _ shapeCasts_S1x640000_S640000 (ix1 e) (ix2 (0 : Fin 1) e) ?_).trans ?_
  · rw [Shape.rowMajor_val_two, Shape.rowMajor_val_one]
    show 0 * 640000 + e.val = e.val
    omega
  · exact extractStridedSlice_apply ![1, 0] ei slices_S2x640000_S1x640000_1_0 (ix2 (0 : Fin 1) e) (ix2 (1 : Fin 2) e)
      (fun a => match a with
        | ⟨0, _⟩ => rfl
        | ⟨1, _⟩ => by show e.val = 0 + e.val; omega)

/-- In range, the normalised destination word is the raw word. -/
theorem dstn_apply (ei : EI) (hR : Cert.Sage.InRange ei) (e : Fin 640000) : dstn ei (ix1 e) = ei (ix2 (1 : Fin 2) e) := by
  have hz : (broadcastInDim S640000 ![] bcast_S_S640000 (constantI S_ 32 0#32)) (ix1 e) = 0#32 :=
    broadcastInDim_apply _ bcast_S_S640000 (constantI S_ 32 0#32) (ix1 e) ix0 (fun a => a.elim0)
  have hc : cmpi .slt (dstw ei) (broadcastInDim S640000 ![] bcast_S_S640000 (constantI S_ 32 0#32)) (ix1 e) = 0#1 := by
    show IntOp.cmpi .slt (dstw ei (ix1 e)) ((broadcastInDim S640000 ![] bcast_S_S640000 (constantI S_ 32 0#32)) (ix1 e)) = 0#1
    rw [hz, dstw_apply]
    exact slt_zero_of_lt _ (hR (1 : Fin 2) e)
  unfold dstn
  rw [select_apply, hc, select_zero, dstw_apply]

theorem dcol_apply (ei : EI) (hR : Cert.Sage.InRange ei) (e : Fin 640000) (z : Fin 1) :
    dcol ei (ix2 e z) = ei (ix2 (1 : Fin 2) e) := by
  unfold dcol
  refine (broadcastInDim_apply _ bcast_S640000_S640000x1_0 (dstn ei) (ix2 e z) (ix1 e) (fun a => match a with
    | ⟨0, _⟩ => by show e.val = if (640000 : Nat) = 1 then 0 else e.val; rw [if_neg (by decide)])).trans ?_
  exact dstn_apply ei hR e

/-- The scatter's dimension numbers. -/
abbrev SD := scatter_S10240_S640000x1_S640000_n_0_0_1

/-- A scatter's update lands at i exactly when start plus window coordinate is i's coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      have h' := Option.some.inj h
      intro a
      have ha := hh a
      rw [← h']
      show _ = (((d.start j idx a + (d.window j a : Int)).toNat : Nat) : Int)
      omega
    · exact absurd h (by simp)
  · intro h
    rw [dif_pos (fun a => by have := h a; have := (i a).isLt; constructor <;> omega)]
    refine congrArg some ?_
    funext a
    refine Fin.ext ?_
    show (d.start j idx a + (d.window j a : Int)).toNat = (i a).val
    have := h a
    omega

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scatter's start and window coordinate on its one operand axis. -/
theorem sd_start0 (idx : IVec S640000x1 32) (e : Fin 640000) :
    SD.start (ix1 e) idx 0 = (idx (ix2 e (0 : Fin 1))).toInt := by
  unfold ScatterDims.start
  rw [dif_pos (show (0 : Fin 1) ∈ SD.scatterDimsToOperandDims from List.mem_singleton.mpr rfl)]
  have hsi : SD.siIdx (ix1 e) ⟨List.idxOf (0 : Fin 1) SD.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem sd_window0 (e : Fin 640000) : SD.window (ix1 e) 0 = 0 := by
  unfold ScatterDims.window
  rw [dif_neg (show ¬ (0 : Fin 1) ∈ SD.sKept from by
    intro h
    have := (List.mem_filter.mp h).2
    revert this
    decide)]

/-- Update e lands at r exactly when e's index word, read signed, is r. -/
theorem sd_result_iff (idx : IVec S640000x1 32) (e : Fin 640000) (r : Fin 10240) :
    SD.resultIdx? (ix1 e) idx = some (ix1 r) ↔ (idx (ix2 e (0 : Fin 1))).toInt = (r.val : Int) := by
  rw [resultIdx?_eq_some_iff]
  constructor
  · intro h
    have h0 := h 0
    rw [sd_start0, sd_window0] at h0
    have : ((ix1 r (0 : Fin 1)).val : Int) = (r.val : Int) := rfl
    omega
  · intro h0 a
    match a with
    | ⟨0, _⟩ =>
      show SD.start (ix1 e) idx 0 + (SD.window (ix1 e) 0 : Int) = (r.val : Int)
      rw [sd_start0, sd_window0, h0]; simp

/-- The accumulating scatter read at r: the initial element plus the updates of the edges whose index word is r. -/
theorem scatter_apply (x0 : FVec Ideal S10240 .f32) (idx : IVec S640000x1 32) (upd : FVec Ideal S640000 .f32)
    (r : Fin 10240) :
    Host.scatterAdd (F := Ideal) SD x0 idx upd (ix1 r)
      = x0 (ix1 r) + ∑ e : Fin 640000, if (idx (ix2 e (0 : Fin 1))).toInt = (r.val : Int) then upd (ix1 e) else 0 := by
  show Ideal.hostScatterAdd SD x0 idx upd (ix1 r) = _
  unfold Ideal.hostScatterAdd
  refine congrArg (x0 (ix1 r) + ·) ?_
  rw [Finset.sum_filter, sum_idx1]
  refine Finset.sum_congr rfl fun e _ => ?_
  simp only [sd_result_iff]

/-- The splat constants read at an index: zero and one. -/
theorem zeros_apply (i : S10240.Idx) :
    (broadcastInDim S10240 ![] bcast_S_S10240 (constant (F := Ideal) S_ .f32 0x00000000#32)) i = 0 :=
  (broadcastInDim_apply _ bcast_S_S10240 (constant (F := Ideal) S_ .f32 0x00000000#32) i ix0 (fun a => a.elim0)).trans
    ((constant_apply _ _).trans Ideal.ofBits_zero_f32)
theorem ones_apply (i : S10240.Idx) :
    (broadcastInDim S10240 ![] bcast_S_S10240 (constant (F := Ideal) S_ .f32 0x3F800000#32)) i = 1 :=
  (broadcastInDim_apply _ bcast_S_S10240 (constant (F := Ideal) S_ .f32 0x3F800000#32) i ix0 (fun a => a.elim0)).trans
    ((constant_apply _ _).trans Ideal.ofBits_one_f32)
theorem ones_e_apply (i : S640000.Idx) :
    (broadcastInDim S640000 ![] bcast_S_S640000 (constant (F := Ideal) S_ .f32 0x3F800000#32)) i = 1 :=
  (broadcastInDim_apply _ bcast_S_S640000 (constant (F := Ideal) S_ .f32 0x3F800000#32) i ix0 (fun a => a.elim0)).trans
    ((constant_apply _ _).trans Ideal.ofBits_one_f32)

/-- The scatter of ones at a padded row r is the in-degree of r. -/
theorem degv_apply (ei : EI) (hR : Cert.Sage.InRange ei) (r : Fin 10240) : degv ei (ix1 r) = Cert.Sage.deg ei r.val := by
  unfold degv
  rw [scatter_apply, zeros_apply, zero_add]
  unfold Cert.Sage.deg
  refine Finset.sum_congr rfl fun e _ => ?_
  rw [ones_e_apply, dcol_apply ei hR]
  refine if_congr ?_ rfl rfl
  have hlt : (ei (ix2 (1 : Fin 2) e)).toNat < 10000 := hR (1 : Fin 2) e
  rw [toInt_of_lt _ hlt]
  unfold Cert.Sage.dst
  omega

/-- The quotient of two vectors at an index is the quotient of the elements. -/
theorem hostDivf_apply (A B : FVec Ideal S10240 .f32) (i : S10240.Idx) :
    Host.divf (F := Ideal) A B i = Ideal.div (A i) (B i) := rfl

theorem invv_apply (ei : EI) (hR : Cert.Sage.InRange ei) (r : Fin 10240) :
    invv ei (ix1 r) = Ideal.div 1 (max (Cert.Sage.deg ei r.val) 1) := by
  unfold invv
  rw [hostDivf_apply, maximumf_apply, ones_apply, degv_apply ei hR]

theorem invcol_apply (ei : EI) (hR : Cert.Sage.InRange ei) (r : Fin 10240) :
    invcol ei (ix2 r (0 : Fin 1)) = Ideal.div 1 (max (Cert.Sage.deg ei r.val) 1) := by
  unfold invcol
  refine (shapeCast_apply (invv ei) shapeCasts_S10240_S10240x1 (ix2 r (0 : Fin 1)) (ix1 r) ?_).trans (invv_apply ei hR r)
  rw [Shape.rowMajor_val_two, Shape.rowMajor_val_one]
  show r.val = r.val * 1 + 0
  omega

end HostDeg

/-- After the host operations before the first kernel region, the one-column table the kernel reads holds, at a padded
    row r, one over the maximum of the in-degree of r and one. -/
theorem V3_invdeg (m : (ℓ : Loc nD τ sig) → Buf (Elt Ideal) ℓ) (c : Dev nD)
    (hR : Cert.Sage.InRange (m ((c.tc : Thread nD τ).loc main_arg1))) (r : Fin 10240) :
    Gen.V3 (F := Ideal) m c main_v17 (ix2 r (0 : Fin 1))
      = Ideal.div 1 (max (Cert.Sage.deg (m ((c.tc : Thread nD τ).loc main_arg1)) r.val) 1) := by
  rw [HostDeg.V3_term m c]
  exact HostDeg.invcol_apply _ hR r

end Cert.KernelIdeal.Fr

end
-- ==== Proof.KIHostLayout.lean ====
/-
  What the host operations around the two launches leave in the buffers the launches read, and what the last
  host operation reads back: the feature table padded by 240 zero rows, the two bias vectors viewed as one-row
  matrices, the arguments untouched, and the first 10000 rows of the second launch's result.
-/
import proofs.«415242_j61186104099485_2_alg».proof.Proof.Gen.KernelIdeal.Regions
import proofs.«415242_j61186104099485_2_alg».proof.Proof.Spec
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Fr

open Idealize.ShloMosaic Idealize.ShloMosaic.TcCoe Idealize.ShloMosaic.ValueIdx
open Idealize.SL.Sem

/-! ## The arguments reach the first launch as launched -/

section Args
variable {F : FTy → Type} [FloatOps F]

/-- No host operation before the first launch writes an argument. -/
theorem V3_arg (m : (ℓ : Loc nD τ sig) → Buf (Elt F) ℓ) (c : Dev nD) (b : Ref sig .tc)
    (hb : b ∈ [main_arg0, main_arg1, main_arg2, main_arg3, main_arg4, main_arg5, main_arg6, main_arg7]) :
    Gen.V3 m c b = m ((c.tc : Thread nD τ).loc b) := by
  simp only [List.mem_cons, List.mem_nil_iff, or_false] at hb
  rcases hb with rfl | rfl | rfl | rfl | rfl | rfl | rfl | rfl <;>
    exact (Gen.V3_of m c _ (by decide)).trans <| (Gen.V2_of m c _ (by decide)).trans <| (Gen.V1_of m c _ (by decide)).trans rfl

end Args

/-! ## The later host stretches over any contents -/

/-- The reshape of the second bias writes its own result only. -/
theorem after_hostOps1_of (W : Valuation τ sig (Elt Ideal)) (b : Ref sig .tc) (hb : b ≠ main_v36) :
    StableHlo.after (Gen.hostOps1 (F := Ideal)) W b = W b :=
  StableHlo.after_of_writes_sub Gen.hostOps1 _ Gen.hostOps1_writes (by
    intro h; simp only [Gen.hostOps1_W, List.mem_cons, List.mem_nil_iff, or_false] at h; exact hb h)

/-- The second bias viewed as a one-row matrix. -/
theorem after_hostOps1_b2 (W : Valuation τ sig (Elt Ideal)) (k : Fin 128) :
    StableHlo.after (Gen.hostOps1 (F := Ideal)) W main_v36 (ix2 (0 : Fin 1) k) = W main_arg7 (ix1 k) := by
  have e : (StableHlo.after (Gen.hostOps1 (F := Ideal)) W main_v36 : S1x128.Idx → EReal)
      = shapeCast S1x128 (W main_arg7 : S128.Idx → EReal) Gen.shapeCasts_S128_S1x128 := by
    dsimp only [Gen.hostOps1]; after_results; rfl
  rw [e]
  exact shapeCast_apply _ _ (ix2 (0 : Fin 1) k) (ix1 k) (by
    rw [Shape.rowMajor_val_two, Shape.rowMajor_val_one]; show k.val = 0 * 128 + k.val; omega)

/-- The last host operation keeps the first 10000 rows of the second launch's result. -/
theorem after_hostOps2_out (W : Valuation τ sig (Elt Ideal)) (i : S10000x128.Idx) :
    StableHlo.after (Gen.hostOps2 (F := Ideal)) W main_v38 i
      = W main_v37 (ix2 (⟨(i 0).val, Nat.lt_trans (i 0).isLt (show (10000 : ℕ) < 10240 by decide)⟩ : Fin 10240) (i 1)) := by
  have e : (StableHlo.after (Gen.hostOps2 (F := Ideal)) W main_v38 : S10000x128.Idx → EReal)
      = extractStridedSlice S10000x128 ![0, 0] (W main_v37 : S10240x128.Idx → EReal) Gen.slices_S10240x128_S10000x128_0_0 := by
    dsimp only [Gen.hostOps2]; after_results
  rw [e]
  exact extractStridedSlice_apply _ _ _ i _ (fun a => match a with
    | ⟨0, _⟩ => by show (i 0).val = 0 + (i 0).val; omega
    | ⟨1, _⟩ => by show (i 1).val = 0 + (i 1).val; omega)

/-! ## Before the first launch -/

section First
variable (m : (ℓ : Loc nD τ sig) → Buf (Elt Ideal) ℓ) (c : Dev nD)

/-- The first bias viewed as a one-row matrix. -/
theorem V3_b1 (k : Fin 128) :
    Gen.V3 (F := Ideal) m c main_v34 (ix2 (0 : Fin 1) k) = m ((c.tc : Thread nD τ).loc main_arg4) (ix1 k) := by
  have e : (Gen.V3 (F := Ideal) m c main_v34 : S1x128.Idx → EReal)
      = shapeCast S1x128 (Gen.V2 (F := Ideal) m c main_arg4 : S128.Idx → EReal) Gen.shapeCasts_S128_S1x128 := by
    dsimp only [Gen.V3, Gen.hostOps0_2]; after_results; rfl
  rw [e]
  refine (shapeCast_apply _ _ (ix2 (0 : Fin 1) k) (ix1 k) (by
    rw [Shape.rowMajor_val_two, Shape.rowMajor_val_one]; show k.val = 0 * 128 + k.val; omega)).trans ?_
  rw [Gen.V2_of m c main_arg4 (by decide), Gen.V1_of m c main_arg4 (by decide)]

/-- The integer zero the padding value is converted from: the last operation of the first host stretch writes it. -/
theorem V1_c9 : (Gen.V1 (F := Ideal) m c main_c_9 : IVec S_ 32) = constantI S_ 32 0#32 := by
  show StableHlo.after (Gen.hostOps0 (F := Ideal)) _ (Proc.devRef .tc main_c_9) = _
  after_results

/-- The feature table as the first launch reads it: its 10000 rows, then 240 rows of zeros. -/
theorem V3_X (r : Fin 10240) (j : Fin 128) :
    Gen.V3 (F := Ideal) m c main_v33 (ix2 r j) = Cert.Sage.feat (m ((c.tc : Thread nD τ).loc main_arg0)) r.val j := by
  have e3 : (Gen.V3 (F := Ideal) m c main_v33 : S10240x128.Idx → EReal)
      = (truncf .bf16 (Gen.V2 (F := Ideal) m c main_v32 : FVec Ideal S10240x128 .f32) Gen.bitsLt_bf16_f32 : FVec Ideal S10240x128 .bf16) := by
    dsimp only [Gen.V3, Gen.hostOps0_2]; after_results
  have e2 : (Gen.V2 (F := Ideal) m c main_v32 : S10240x128.Idx → EReal)
      = (pad S10240x128 ![0, 0] ![240, 0] ![0, 0] (Gen.V1 (F := Ideal) m c main_arg0 : FVec Ideal S10000x128 .f32)
          (sitofp .f32 (Gen.V1 (F := Ideal) m c main_c_9 : IVec S_ 32) : FVec Ideal S_ .f32)
          Gen.pads_S10000x128_S10240x128_02400_000 Gen.h_S_ : FVec Ideal S10240x128 .f32) := by
    dsimp only [Gen.V2, Gen.hostOps0_1]; after_results; rfl
  rw [e3, truncf_apply, e2]
  by_cases h : r.val < 10000
  · rw [Cert.Sage.feat, dif_pos h]
    refine (pad_apply_of_inside _ _ _ _ _ _ _ (ix2 r j) (ix2 (⟨r.val, h⟩ : Fin 10000) j) (fun a => match a with
      | ⟨0, _⟩ => by show r.val = 0 + r.val * (0 + 1); omega
      | ⟨1, _⟩ => by show j.val = 0 + j.val * (0 + 1); omega)).trans ?_
    rw [Gen.V1_of m c main_arg0 (by decide)]
  · rw [Cert.Sage.feat, dif_neg h]
    refine (pad_apply_of_not_inside _ _ _ _ _ _ _ (ix2 r j) (0 : Fin 2) (by
      show ¬(0 ≤ r.val ∧ (r.val - 0) % (0 + 1) = 0 ∧ (r.val - 0) / (0 + 1) < 10000); omega)).trans ?_
    rw [sitofp_apply, V1_c9 m c]
    exact sitofp_zero (φ := .f32)

end First

end Cert.KernelIdeal.Fr

end
-- ==== Proof.LayerBridge.lean ====
/-
  The kernel's layer on padded whole arrays IS the specification's layer at every node row.

  With `A r i` the number of edges from `i` into `r` (a sum of ones), `A r · X` is the sum over the edges into `r` of
  the source rows of `X`: the count is a sum of ones, and a sum of non-negative coefficients distributes over any
  extended real. Every source is a node number below 10000, so only the 10000 node rows of the padded table are ever
  read; and multiplying by 1 / max(deg, 1) is dividing by max(deg, 1), a real number at least 1.
-/
import proofs.«415242_j61186104099485_2_alg».proof.Proof.Spec
import proofs.«415242_j61186104099485_2_alg».proof.Proof.KISpec
import proofs.«415242_j61186104099485_2_alg».proof.Proof.EdgeAlgebra

noncomputable section

namespace Cert.Sage

open Idealize.ShloMosaic Idealize.ShloMosaic.ValueIdx

/-- One layer: the padded-array form against the specification, at a node row `r < 10000`, whenever the padded
    table agrees with the feature table on the node rows. -/
theorem lay_eq_layer (ei : Edges) (hR : InRange ei)
    (A : (⟨2, ![10240, 10240]⟩ : Shape).Idx → EReal) (Xk : (⟨2, ![10240, 128]⟩ : Shape).Idx → EReal)
    (invd : (⟨2, ![10240, 1]⟩ : Shape).Idx → EReal) (Ws Wn : Wt) (b' : (⟨2, ![1, 128]⟩ : Shape).Idx → EReal) (b : Bias) (Y : Feat)
    (hA : ∀ r i : Fin 10240, A (ix2 r i) = ∑ e : Fin 640000, if dst ei e = r.val ∧ src ei e = i.val then (1 : EReal) else 0)
    (hinv : ∀ r : Fin 10240, invd (ix2 r (0 : Fin 1)) = Ideal.div 1 (max (deg ei r.val) 1))
    (hb : ∀ k : Fin 128, b' (ix2 (0 : Fin 1) k) = b (ix1 k))
    (hX : ∀ (i : Fin 10240) (j : Fin 128), i.val < 10000 → Xk (ix2 i j) = Y i.val j)
    (r : Fin 10240) (hr : r.val < 10000) (k : Fin 128) :
    lay A Xk invd Ws Wn b' r k = layer ei Ws Wn b Y r.val k := by
  unfold lay layer
  have hagg : ∀ j : Fin 128, (∑ i : Fin 10240, A (ix2 r i) * Xk (ix2 i j)) = agg ei Y r.val j := by
    intro j
    have h1 : (∑ i : Fin 10240, A (ix2 r i) * Xk (ix2 i j))
        = ∑ i : Fin 10240, (∑ e : Fin 640000, if dst ei e = r.val ∧ src ei e = i.val then (1 : EReal) else 0) * Xk (ix2 i j) :=
      Finset.sum_congr rfl fun i _ => congrArg (· * Xk (ix2 i j)) (hA r i)
    rw [h1, count_matmul ei hR (fun i => Xk (ix2 i j)) r.val]
    unfold agg
    refine Finset.sum_congr rfl fun e _ => ?_
    split_ifs with h
    · exact hX ⟨src ei e, _⟩ j (src_lt hR e)
    · rfl
  have e1 : (∑ j : Fin 128, Xk (ix2 r j) * Ws (ix2 k j)) = ∑ j : Fin 128, Y r.val j * Ws (ix2 k j) :=
    Finset.sum_congr rfl fun j _ => by rw [hX r j hr]
  have e2 : (∑ j : Fin 128, ((∑ i : Fin 10240, A (ix2 r i) * Xk (ix2 i j)) * invd (ix2 r (0 : Fin 1))) * Wn (ix2 k j))
      = ∑ j : Fin 128, Ideal.div (agg ei Y r.val j) (max (deg ei r.val) 1) * Wn (ix2 k j) :=
    Finset.sum_congr rfl fun j _ => by rw [hagg j, hinv r, mul_inv_deg]
  rw [e1, e2, hb k]

/-- Two layers: the second layer over the clamped first, on padded arrays, is the network at a node row. -/
theorem G1_G0_eq_net (ei : Edges) (hR : InRange ei) (x : (⟨2, ![10000, 128]⟩ : Shape).Idx → EReal)
    (A : (⟨2, ![10240, 10240]⟩ : Shape).Idx → EReal) (Xk : (⟨2, ![10240, 128]⟩ : Shape).Idx → EReal)
    (invd : (⟨2, ![10240, 1]⟩ : Shape).Idx → EReal) (W1s W1n W2s W2n : Wt)
    (b1' b2' : (⟨2, ![1, 128]⟩ : Shape).Idx → EReal) (b1 b2 : Bias)
    (hA : ∀ r i : Fin 10240, A (ix2 r i) = ∑ e : Fin 640000, if dst ei e = r.val ∧ src ei e = i.val then (1 : EReal) else 0)
    (hinv : ∀ r : Fin 10240, invd (ix2 r (0 : Fin 1)) = Ideal.div 1 (max (deg ei r.val) 1))
    (hb1 : ∀ k : Fin 128, b1' (ix2 (0 : Fin 1) k) = b1 (ix1 k)) (hb2 : ∀ k : Fin 128, b2' (ix2 (0 : Fin 1) k) = b2 (ix1 k))
    (hX : ∀ (i : Fin 10240) (j : Fin 128), Xk (ix2 i j) = feat x i.val j)
    (r : Fin 10240) (hr : r.val < 10000) (k : Fin 128) :
    G1 A (G0 A Xk invd W1s W1n b1') invd W2s W2n b2' (ix2 r k) = net ei x W1s W1n b1 W2s W2n b2 r.val k := by
  unfold G1 net
  refine lay_eq_layer ei hR A _ invd W2s W2n b2' b2 _ hA hinv hb2 (fun i j hi => ?_) r hr k
  unfold G0
  exact congrArg (max · 0) (lay_eq_layer ei hR A Xk invd W1s W1n b1' b1 (feat x) hA hinv hb1 (fun i' j' _ => hX i' j') i hi j)

end Cert.Sage

end
-- ==== Proof.KIValue.lean ====
/-
  What the kernel program's result array holds at the extended reals: the two-layer network at the 10000 node rows.

  The result is the first 10000 rows of the second region's output; that output is the layer on padded whole arrays of
  the first region's output (the first layer clamped at zero), the table of edge counts, the column of inverse degrees,
  the second layer's weights and bias; and the padded-array layers are the specification's at every node row.
-/
import proofs.«415242_j61186104099485_2_alg».proof.Proof.KIRun
import proofs.«415242_j61186104099485_2_alg».proof.Proof.KIBlocks
import proofs.«415242_j61186104099485_2_alg».proof.Proof.KIHostCount
import proofs.«415242_j61186104099485_2_alg».proof.Proof.KIHostDeg
import proofs.«415242_j61186104099485_2_alg».proof.Proof.KIHostLayout
import proofs.«415242_j61186104099485_2_alg».proof.Proof.LayerBridge

noncomputable section

namespace Cert.KernelIdeal.Fr

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ) (c : Dev nD)

/-- The count table, the inverse-degree column and the first layer's weights reach the second region unchanged. -/
theorem E1_of (b : Ref sig .tc) (h1 : b ≠ main_v36) (h2 : b ∉ ([main_v35] : List (Ref sig .tc))) : E1 m c b = V3 m c b :=
  (after_hostOps1_of (W4 m c) b h1).trans (W4_of m c b h2)

/-- The second region's node-feature table is the first region's output: the first layer clamped at zero. -/
theorem E1_hidden : E1 m c main_v35
    = G0 (V3 m c main_v31) (V3 m c main_v33) (V3 m c main_v17) (V3 m c main_arg2) (V3 m c main_arg3) (V3 m c main_v34) :=
  (after_hostOps1_of (W4 m c) main_v35 (by decide)).trans ((W4_out m c).trans (arr0_final (E0 m) c))

/-- THE KERNEL'S VALUE: under the range hypothesis on the edge table, the result array is the network. -/
theorem kernel_value (hR : InRange (m ((c.tc : Thread nD τ).loc main_arg1))) :
    W7 (F := Ideal) m c (Proc.devRef .tc main_v38)
      = Cert.Sage.out (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  funext i
  obtain ⟨r, k, rfl⟩ : ∃ (r : Fin 10000) (k : Fin 128), i = ix2 r k := ⟨i 0, i 1, eq_ix2 i⟩
  refine (after_hostOps2_out (W6 m c) (ix2 r k)).trans ?_
  rw [W6_out m c, arr1_final (E1 m) c, E1_of m c main_v31 (by decide) (by decide), E1_of m c main_v17 (by decide) (by decide),
    E1_of m c main_arg5 (by decide) (by decide), E1_of m c main_arg6 (by decide) (by decide), E1_hidden m c,
    V3_arg m c main_arg2 (by decide), V3_arg m c main_arg3 (by decide), V3_arg m c main_arg5 (by decide), V3_arg m c main_arg6 (by decide)]
  exact G1_G0_eq_net _ hR _ _ _ _ _ _ _ _ _ _ _ _ (V3_count m c hR) (V3_invdeg m c hR) (V3_b1 m c)
    (fun k' => (after_hostOps1_b2 (W4 m c) k').trans (congrFun ((W4_of m c main_arg7 (by decide)).trans (V3_arg m c main_arg7 (by decide))) (ix1 k')))
    (V3_X m c) ⟨r.val, by have := r.isLt; omega⟩ r.isLt k

end Cert.KernelIdeal.Fr

end
-- ==== Proof.RefValue.lean ====
/-
  The reference's result, read at every index, is the two-layer network of the specification.

  Bottom-up, one stage at a time over variables of the literal array types: the two rows of the edge table as flat
  index vectors; the source row unchanged by the "add the row count if negative" step when every endpoint is a node
  number; the row gather at an edge as the table's row at the edge's source; the accumulating scatters as sums over the
  edges into a node; the in-degree and its maximum with one; the two products with transposed weights as sums over the
  128 columns; then one layer as a function of the table it reads, and the network as that function applied twice with
  the maximum with zero in between.
-/
import proofs.«415242_j61186104099485_2_alg».proof.Defs
import proofs.«415242_j61186104099485_2_alg».proof.Proof.Gen.ReferenceIdeal.Run
import proofs.«415242_j61186104099485_2_alg».proof.Proof.Gen.ReferenceIdeal.Read
import proofs.«415242_j61186104099485_2_alg».proof.Proof.Spec
import Idealize.ShloMosaic.Lib.ValueIdx
import Idealize.ShloMosaic.Lib.IdealHost
import Idealize.ShloMosaic.PureOps.Ideal.Laws
import Mathlib.Algebra.BigOperators.Group.Finset.Basic
import Mathlib.Algebra.BigOperators.Group.Finset.Piecewise

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-- The edge table, the feature tables, the weights and the biases, at their literal array types. -/
abbrev EI := IVec S2x640000 32
abbrev X2 := FVec Ideal S10000x128 .f32

/-- Row 0 of the edge table, flattened. -/
theorem v1_apply (ei : EI) (e : Fin 640000) : val_main_v1 (F := Ideal) ei (ix1 e) = ei (ix2 (0 : Fin 2) e) := by
  rw [val_main_v1_apply, val_main_v0_apply]
  refine congrArg ei ?_
  funext a
  match a with
  | ⟨0, _⟩ => rfl
  | ⟨1, _⟩ => exact Fin.ext (Nat.mod_eq_of_lt e.isLt)

/-- Row 1 of the edge table, flattened. -/
theorem v3_apply (ei : EI) (e : Fin 640000) : val_main_v3 (F := Ideal) ei (ix1 e) = ei (ix2 (1 : Fin 2) e) := by
  rw [val_main_v3_apply, val_main_v2_apply]
  refine congrArg ei ?_
  funext a
  match a with
  | ⟨0, _⟩ => rfl
  | ⟨1, _⟩ => exact Fin.ext (Nat.mod_eq_of_lt e.isLt)

/-- A word below 10000 read signed is its unsigned value. -/
theorem toInt_of_lt (w : BitVec 32) (h : w.toNat < 10000) : w.toInt = (w.toNat : Int) := by
  rw [BitVec.toInt_eq_toNat_of_lt (by omega)]

/-- Such a word is not below zero as a signed number. -/
theorem slt_zero_of_lt (w : BitVec 32) (h : w.toNat < 10000) : IntOp.cmpi .slt w 0#32 = 0#1 := by
  have h0 : w.slt 0#32 = false := by
    rw [BitVec.slt, toInt_of_lt w h]
    simp
  simp only [IntOp.cmpi, h0]
  rfl

/-- The normalised source word is the raw word when it is a node number. -/
theorem v8_apply (ei : EI) (hR : Cert.Sage.InRange ei) (e : Fin 640000) :
    val_main_v8 (F := Ideal) ei (ix1 e) = ei (ix2 (0 : Fin 2) e) := by
  rw [val_main_v8_apply, val_main_v5_apply, v1_apply, val_main_v4_apply, val_main_c_apply,
    slt_zero_of_lt _ (hR 0 e), select_zero]

theorem v9_apply (ei : EI) (hR : Cert.Sage.InRange ei) (e : Fin 640000) (z : Fin 1) :
    val_main_v9 (F := Ideal) ei (ix2 e z) = ei (ix2 (0 : Fin 2) e) := by
  rw [val_main_v9_apply]
  exact v8_apply ei hR e

theorem v12_apply (ei : EI) (e : Fin 640000) (z : Fin 1) :
    val_main_v12 (F := Ideal) ei (ix2 e z) = ei (ix2 (1 : Fin 2) e) := by
  rw [val_main_v12_apply]
  exact v3_apply ei e

/-- The row gather's dimension numbers. -/
abbrev GD := gather_S10000x128_S640000x1_S640000x128_1_0_n_n_0_1_1128

/-- The row gather read at (e, k): the table at the start index of e, read signed and clamped into the rows, column k. -/
theorem gather_apply {α : Type} (x : S10000x128.Idx → α) (idx : IVec S640000x1 32) (e : Fin 640000) (k : Fin 128) :
    Host.gather GD x idx (ix2 e k)
      = x (ix2 (⟨min (idx (ix2 e (0 : Fin 1))).toInt.toNat 9999, by omega⟩ : Fin 10000) k) := by
  unfold Host.gather
  refine congrArg x ?_
  funext a
  refine Fin.ext ?_
  match a with
  | ⟨0, _⟩ =>
    show GD.start (ix2 e k) idx 0 + GD.batchCoord (ix2 e k) 0 + GD.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix2 e k) ⟨List.idxOf (0 : Fin 2) GD.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GD.start (ix2 e k) idx 1 + GD.batchCoord (ix2 e k) 1 + GD.offCoord (ix2 e k) 1 = _
    rw [GatherDims.batchCoord_eq_zero _ _ _ List.not_mem_nil]
    have hs : GD.start (ix2 e k) idx 1 = 0 := by
      unfold GatherDims.start
      rw [dif_neg (show ¬ (1 : Fin 2) ∈ GD.startIndexMap from by
        intro h; exact absurd (List.mem_singleton.mp h) (by decide))]
    rw [hs]
    simp only [Nat.add_zero, Nat.zero_add]
    unfold GatherDims.offCoord
    rw [dif_pos (show (1 : Fin 2) ∈ GD.sKept from (GatherDims.mem_sKept _ _).mpr
      ⟨fun h => absurd (List.mem_singleton.mp h) (by decide), List.not_mem_nil⟩)]
    rfl

/-- The two accumulating scatters' dimension numbers: rows of a table, and elements of a vector. -/
abbrev SD2 := scatter_S10000x128_S640000x1_S640000x128_1_0_0_1
abbrev SD1 := scatter_S10000_S640000x1_S640000_n_0_0_1

/-- A scatter's update lands at i exactly when start plus window coordinate is i's coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      have h' := Option.some.inj h
      intro a
      have ha := hh a
      rw [← h']
      show _ = (((d.start j idx a + (d.window j a : Int)).toNat : Nat) : Int)
      omega
    · exact absurd h (by simp)
  · intro h
    rw [dif_pos (fun a => by have := h a; have := (i a).isLt; constructor <;> omega)]
    refine congrArg some ?_
    funext a
    refine Fin.ext ?_
    show (d.start j idx a + (d.window j a : Int)).toNat = (i a).val
    have := h a
    omega

/-- The row scatter's start and window coordinate on the two operand axes. -/
theorem sd2_start0 (idx : IVec S640000x1 32) (e : Fin 640000) (k' : Fin 128) :
    SD2.start (ix2 e k') idx 0 = (idx (ix2 e (0 : Fin 1))).toInt := by
  unfold ScatterDims.start
  rw [dif_pos (show (0 : Fin 2) ∈ SD2.scatterDimsToOperandDims from List.mem_singleton.mpr rfl)]
  have hsi : SD2.siIdx (ix2 e k') ⟨List.idxOf (0 : Fin 2) SD2.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem sd2_start1 (idx : IVec S640000x1 32) (e : Fin 640000) (k' : Fin 128) :
    SD2.start (ix2 e k') idx 1 = 0 := by
  unfold ScatterDims.start
  rw [dif_neg (show ¬ (1 : Fin 2) ∈ SD2.scatterDimsToOperandDims from by
    intro h; exact absurd (List.mem_singleton.mp h) (by decide))]

theorem sd2_window0 (e : Fin 640000) (k' : Fin 128) : SD2.window (ix2 e k') 0 = 0 := by
  unfold ScatterDims.window
  rw [dif_neg (show ¬ (0 : Fin 2) ∈ SD2.sKept from by
    intro h
    have := (List.mem_filter.mp h).2
    revert this
    decide)]

theorem sd2_window1 (e : Fin 640000) (k' : Fin 128) : SD2.window (ix2 e k') 1 = k'.val := by
  unfold ScatterDims.window
  rw [dif_pos (show (1 : Fin 2) ∈ SD2.sKept from by decide)]
  rfl

/-- Update (e, k') of the row scatter lands at (r, k) exactly when e's index word is r and k' = k. -/
theorem sd2_result_iff (idx : IVec S640000x1 32) (e : Fin 640000) (k' : Fin 128) (r : Fin 10000) (k : Fin 128) :
    SD2.resultIdx? (ix2 e k') idx = some (ix2 r k) ↔ ((idx (ix2 e (0 : Fin 1))).toInt = (r.val : Int) ∧ k' = k) := by
  rw [resultIdx?_eq_some_iff]
  constructor
  · intro h
    have h0 := h 0
    have h1 := h 1
    rw [sd2_start0, sd2_window0] at h0
    rw [sd2_start1, sd2_window1] at h1
    refine ⟨?_, Fin.ext ?_⟩
    · have : ((ix2 r k (0 : Fin 2)).val : Int) = (r.val : Int) := rfl
      omega
    · have : ((ix2 r k (1 : Fin 2)).val : Int) = (k.val : Int) := rfl
      omega
  · rintro ⟨h0, rfl⟩ a
    match a with
    | ⟨0, _⟩ =>
      show SD2.start (ix2 e k') idx 0 + (SD2.window (ix2 e k') 0 : Int) = (r.val : Int)
      rw [sd2_start0, sd2_window0, h0]; simp
    | ⟨1, _⟩ =>
      show SD2.start (ix2 e k') idx 1 + (SD2.window (ix2 e k') 1 : Int) = (k'.val : Int)
      rw [sd2_start1, sd2_window1]; simp

/-- The accumulating row scatter read at (r, k): the initial element plus, over the edges whose index word is r,
    column k of the edge's update row. -/
theorem scatter2_apply (x0 : FVec Ideal S10000x128 .f32) (idx : IVec S640000x1 32) (upd : FVec Ideal S640000x128 .f32)
    (r : Fin 10000) (k : Fin 128) :
    Host.scatterAdd (F := Ideal) SD2 x0 idx upd (ix2 r k)
      = x0 (ix2 r k) + ∑ e : Fin 640000, if (idx (ix2 e (0 : Fin 1))).toInt = (r.val : Int) then upd (ix2 e k) else 0 := by
  show Ideal.hostScatterAdd SD2 x0 idx upd (ix2 r k) = _
  unfold Ideal.hostScatterAdd
  refine congrArg (x0 (ix2 r k) + ·) ?_
  rw [Finset.sum_filter, sum_idx2]
  refine Finset.sum_congr rfl fun e _ => ?_
  simp only [sd2_result_iff]
  by_cases hA : (idx (ix2 e (0 : Fin 1))).toInt = (r.val : Int)
  · simp only [hA, true_and, if_true]
    rw [Finset.sum_ite_eq' Finset.univ k (fun k' => upd (ix2 e k'))]
    simp
  · simp only [hA, false_and, if_false]
    exact Finset.sum_const_zero

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's start and window coordinate on its one operand axis. -/
theorem sd1_start0 (idx : IVec S640000x1 32) (e : Fin 640000) :
    SD1.start (ix1 e) idx 0 = (idx (ix2 e (0 : Fin 1))).toInt := by
  unfold ScatterDims.start
  rw [dif_pos (show (0 : Fin 1) ∈ SD1.scatterDimsToOperandDims from List.mem_singleton.mpr rfl)]
  have hsi : SD1.siIdx (ix1 e) ⟨List.idxOf (0 : Fin 1) SD1.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem sd1_window0 (e : Fin 640000) : SD1.window (ix1 e) 0 = 0 := by
  unfold ScatterDims.window
  rw [dif_neg (show ¬ (0 : Fin 1) ∈ SD1.sKept from by
    intro h
    have := (List.mem_filter.mp h).2
    revert this
    decide)]

/-- Update e of the vector scatter lands at r exactly when e's index word is r. -/
theorem sd1_result_iff (idx : IVec S640000x1 32) (e : Fin 640000) (r : Fin 10000) :
    SD1.resultIdx? (ix1 e) idx = some (ix1 r) ↔ (idx (ix2 e (0 : Fin 1))).toInt = (r.val : Int) := by
  rw [resultIdx?_eq_some_iff]
  constructor
  · intro h
    have h0 := h 0
    rw [sd1_start0, sd1_window0] at h0
    have : ((ix1 r (0 : Fin 1)).val : Int) = (r.val : Int) := rfl
    omega
  · intro h0 a
    match a with
    | ⟨0, _⟩ =>
      show SD1.start (ix1 e) idx 0 + (SD1.window (ix1 e) 0 : Int) = (r.val : Int)
      rw [sd1_start0, sd1_window0, h0]; simp

/-- The accumulating scatter of a vector read at r: the initial element plus the updates of the edges whose index word is r. -/
theorem scatter1_apply (x0 : FVec Ideal S10000 .f32) (idx : IVec S640000x1 32) (upd : FVec Ideal S640000 .f32)
    (r : Fin 10000) :
    Host.scatterAdd (F := Ideal) SD1 x0 idx upd (ix1 r)
      = x0 (ix1 r) + ∑ e : Fin 640000, if (idx (ix2 e (0 : Fin 1))).toInt = (r.val : Int) then upd (ix1 e) else 0 := by
  show Ideal.hostScatterAdd SD1 x0 idx upd (ix1 r) = _
  unfold Ideal.hostScatterAdd
  refine congrArg (x0 (ix1 r) + ·) ?_
  rw [Finset.sum_filter, sum_idx1]
  refine Finset.sum_congr rfl fun e _ => ?_
  simp only [sd1_result_iff]

abbrev W2 := FVec Ideal S128x128 .f32
abbrev B1 := FVec Ideal S128 .f32

/-- The splat constants: zero tables and vectors, and the ones. -/
theorem v11_apply (i : S10000x128.Idx) : val_main_v11 (F := Ideal) i = 0 := by
  rw [val_main_v11_apply, val_main_cst_apply, Ideal.ofBits_def, Ideal.ofBits_zero_f32]
theorem v15_apply (i : S10000.Idx) : val_main_v15 (F := Ideal) i = 0 := by
  rw [val_main_v15_apply, val_main_cst_2_apply, Ideal.ofBits_def, Ideal.ofBits_zero_f32]
theorem v14_apply (i : S640000.Idx) : val_main_v14 (F := Ideal) i = 1 := by
  rw [val_main_v14_apply, val_main_cst_1_apply, Ideal.ofBits_def, Ideal.ofBits_one_f32]
theorem v18_apply (i : S10000.Idx) : val_main_v18 (F := Ideal) i = 1 := by
  rw [val_main_v18_apply, val_main_cst_3_apply, Ideal.ofBits_def, Ideal.ofBits_one_f32]
theorem call0_v0_apply (i : S10000x128.Idx) : val_main_call0_v0 (F := Ideal) i = 0 := by
  rw [val_main_call0_v0_apply, val_main_call0_cst_apply, Ideal.ofBits_def, Ideal.ofBits_zero_f32]

/-- In range, both endpoints of an edge are below 10000. -/
theorem src_lt (ei : EI) (hR : Cert.Sage.InRange ei) (e : Fin 640000) : Cert.Sage.src ei e < 10000 := hR (0 : Fin 2) e
theorem dst_lt (ei : EI) (hR : Cert.Sage.InRange ei) (e : Fin 640000) : Cert.Sage.dst ei e < 10000 := hR (1 : Fin 2) e

/-- The gathered source rows: edge e's row is the table's row at the source node of e. -/
theorem gatherT_apply (ei : EI) (hR : Cert.Sage.InRange ei) (Y : X2) (e : Fin 640000) (k : Fin 128) :
    Host.gather GD Y (val_main_v9 (F := Ideal) ei) (ix2 e k) = Y (ix2 (⟨Cert.Sage.src ei e, src_lt ei hR e⟩ : Fin 10000) k) := by
  rw [gather_apply]
  have hlt : (ei (ix2 (0 : Fin 2) e)).toNat < 10000 := hR 0 e
  refine congrArg (fun a : Fin 10000 => Y (ix2 a k)) (Fin.ext ?_)
  show min (val_main_v9 (F := Ideal) ei (ix2 e (0 : Fin 1))).toInt.toNat 9999 = (ei (ix2 (0 : Fin 2) e)).toNat
  rw [v9_apply ei hR, toInt_of_lt _ hlt, Int.toNat_natCast]
  omega

/-- The word at the destination row, read signed, is r exactly when the destination node is r. -/
theorem dst_iff (ei : EI) (hR : Cert.Sage.InRange ei) (e : Fin 640000) (r : Fin 10000) :
    (ei (ix2 (1 : Fin 2) e)).toInt = (r.val : Int) ↔ Cert.Sage.dst ei e = r.val := by
  have hlt : (ei (ix2 (1 : Fin 2) e)).toNat < 10000 := hR 1 e
  rw [toInt_of_lt _ hlt]
  unfold Cert.Sage.dst
  omega

/-- The table a layer aggregates from. -/
def aggT (ei : EI) (Y : X2) : X2 :=
  Host.scatterAdd (F := Ideal) (φ := .f32) SD2 (val_main_v11 (F := Ideal)) (val_main_v12 (F := Ideal) ei) (Host.gather (α := EReal) GD Y (val_main_v9 (F := Ideal) ei))

/-- The aggregated table at (r, k) is the specification's sum over the edges into r. -/
theorem aggT_apply (ei : EI) (hR : Cert.Sage.InRange ei) (Y : X2) (r : Fin 10000) (k : Fin 128) :
    aggT ei Y (ix2 r k) = Cert.Sage.agg ei (Cert.Sage.feat Y) r.val k := by
  unfold aggT
  rw [scatter2_apply, v11_apply, zero_add]
  unfold Cert.Sage.agg
  refine Finset.sum_congr rfl fun e _ => ?_
  rw [v12_apply, gatherT_apply ei hR]
  have hf : Cert.Sage.feat Y (Cert.Sage.src ei e) k = Y (ix2 (⟨Cert.Sage.src ei e, src_lt ei hR e⟩ : Fin 10000) k) := by
    unfold Cert.Sage.feat
    rw [dif_pos (src_lt ei hR e)]
  rw [hf]
  exact if_congr (dst_iff ei hR e r) rfl rfl

/-- The scatter of ones at r is the in-degree of r. -/
theorem deg_apply (ei : EI) (hR : Cert.Sage.InRange ei) (r : Fin 10000) :
    val_main_v17 (F := Ideal) ei (ix1 r) = Cert.Sage.deg ei r.val := by
  unfold val_main_v17
  rw [scatter1_apply, v15_apply, zero_add]
  unfold Cert.Sage.deg
  refine Finset.sum_congr rfl fun e _ => ?_
  rw [val_main_v16_apply, v14_apply]
  have : idx_main_v16 (ix2 e (0 : Fin 1)) = ix1 e := by
    funext a; match a with | ⟨0, _⟩ => rfl
  rw [this, v3_apply]
  exact if_congr (dst_iff ei hR e r) rfl rfl

/-- The divisor table at (r, k): the in-degree of r, at least one. -/
theorem v21_apply (ei : EI) (hR : Cert.Sage.InRange ei) (r : Fin 10000) (k : Fin 128) :
    val_main_v21 (F := Ideal) ei (ix2 r k) = max (Cert.Sage.deg ei r.val) 1 := by
  rw [val_main_v21_apply, val_main_v20_apply, val_main_v19_apply, Ideal.maximumf_def, v18_apply]
  have : idx_main_v20 (idx_main_v21 (ix2 r k)) = ix1 r := by
    funext a; match a with | ⟨0, _⟩ => rfl
  rw [this, deg_apply ei hR]

/-- A table as a feature table, at a node row. -/
theorem feat_apply (Y : X2) (r : Fin 10000) (j : Fin 128) : Cert.Sage.feat Y r.val j = Y (ix2 r j) := by
  unfold Cert.Sage.feat
  rw [dif_pos r.isLt]

/-- A table times a transposed weight, read at (r, k). -/
theorem dotT_apply (M : X2) (W : W2) (r : Fin 10000) (k : Fin 128) :
    val_main_v24 (F := Ideal) M W (ix2 r k) = ∑ j : Fin 128, M (ix2 r j) * W (ix2 k j) := by
  rw [val_main_v24_apply]
  refine Finset.sum_congr rfl fun j _ => ?_
  rw [val_main_v23_apply]
  have h1 : lidx_main_v24 (ix2 r k) j = ix2 r j := by
    funext a; match a with | ⟨0, _⟩ => rfl | ⟨1, _⟩ => rfl
  have h2 : idx_main_v23 (ridx_main_v24 (ix2 r k) j) = ix2 k j := by
    funext a; match a with | ⟨0, _⟩ => rfl | ⟨1, _⟩ => rfl
  rw [h1, h2]

/-- The bias broadcast over the rows, read at (r, k). -/
theorem bias_apply (b : B1) (r : Fin 10000) (k : Fin 128) : val_main_v29 (F := Ideal) b (ix2 r k) = b (ix1 k) := by
  rw [val_main_v29_apply, val_main_v28_apply]
  refine congrArg b ?_
  funext a; match a with | ⟨0, _⟩ => rfl

/-- The quotient of two tables at an index is the quotient of the elements. -/
theorem hostDivf_apply (A B : X2) (i : S10000x128.Idx) : Host.divf (F := Ideal) A B i = Ideal.div (A i) (B i) := rfl

/-- One layer as a function of the table it reads, the two weights and the bias. -/
def layerT (ei : EI) (Y : X2) (Ws Wn : W2) (b : B1) : X2 :=
  addf (addf (val_main_v24 (F := Ideal) Y Ws)
    (val_main_v24 (F := Ideal) (Host.divf (F := Ideal) (aggT ei Y) (val_main_v21 (F := Ideal) ei)) Wn))
    (val_main_v29 (F := Ideal) b)

/-- One layer at (r, k) is the specification's layer over the table as a feature table. -/
theorem layerT_apply (ei : EI) (hR : Cert.Sage.InRange ei) (Y : X2) (Ws Wn : W2) (b : B1) (r : Fin 10000) (k : Fin 128) :
    layerT ei Y Ws Wn b (ix2 r k) = Cert.Sage.layer ei Ws Wn b (Cert.Sage.feat Y) r.val k := by
  unfold layerT Cert.Sage.layer
  rw [addf_apply, addf_apply, dotT_apply, dotT_apply, bias_apply]
  refine congrArg₂ (· + ·) (congrArg₂ (· + ·) ?_ ?_) rfl
  · refine Finset.sum_congr rfl fun j _ => ?_
    rw [feat_apply]
  · refine Finset.sum_congr rfl fun j _ => ?_
    rw [hostDivf_apply, aggT_apply ei hR, v21_apply ei hR]

/-- A layer at a node row reads its table only at node rows. -/
theorem layer_congr (ei : EI) (hR : Cert.Sage.InRange ei) (Ws Wn : W2) (b : B1) (Y Y' : Cert.Sage.Feat)
    (h : ∀ r', r' < 10000 → ∀ j, Y r' j = Y' r' j) (r : ℕ) (hr : r < 10000) (k : Fin 128) :
    Cert.Sage.layer ei Ws Wn b Y r k = Cert.Sage.layer ei Ws Wn b Y' r k := by
  unfold Cert.Sage.layer Cert.Sage.agg
  have hagg : ∀ j, (∑ e : Fin 640000, if Cert.Sage.dst ei e = r then Y (Cert.Sage.src ei e) j else 0)
      = ∑ e : Fin 640000, if Cert.Sage.dst ei e = r then Y' (Cert.Sage.src ei e) j else 0 :=
    fun j => Finset.sum_congr rfl fun e _ => by rw [h _ (src_lt ei hR e) j]
  simp only [hagg, h r hr]

/-- The last stage at (r, k) is the two-layer network. -/
theorem val58_apply (ei : EI) (hR : Cert.Sage.InRange ei) (x0 : X2) (W1s W1n : W2) (b1 : B1) (W2s W2n : W2) (b2 : B1)
    (r : Fin 10000) (k : Fin 128) :
    val_main_v58 (F := Ideal) x0 ei W1s W1n b1 W2s W2n b2 (ix2 r k)
      = Cert.Sage.net ei x0 W1s W1n b1 W2s W2n b2 r.val k := by
  have e58 : val_main_v58 (F := Ideal) x0 ei W1s W1n b1 W2s W2n b2
      = layerT ei (val_main_v31 (F := Ideal) x0 ei W1s W1n b1) W2s W2n b2 := rfl
  have e30 : val_main_v30 (F := Ideal) x0 ei W1s W1n b1 = layerT ei x0 W1s W1n b1 := rfl
  rw [e58, layerT_apply ei hR]
  unfold Cert.Sage.net
  refine layer_congr ei hR _ _ _ _ _ (fun r' hr' j => ?_) r.val r.isLt k
  refine (feat_apply _ (⟨r', hr'⟩ : Fin 10000) j).trans ?_
  rw [val_main_v31_apply, e30, Ideal.maximumf_def, call0_v0_apply, layerT_apply ei hR]

/-- The reference's result is the specification's result array, when every endpoint of the edge table is a node number. -/
theorem ref_value (m : (ℓ : Loc Cert.ReferenceIdeal.nD Cert.ReferenceIdeal.τ Cert.ReferenceIdeal.sig) → Buf (Elt Ideal) ℓ)
    (c : Dev Cert.ReferenceIdeal.nD)
    (hR : Cert.Sage.InRange (m ((c.tc : Thread nD τ).loc main_arg1))) :
    Cert.ReferenceIdeal.Value.res_main_v58 (F := Ideal) m c
      = Cert.Sage.out (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [val_main_v58_eq]
  funext i
  obtain ⟨r, k, rfl⟩ : ∃ (r : Fin 10000) (k : Fin 128), i = ix2 r k := ⟨i 0, i 1, eq_ix2 i⟩
  exact val58_apply _ hR _ _ _ _ _ _ _ r k

end Cert.ReferenceIdeal.RefValue

end
-- ==== Proof.PreRange.lean ====
/-
  The printed precondition, read back at the edge table. Its last conjunct says that every word of the
  2 x 640000 table is, as a signed 32-bit word, at least 0 and below 10000. A word that is non-negative as a signed
  number is its own unsigned value, so every endpoint, read as a natural number, is below 10000.
-/
import proofs.«415242_j61186104099485_2_alg».proof.Pre_finite_inputs
import proofs.«415242_j61186104099485_2_alg».proof.Proof.Spec
import Idealize.ShloMosaic.Lib.ReduceAll
import Idealize.ShloMosaic.Lib.ValueIdx

namespace Cert.Sage

open Idealize.ShloMosaic Idealize.ShloMosaic.ValueIdx

/-- A 32-bit word that is at least 0 and below 10000 as a signed number is below 10000 as a natural number. -/
private theorem toNat_lt_of_signed (w : BitVec 32) (h0 : (0#32).toInt ≤ w.toInt) (h1 : w.toInt < (10000#32).toInt) :
    w.toNat < 10000 := by
  have hw := w.isLt
  have z : (0#32).toInt = 0 := by decide
  have t : (10000#32).toInt = 10000 := by decide
  rw [z] at h0
  rw [t] at h1
  rw [BitVec.toInt_eq_toNat_cond] at h0 h1
  split at h0 <;> omega

/-- Under the precondition every endpoint of the edge table is a node number. -/
theorem inRange_of_pre {F : FTy → Type} [FloatOps F] [Cert.Pre_finite_inputs.Facts]
    (a0 : FVec F Cert.Pre_finite_inputs.S10000x128 .f32) (ei : IVec Cert.Pre_finite_inputs.S2x640000 32)
    (a2 a3 : FVec F Cert.Pre_finite_inputs.S128x128 .f32) (a4 : FVec F Cert.Pre_finite_inputs.S128 .f32)
    (a5 a6 : FVec F Cert.Pre_finite_inputs.S128x128 .f32) (a7 : FVec F Cert.Pre_finite_inputs.S128 .f32)
    (h : Cert.Pre_finite_inputs.fn (F := F) a0 ei a2 a3 a4 a5 a6 a7 = fun _ => 1#1) : InRange ei := by
  intro a e
  have e0 := congrFun h ix0
  dsimp only [Cert.Pre_finite_inputs.fn, Cert.Pre_finite_inputs.fn_part1, Cert.Pre_finite_inputs.fn_part2] at e0
  -- the whole predicate is a conjunction whose last conjunct is the one over the edge table
  have e1 := (IntOp.andi_eq_one.1 e0).2
  -- that conjunct is a conjunction over all the words of the table; its result, a scalar, has one index
  haveI : Subsingleton Cert.Pre_finite_inputs.S_.Idx := ⟨fun _ _ => funext fun d => d.elim0⟩
  have e2 := Host.reduce_andi_all _ _ _ _ _ e1 (ix2 a e)
  obtain ⟨g0, g1⟩ := IntOp.andi_eq_one.1 e2
  exact toNat_lt_of_signed _ (IntOp.cmpi_sge.1 g0) (IntOp.cmpi_slt.1 g1)

end Cert.Sage
-- ==== Proof.lean ====
/-
  The certificate of a two-layer mean-aggregating graph network: the kernel program builds, on the host, the dense
  10240 x 10240 table of edge counts and the column of inverse degrees, and runs each layer as one pallas_call over 20
  row tiles (adjacency tile times the whole feature table, scaled by the inverse degree, then the two weight products
  and the bias); the reference gathers the source rows edge by edge and adds them into the destination rows.

  Over the extended reals the two agree whenever every edge endpoint is a node number (the added evident-domain
  conjunct of the precondition): a count is a sum of ones, so the count row times the table is the sum over the
  edges into the row of the source rows; multiplying by 1 / max(deg, 1) is dividing by max(deg, 1); the padding rows
  of the feature table are never read because no edge starts there, and the padding rows of the result are cut off.

  The three frames: each kernel program's run (its seven items as segments, the node-feature table shared by two
  windows of each region held in halves), and the reference's generated run with the result dropped.
-/
import proofs.«415242_j61186104099485_2_alg».proof.Defs
import proofs.«415242_j61186104099485_2_alg».proof.Proof.Gen.Kernel
import proofs.«415242_j61186104099485_2_alg».proof.Proof.Gen.KernelIdeal
import proofs.«415242_j61186104099485_2_alg».proof.Proof.Gen.ReferenceIdeal
import proofs.«415242_j61186104099485_2_alg».proof.Proof.Gen.Pre_finite_inputs
import proofs.«415242_j61186104099485_2_alg».proof.Proof.Gen.ReferenceIdeal.Run
import proofs.«415242_j61186104099485_2_alg».proof.Proof.KRun
import proofs.«415242_j61186104099485_2_alg».proof.Proof.KIRun
import proofs.«415242_j61186104099485_2_alg».proof.Proof.KIValue
import proofs.«415242_j61186104099485_2_alg».proof.Proof.RefValue
import proofs.«415242_j61186104099485_2_alg».proof.Proof.PreRange
import Idealize.ShloMosaic.Adequacy
import Idealize.ShloMosaic.Init

noncomputable section

namespace Cert.Proof

open Idealize.ShloMosaic Idealize.ShloMosaic.TcCoe Idealize.SL.Sem

theorem frame_k (hK : Cert.Kernel.Facts) (hP : Cert.Pre_finite_inputs.Facts) :
    Cert.frame_Kernel (hKernel := hK) (hPre_finite_inputs := hP) := fun m ρ _ => Cert.Kernel.Fr.frame m ρ
theorem frame_ki (hKI : Cert.KernelIdeal.Facts) (hP : Cert.Pre_finite_inputs.Facts) :
    Cert.frame_KernelIdeal (hKernelIdeal := hKI) (hPre_finite_inputs := hP) := fun m ρ _ => Cert.KernelIdeal.Fr.frame m ρ
theorem frame_ri (hRI : Cert.ReferenceIdeal.Facts) (hP : Cert.Pre_finite_inputs.Facts) :
    Cert.frame_ReferenceIdeal (hReferenceIdeal := hRI) (hPre_finite_inputs := hP) := fun m ρ _ =>
  (θ_run Cert.ReferenceIdeal.defs _ _).mono (fun _ h c => (h c).2) (Cert.ReferenceIdeal.Value.run (F := Ideal) m ρ)

/-- Both programs end with the network's value: the kernel's run read at the result buffer, the reference's generated
    run read through its stages; the edge table is in range by the precondition. -/
theorem algebraic (hKI : Cert.KernelIdeal.Facts) (hRI : Cert.ReferenceIdeal.Facts) (hP : Cert.Pre_finite_inputs.Facts) :
    Cert.algebraic_KernelIdeal_ReferenceIdeal (hKernelIdeal := hKI) (hReferenceIdeal := hRI) (hPre_finite_inputs := hP) := by
  intro m ρ m' ρ' hpre hagree
  haveI := hP
  have hR : ∀ c : Dev Cert.KernelIdeal.nD, Cert.Sage.InRange (m ((c.tc : Thread Cert.KernelIdeal.nD Cert.KernelIdeal.τ).loc Cert.KernelIdeal.main_arg1)) :=
    fun c => Cert.Sage.inRange_of_pre _ _ _ _ _ _ _ _ (hpre c)
  refine ⟨fun c => Cert.Sage.out (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Fr.run_all (F := Ideal) m ρ)
    refine ⟨(h c _ (Cert.KernelIdeal.Fr.mem_uc Cert.KernelIdeal.main_v38 (by decide))).trans (Cert.KernelIdeal.Fr.kernel_value m c (hR c)),
      (h c _ (Cert.KernelIdeal.Fr.mem_uc Cert.KernelIdeal.main_arg0 (by decide))).trans (Cert.KernelIdeal.Fr.W7_main_arg0 m c),
      (h c _ (Cert.KernelIdeal.Fr.mem_uc Cert.KernelIdeal.main_arg1 (by decide))).trans (Cert.KernelIdeal.Fr.W7_main_arg1 m c),
      (h c _ (Cert.KernelIdeal.Fr.mem_uc Cert.KernelIdeal.main_arg2 (by decide))).trans (Cert.KernelIdeal.Fr.W7_main_arg2 m c),
      (h c _ (Cert.KernelIdeal.Fr.mem_uc Cert.KernelIdeal.main_arg3 (by decide))).trans (Cert.KernelIdeal.Fr.W7_main_arg3 m c),
      (h c _ (Cert.KernelIdeal.Fr.mem_uc Cert.KernelIdeal.main_arg4 (by decide))).trans (Cert.KernelIdeal.Fr.W7_main_arg4 m c),
      (h c _ (Cert.KernelIdeal.Fr.mem_uc Cert.KernelIdeal.main_arg5 (by decide))).trans (Cert.KernelIdeal.Fr.W7_main_arg5 m c),
      (h c _ (Cert.KernelIdeal.Fr.mem_uc Cert.KernelIdeal.main_arg6 (by decide))).trans (Cert.KernelIdeal.Fr.W7_main_arg6 m c),
      (h c _ (Cert.KernelIdeal.Fr.mem_uc Cert.KernelIdeal.main_arg7 (by decide))).trans (Cert.KernelIdeal.Fr.W7_main_arg7 m c)⟩
  · refine (θ_run Cert.ReferenceIdeal.defs _ _).mono (fun _ h c => ⟨(h c).1.trans ?_, (h c).2⟩)
      (Cert.ReferenceIdeal.Value.run (F := Ideal) m' ρ')
    have hR' : Cert.Sage.InRange (m' ((c.tc : Thread Cert.ReferenceIdeal.nD Cert.ReferenceIdeal.τ).loc Cert.ReferenceIdeal.main_arg1)) := by
      rw [(hagree c).2.1]; exact hR c
    rw [Cert.ReferenceIdeal.RefValue.ref_value m' c hR', (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k _ _, frame_ki _ _, frame_ri _ _, trivial, algebraic _ _ _⟩

end Cert.Proof

end
